-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S64x128 : Shape := ⟨2, ![64, 128]⟩
abbrev S64 : Shape := ⟨1, ![64]⟩
abbrev S16x64 : Shape := ⟨2, ![16, 64]⟩
abbrev S16 : Shape := ⟨1, ![16]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S16x64 : S_.BroadcastsInDim S16x64 (![] : Fin 0 → Fin S16x64.rank)
  reducesTo_S16x64_S_d0_1 : S16x64.ReducesTo [0, 1] S_
  bcast_S_S16 : S_.BroadcastsInDim S16 (![] : Fin 0 → Fin S16.rank)
  reducesTo_S16_S_d0 : S16.ReducesTo [0] S_

variable [Facts]

def fn_part2 {F : FTy → Type} [FloatOps F] (main_arg8 : FVec F S16 .f32) (main_arg9 : FVec F S16x64 .f32) (main_v33 : IVec S_ 1) : IVec S_ 1 :=
  let main_v34 : FVec F S16 .f32 := Host.absf main_arg8
  let main_cst_12 : FVec F S_ .f32 := constant S_ .f32 0x7F800000#32
  let main_v35 : FVec F S16 .f32 := broadcastInDim S16 ![] bcast_S_S16 main_cst_12
  let main_v36 : IVec S16 1 := cmpf .olt main_v34 main_v35
  let main_c_13 : IVec S_ 1 := constantI S_ 1 1#1
  let main_v37 : IVec S_ 1 := (fun x v => Host.reduce IntOp.andi x v reducesTo_S16_S_d0 h_S_) main_v36 main_c_13
  let main_v38 : IVec S_ 1 := andi main_v33 main_v37
  let main_v39 : FVec F S16x64 .f32 := Host.absf main_arg9
  let main_cst_14 : FVec F S_ .f32 := constant S_ .f32 0x7F800000#32
  let main_v40 : FVec F S16x64 .f32 := broadcastInDim S16x64 ![] bcast_S_S16x64 main_cst_14
  let main_v41 : IVec S16x64 1 := cmpf .olt main_v39 main_v40
  let main_c_15 : IVec S_ 1 := constantI S_ 1 1#1
  let main_v42 : IVec S_ 1 := (fun x v => Host.reduce IntOp.andi x v reducesTo_S16x64_S_d0_1 h_S_) main_v41 main_c_15
  let main_v43 : IVec S_ 1 := andi main_v38 main_v42
  main_v43

def fn_part1 {F : FTy → Type} [FloatOps F] (main_arg5 : FVec F S64 .f32) (main_arg6 : FVec F S64 .f32) (main_arg7 : FVec F S16x64 .f32) (main_arg8 : FVec F S16 .f32) (main_arg9 : FVec F S16x64 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S16x64 .f32 := Host.absf main_arg7
  let main_cst_10 : FVec F S_ .f32 := constant S_ .f32 0x7F800000#32
  let main_v30 : FVec F S16x64 .f32 := broadcastInDim S16x64 ![] bcast_S_S16x64 main_cst_10
  let main_v31 : IVec S16x64 1 := cmpf .olt main_v29 main_v30
  let main_c_11 : IVec S_ 1 := constantI S_ 1 1#1
  let main_v32 : IVec S_ 1 := (fun x v => Host.reduce IntOp.andi x v reducesTo_S16x64_S_d0_1 h_S_) main_v31 main_c_11
  let main_v33 : IVec S_ 1 := andi main_v28 main_v32
  fn_part2 (F := F) main_arg8 main_arg9 main_v33

def fn {F : FTy → Type} [FloatOps F] (main_arg0 : FVec F S100000x128 .f32) (main_arg1 : IVec S2x1600000 32) (main_arg2 : FVec F S64x128 .f32) (main_arg3 : FVec F S64 .f32) (main_arg4 : FVec F S64x128 .f32) (main_arg5 : FVec F S64 .f32) (main_arg6 : FVec F S64 .f32) (main_arg7 : FVec F S16x64 .f32) (main_arg8 : FVec F S16 .f32) (main_arg9 : FVec F S16x64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x128 .f32 := Host.absf main_arg4
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg5 main_arg6 main_arg7 main_arg8 main_arg9 main_v13 main_v16
-- ==== Kernel.lean ====
abbrev S100000x128 : Shape := ⟨2, ![100000, 128]⟩
abbrev S2x1600000 : Shape := ⟨2, ![2, 1600000]⟩
abbrev S64x128 : Shape := ⟨2, ![64, 128]⟩
abbrev S64 : Shape := ⟨1, ![64]⟩
abbrev S16x64 : Shape := ⟨2, ![16, 64]⟩
abbrev S16 : Shape := ⟨1, ![16]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S128x64 : Shape := ⟨2, ![128, 64]⟩
abbrev S1x64 : Shape := ⟨2, ![1, 64]⟩
abbrev S100000x64 : Shape := ⟨2, ![100000, 64]⟩
abbrev S5000x128 : Shape := ⟨2, ![5000, 128]⟩
abbrev S5000x64 : Shape := ⟨2, ![5000, 64]⟩
abbrev S20000x64 : Shape := ⟨2, ![20000, 64]⟩
abbrev S1600000x64 : Shape := ⟨2, ![1600000, 64]⟩
abbrev S64x16 : Shape := ⟨2, ![64, 16]⟩
abbrev S1x16 : Shape := ⟨2, ![1, 16]⟩
abbrev S100000x16 : Shape := ⟨2, ![100000, 16]⟩
abbrev S10000x64 : Shape := ⟨2, ![10000, 64]⟩
abbrev S10000x16 : Shape := ⟨2, ![10000, 16]⟩

abbrev nBuf : Space → Nat
  | .hbm => 115
  | .vmem => 24
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S64x128, .f32⟩
  | .hbm, ⟨3, _⟩ => ⟨S64, .f32⟩
  | .hbm, ⟨4, _⟩ => ⟨S64x128, .f32⟩
  | .hbm, ⟨5, _⟩ => ⟨S64, .f32⟩
  | .hbm, ⟨6, _⟩ => ⟨S64, .f32⟩
  | .hbm, ⟨7, _⟩ => ⟨S16x64, .f32⟩
  | .hbm, ⟨8, _⟩ => ⟨S16, .f32⟩
  | .hbm, ⟨9, _⟩ => ⟨S16x64, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x128, .f32⟩
  | .hbm, ⟨23, _⟩ => ⟨S_, .f32⟩
  | .hbm, ⟨24, _⟩ => ⟨S100000x128, .f32⟩
  | .hbm, ⟨25, _⟩ => ⟨S1600000x1, .i32⟩
  | .hbm, ⟨26, _⟩ => ⟨S100000x128, .f32⟩
  | .hbm, ⟨27, _⟩ => ⟨S_, .f32⟩
  | .hbm, ⟨28, _⟩ => ⟨S1600000, .f32⟩
  | .hbm, ⟨29, _⟩ => ⟨S_, .f32⟩
  | .hbm, ⟨30, _⟩ => ⟨S100000, .f32⟩
  | .hbm, ⟨31, _⟩ => ⟨S1600000x1, .i32⟩
  | .hbm, ⟨32, _⟩ => ⟨S100000, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S100000x1, .f32⟩
  | .hbm, ⟨37, _⟩ => ⟨S100000x128, .f32⟩
  | .hbm, ⟨38, _⟩ => ⟨S100000x128, .f32⟩
  | .hbm, ⟨39, _⟩ => ⟨S128x64, .f32⟩
  | .hbm, ⟨40, _⟩ => ⟨S128x64, .f32⟩
  | .hbm, ⟨41, _⟩ => ⟨S1x64, .f32⟩
  | .hbm, ⟨42, _⟩ => ⟨S100000x64, .f32⟩
  | .hbm, ⟨43, _⟩ => ⟨S_, .f32⟩
  | .hbm, ⟨44, _⟩ => ⟨S64, .f32⟩
  | .hbm, ⟨45, _⟩ => ⟨S_, .f32⟩
  | .hbm, ⟨46, _⟩ => ⟨S64, .f32⟩
  | .hbm, ⟨47, _⟩ => ⟨S64, .f32⟩
  | .hbm, ⟨48, _⟩ => ⟨S_, .i32⟩
  | .hbm, ⟨49, _⟩ => ⟨S_, .f32⟩
  | .hbm, ⟨50, _⟩ => ⟨S64, .f32⟩
  | .hbm, ⟨51, _⟩ => ⟨S1x64, .f32⟩
  | .hbm, ⟨52, _⟩ => ⟨S_, .f32⟩
  | .hbm, ⟨53, _⟩ => ⟨S1x64, .f32⟩
  | .hbm, ⟨54, _⟩ => ⟨S1x64, .f32⟩
  | .hbm, ⟨55, _⟩ => ⟨S100000x64, .f32⟩
  | .hbm, ⟨56, _⟩ => ⟨S100000x64, .f32⟩
  | .hbm, ⟨57, _⟩ => ⟨S100000x64, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S64, .f32⟩
  | .hbm, ⟨63, _⟩ => ⟨S64, .f32⟩
  | .hbm, ⟨64, _⟩ => ⟨S64, .f32⟩
  | .hbm, ⟨65, _⟩ => ⟨S_, .f32⟩
  | .hbm, ⟨66, _⟩ => ⟨S_, .i1⟩
  | .hbm, ⟨67, _⟩ => ⟨S_, .f32⟩
  | .hbm, ⟨68, _⟩ => ⟨S_, .f32⟩
  | .hbm, ⟨69, _⟩ => ⟨S64, .f32⟩
  | .hbm, ⟨70, _⟩ => ⟨S64, .f32⟩
  | .hbm, ⟨71, _⟩ => ⟨S_, .f32⟩
  | .hbm, ⟨72, _⟩ => ⟨S64, .f32⟩
  | .hbm, ⟨73, _⟩ => ⟨S64, .f32⟩
  | .hbm, ⟨74, _⟩ => ⟨S64, .f32⟩
  | .hbm, ⟨75, _⟩ => ⟨S64, .f32⟩
  | .hbm, ⟨76, _⟩ => ⟨S1x64, .f32⟩
  | .hbm, ⟨77, _⟩ => ⟨S64, .f32⟩
  | .hbm, ⟨78, _⟩ => ⟨S64, .f32⟩
  | .hbm, ⟨79, _⟩ => ⟨S64, .f32⟩
  | .hbm, ⟨80, _⟩ => ⟨S1x64, .f32⟩
  | .hbm, ⟨81, _⟩ => ⟨S100000x64, .f32⟩
  | .hbm, ⟨82, _⟩ => ⟨S1x1600000, .i32⟩
  | .hbm, ⟨83, _⟩ => ⟨S1600000, .i32⟩
  | .hbm, ⟨84, _⟩ => ⟨S1x1600000, .i32⟩
  | .hbm, ⟨85, _⟩ => ⟨S1600000, .i32⟩
  | .hbm, ⟨86, _⟩ => ⟨S_, .i32⟩
  | .hbm, ⟨87, _⟩ => ⟨S1600000, .i32⟩
  | .hbm, ⟨88, _⟩ => ⟨S1600000, .i1⟩
  | .hbm, ⟨89, _⟩ => ⟨S_, .i32⟩
  | .hbm, ⟨90, _⟩ => ⟨S1600000, .i32⟩
  | .hbm, ⟨91, _⟩ => ⟨S1600000, .i32⟩
  | .hbm, ⟨92, _⟩ => ⟨S1600000, .i32⟩
  | .hbm, ⟨93, _⟩ => ⟨S1600000x1, .i32⟩
  | .hbm, ⟨94, _⟩ => ⟨S1600000x64, .f32⟩
  | .hbm, ⟨95, _⟩ => ⟨S_, .f32⟩
  | .hbm, ⟨96, _⟩ => ⟨S100000x64, .f32⟩
  | .hbm, ⟨97, _⟩ => ⟨S1600000x1, .i32⟩
  | .hbm, ⟨98, _⟩ => ⟨S100000x64, .f32⟩
  | .hbm, ⟨99, _⟩ => ⟨S_, .f32⟩
  | .hbm, ⟨100, _⟩ => ⟨S1600000, .f32⟩
  | .hbm, ⟨101, _⟩ => ⟨S_, .f32⟩
  | .hbm, ⟨102, _⟩ => ⟨S100000, .f32⟩
  | .hbm, ⟨103, _⟩ => ⟨S1600000x1, .i32⟩
  | .hbm, ⟨104, _⟩ => ⟨S100000, .f32⟩
  | .hbm, ⟨105, _⟩ => ⟨S_, .f32⟩
  | .hbm, ⟨106, _⟩ => ⟨S100000, .f32⟩
  | .hbm, ⟨107, _⟩ => ⟨S100000, .f32⟩
  | .hbm, ⟨108, _⟩ => ⟨S100000x1, .f32⟩
  | .hbm, ⟨109, _⟩ => ⟨S100000x64, .f32⟩
  | .hbm, ⟨110, _⟩ => ⟨S100000x64, .f32⟩
  | .hbm, ⟨111, _⟩ => ⟨S64x16, .f32⟩
  | .hbm, ⟨112, _⟩ => ⟨S64x16, .f32⟩
  | .hbm, ⟨113, _⟩ => ⟨S1x16, .f32⟩
  | .hbm, ⟨114, _⟩ => ⟨S100000x16, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x64, .f32⟩
  | .local _ .vmem, ⟨5, _⟩ => ⟨S1x64, .f32⟩
  | .local _ .vmem, ⟨6, _⟩ => ⟨S128x64, .f32⟩
  | .local _ .vmem, ⟨7, _⟩ => ⟨S5000x64, .f32⟩
  | .local _ .vmem, ⟨8, _⟩ => ⟨S5000x64, .f32⟩
  | .local _ .vmem, ⟨9, _⟩ => ⟨S20000x64, .f32⟩
  | .local _ .vmem, ⟨10, _⟩ => ⟨S20000x64, .f32⟩
  | .local _ .vmem, ⟨11, _⟩ => ⟨S1x64, .f32⟩
  | .local _ .vmem, ⟨12, _⟩ => ⟨S1x64, .f32⟩
  | .local _ .vmem, ⟨13, _⟩ => ⟨S20000x64, .f32⟩
  | .local _ .vmem, ⟨14, _⟩ => ⟨S20000x64, .f32⟩
  | .local _ .vmem, ⟨15, _⟩ => ⟨S10000x64, .f32⟩
  | .local _ .vmem, ⟨16, _⟩ => ⟨S10000x64, .f32⟩
  | .local _ .vmem, ⟨17, _⟩ => ⟨S10000x64, .f32⟩
  | .local _ .vmem, ⟨18, _⟩ => ⟨S10000x64, .f32⟩
  | .local _ .vmem, ⟨19, _⟩ => ⟨S64x16, .f32⟩
  | .local _ .vmem, ⟨20, _⟩ => ⟨S1x16, .f32⟩
  | .local _ .vmem, ⟨21, _⟩ => ⟨S64x16, .f32⟩
  | .local _ .vmem, ⟨22, _⟩ => ⟨S10000x16, .f32⟩
  | .local _ .vmem, ⟨23, _⟩ => ⟨S10000x16, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_4 : Ref sig .tc := ⟨.hbm, 43, rfl⟩
abbrev main_v27 : Ref sig .tc := ⟨.hbm, 44, rfl⟩
abbrev main_cst_5 : Ref sig .tc := ⟨.hbm, 45, rfl⟩
abbrev main_v28 : Ref sig .tc := ⟨.hbm, 46, rfl⟩
abbrev main_v29 : Ref sig .tc := ⟨.hbm, 47, rfl⟩
abbrev main_c_6 : Ref sig .tc := ⟨.hbm, 48, rfl⟩
abbrev main_call0_cst : Ref sig .tc := ⟨.hbm, 49, rfl⟩
abbrev main_call0_v0 : Ref sig .tc := ⟨.hbm, 50, rfl⟩
abbrev main_call0_v1 : Ref sig .tc := ⟨.hbm, 51, rfl⟩
abbrev main_call0_cst_0 : Ref sig .tc := ⟨.hbm, 52, rfl⟩
abbrev main_call0_v2 : Ref sig .tc := ⟨.hbm, 53, rfl⟩
abbrev main_call0_v3 : Ref sig .tc := ⟨.hbm, 54, rfl⟩
abbrev main_call0_v4 : Ref sig .tc := ⟨.hbm, 55, rfl⟩
abbrev main_call0_v5 : Ref sig .tc := ⟨.hbm, 56, rfl⟩
abbrev main_call0_v6 : Ref sig .tc := ⟨.hbm, 57, rfl⟩
abbrev main_call0_v7 : Ref sig .tc := ⟨.hbm, 58, rfl⟩
abbrev main_call0_cst_1 : Ref sig .tc := ⟨.hbm, 59, rfl⟩
abbrev main_call0_v8 : Ref sig .tc := ⟨.hbm, 60, rfl⟩
abbrev main_call0_cst_2 : Ref sig .tc := ⟨.hbm, 61, rfl⟩
abbrev main_call0_v9 : Ref sig .tc := ⟨.hbm, 62, rfl⟩
abbrev main_call0_v10 : Ref sig .tc := ⟨.hbm, 63, rfl⟩
abbrev main_call0_v11 : Ref sig .tc := ⟨.hbm, 64, rfl⟩
abbrev main_call0_cst_3 : Ref sig .tc := ⟨.hbm, 65, rfl⟩
abbrev main_call0_v12 : Ref sig .tc := ⟨.hbm, 66, rfl⟩
abbrev main_call0_cst_4 : Ref sig .tc := ⟨.hbm, 67, rfl⟩
abbrev main_call0_call0_v0 : Ref sig .tc := ⟨.hbm, 68, rfl⟩
abbrev main_call0_call0_v1 : Ref sig .tc := ⟨.hbm, 69, rfl⟩
abbrev main_v30 : Ref sig .tc := ⟨.hbm, 70, rfl⟩
abbrev main_cst_7 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_c_8 : Ref sig .tc := ⟨.hbm, 86, rfl⟩
abbrev main_v45 : Ref sig .tc := ⟨.hbm, 87, rfl⟩
abbrev main_v46 : Ref sig .tc := ⟨.hbm, 88, rfl⟩
abbrev main_c_9 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_cst_10 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_cst_11 : Ref sig .tc := ⟨.hbm, 99, rfl⟩
abbrev main_v55 : Ref sig .tc := ⟨.hbm, 100, rfl⟩
abbrev main_cst_12 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_cst_13 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem3_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S20000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S20000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x16 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x16 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x16 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S10000x16 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S64x128_S128x64_1_0 : S64x128.Transposes [1, 0] S128x64
  shapeCasts_S64_S1x64 : S64.ShapeCasts S1x64
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  reducesTo_S100000x64_S64_d0 : S100000x64.ReducesTo [0] S64
  h_S_ : 0 < S_.numel
  bcast_S_S64 : S_.BroadcastsInDim S64 (![] : Fin 0 → Fin S64.rank)
  bcast_S64_S1x64_1 : S64.BroadcastsInDim S1x64 (![1] : Fin 1 → Fin S1x64.rank)
  bcast_S_S1x64 : S_.BroadcastsInDim S1x64 (![] : Fin 0 → Fin S1x64.rank)
  bcast_S1x64_S100000x64_0_1 : S1x64.BroadcastsInDim S100000x64 (![0, 1] : Fin 2 → Fin S100000x64.rank)
  inb_S20000x64_S20000x64_0_0 : ∀ a, (![0, 0] : Fin 2 → Nat) a + S20000x64.size a ≤ S20000x64.size a
  h_S20000x64 : 0 < S20000x64.numel
  shapeCasts_S20000x64_S20000x64 : S20000x64.ShapeCasts S20000x64
  broadcasts_S1x64_S20000x64 : S1x64.Broadcasts S20000x64
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  transposes_S16x64_S64x16_1_0 : S16x64.Transposes [1, 0] S64x16
  shapeCasts_S16_S1x16 : S16.ShapeCasts S1x16
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S64x16_S64x16_0_0 : ∀ a, (![0, 0] : Fin 2 → Nat) a + S64x16.size a ≤ S64x16.size a
  h_S64x16 : 0 < S64x16.numel
  shapeCasts_S64x16_S64x16 : S64x16.ShapeCasts S64x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  inb_S10000x16_S10000x16_0_0 : ∀ a, (![0, 0] : Fin 2 → Nat) a + S10000x16.size a ≤ S10000x16.size a
  h_S10000x16 : 0 < S10000x16.numel
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S10000x64_S64x16_S10000x16_1_0_0_1_n_n_wf : DotDims.WF S10000x64 S64x16 S10000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x64.size a ≤ S128x64.size a
  hwx0_4 : ∀ i : grid0.Coords, EltTy.bits .f32 = 32 ∨ (Rect.block (s := S128x64) S128x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S100000x64.size a
  hwx0_5 : ∀ i : grid0.Coords, EltTy.bits .f32 = 32 ∨ (Rect.block (s := S100000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S20000x64.size a ≤ S100000x64.size a
  hwx1_0 : ∀ i : grid1.Coords, EltTy.bits .f32 = 32 ∨ (Rect.block (s := S100000x64) S20000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S20000x64.size a ≤ S100000x64.size a
  hwx1_3 : ∀ i : grid1.Coords, EltTy.bits .f32 = 32 ∨ (Rect.block (s := S100000x64) S20000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S100000x64.size a
  hwx2_1 : ∀ i : grid2.Coords, EltTy.bits .f32 = 32 ∨ (Rect.block (s := S100000x64) S10000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x16.size a ≤ S64x16.size a
  hwx2_2 : ∀ i : grid2.Coords, EltTy.bits .f32 = 32 ∨ (Rect.block (s := S64x16) S64x16.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x16.size a ≤ S1x16.size a
  hwx2_3 : ∀ i : grid2.Coords, EltTy.bits .f32 = 32 ∨ (Rect.block (s := S1x16) S1x16.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x16.size a ≤ S64x16.size a
  hwx2_4 : ∀ i : grid2.Coords, EltTy.bits .f32 = 32 ∨ (Rect.block (s := S64x16) S64x16.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10000x16.size a ≤ S100000x16.size a
  hwx2_5 : ∀ i : grid2.Coords, EltTy.bits .f32 = 32 ∨ (Rect.block (s := S100000x16) S10000x16.size (cc2_transform_5 i) (hinb2_5 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S64x16_S10000x16_1_0_0_1_n_n : DotDims S10000x64 S64x16 S10000x16 where
  lhsContracting := [1]
  rhsContracting := [0]
  lhsNonContracting := [0]
  rhsNonContracting := [1]
  lhsBatch := []
  rhsBatch := []
  wf := dot_S10000x64_S64x16_S10000x16_1_0_0_1_n_n_wf

abbrev win0_0 : Pipeline.Window sig grid0 :=
  Pipeline.Window.ofSpec (Memref.whole main_v22) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S128x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v26) S20000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v35) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v39) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v40) S20000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v63) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v40) S10000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v64) S64x16.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v66) S1x16.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v65) S64x16.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v67) S10000x16.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S64x128 : Shape := ⟨2, ![64, 128]⟩
abbrev S64 : Shape := ⟨1, ![64]⟩
abbrev S16x64 : Shape := ⟨2, ![16, 64]⟩
abbrev S16 : Shape := ⟨1, ![16]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S128x64 : Shape := ⟨2, ![128, 64]⟩
abbrev S100000x64 : Shape := ⟨2, ![100000, 64]⟩
abbrev S1x64 : Shape := ⟨2, ![1, 64]⟩
abbrev S1600000x64 : Shape := ⟨2, ![1600000, 64]⟩
abbrev S64x16 : Shape := ⟨2, ![64, 16]⟩
abbrev S100000x16 : Shape := ⟨2, ![100000, 16]⟩
abbrev S1x16 : Shape := ⟨2, ![1, 16]⟩

abbrev nBuf : Space → Nat
  | .hbm => 131
  | .vmem => 0
  | .smem => 0
  | _ => 0

abbrev hbmTy0_0 (i : Nat) : BufTy := match i % 128 with
  | 0 => ⟨S100000x128, .f32⟩
  | 1 => ⟨S2x1600000, .i32⟩
  | 2 => ⟨S64x128, .f32⟩
  | 3 => ⟨S64, .f32⟩
  | 4 => ⟨S64x128, .f32⟩
  | 5 => ⟨S64, .f32⟩
  | 6 => ⟨S64, .f32⟩
  | 7 => ⟨S16x64, .f32⟩
  | 8 => ⟨S16, .f32⟩
  | 9 => ⟨S16x64, .f32⟩
  | 10 => ⟨S1x1600000, .i32⟩
  | 11 => ⟨S1600000, .i32⟩
  | 12 => ⟨S1x1600000, .i32⟩
  | 13 => ⟨S1600000, .i32⟩
  | 14 => ⟨S_, .i32⟩
  | 15 => ⟨S1600000, .i32⟩
  | 16 => ⟨S1600000, .i1⟩
  | 17 => ⟨S_, .i32⟩
  | 18 => ⟨S1600000, .i32⟩
  | 19 => ⟨S1600000, .i32⟩
  | 20 => ⟨S1600000, .i32⟩
  | 21 => ⟨S1600000x1, .i32⟩
  | 22 => ⟨S1600000x128, .f32⟩
  | 23 => ⟨S_, .f32⟩
  | 24 => ⟨S100000x128, .f32⟩
  | 25 => ⟨S1600000x1, .i32⟩
  | 26 => ⟨S100000x128, .f32⟩
  | 27 => ⟨S_, .f32⟩
  | 28 => ⟨S1600000, .f32⟩
  | 29 => ⟨S_, .f32⟩
  | 30 => ⟨S100000, .f32⟩
  | 31 => ⟨S1600000x1, .i32⟩
  | 32 => ⟨S100000, .f32⟩
  | 33 => ⟨S_, .f32⟩
  | 34 => ⟨S100000, .f32⟩
  | 35 => ⟨S100000, .f32⟩
  | 36 => ⟨S100000x1, .f32⟩
  | 37 => ⟨S100000x128, .f32⟩
  | 38 => ⟨S100000x128, .f32⟩
  | 39 => ⟨S128x64, .f32⟩
  | 40 => ⟨S100000x64, .f32⟩
  | 41 => ⟨S1x64, .f32⟩
  | 42 => ⟨S100000x64, .f32⟩
  | 43 => ⟨S100000x64, .f32⟩
  | 44 => ⟨S128x64, .f32⟩
  | 45 => ⟨S100000x64, .f32⟩
  | 46 => ⟨S100000x64, .f32⟩
  | 47 => ⟨S_, .f32⟩
  | 48 => ⟨S64, .f32⟩
  | 49 => ⟨S_, .f32⟩
  | 50 => ⟨S64, .f32⟩
  | 51 => ⟨S64, .f32⟩
  | 52 => ⟨S_, .i32⟩
  | 53 => ⟨S_, .f32⟩
  | 54 => ⟨S64, .f32⟩
  | 55 => ⟨S1x64, .f32⟩
  | 56 => ⟨S_, .f32⟩
  | 57 => ⟨S1x64, .f32⟩
  | 58 => ⟨S1x64, .f32⟩
  | 59 => ⟨S100000x64, .f32⟩
  | 60 => ⟨S100000x64, .f32⟩
  | 61 => ⟨S100000x64, .f32⟩
  | 62 => ⟨S_, .f32⟩
  | 63 => ⟨S_, .f32⟩
  | 64 => ⟨S_, .f32⟩
  | 65 => ⟨S_, .f32⟩
  | 66 => ⟨S64, .f32⟩
  | 67 => ⟨S64, .f32⟩
  | 68 => ⟨S64, .f32⟩
  | 69 => ⟨S_, .f32⟩
  | 70 => ⟨S_, .i1⟩
  | 71 => ⟨S_, .f32⟩
  | 72 => ⟨S_, .f32⟩
  | 73 => ⟨S64, .f32⟩
  | 74 => ⟨S64, .f32⟩
  | 75 => ⟨S1x64, .f32⟩
  | 76 => ⟨S100000x64, .f32⟩
  | 77 => ⟨S100000x64, .f32⟩
  | 78 => ⟨S_, .f32⟩
  | 79 => ⟨S64, .f32⟩
  | 80 => ⟨S64, .f32⟩
  | 81 => ⟨S64, .f32⟩
  | 82 => ⟨S1x64, .f32⟩
  | 83 => ⟨S100000x64, .f32⟩
  | 84 => ⟨S100000x64, .f32⟩
  | 85 => ⟨S1x64, .f32⟩
  | 86 => ⟨S100000x64, .f32⟩
  | 87 => ⟨S100000x64, .f32⟩
  | 88 => ⟨S1x64, .f32⟩
  | 89 => ⟨S100000x64, .f32⟩
  | 90 => ⟨S100000x64, .f32⟩
  | 91 => ⟨S_, .f32⟩
  | 92 => ⟨S100000x64, .f32⟩
  | 93 => ⟨S100000x64, .f32⟩
  | 94 => ⟨S1x1600000, .i32⟩
  | 95 => ⟨S1600000, .i32⟩
  | 96 => ⟨S1x1600000, .i32⟩
  | 97 => ⟨S1600000, .i32⟩
  | 98 => ⟨S_, .i32⟩
  | 99 => ⟨S1600000, .i32⟩
  | 100 => ⟨S1600000, .i1⟩
  | 101 => ⟨S_, .i32⟩
  | 102 => ⟨S1600000, .i32⟩
  | 103 => ⟨S1600000, .i32⟩
  | 104 => ⟨S1600000, .i32⟩
  | 105 => ⟨S1600000x1, .i32⟩
  | 106 => ⟨S1600000x64, .f32⟩
  | 107 => ⟨S_, .f32⟩
  | 108 => ⟨S100000x64, .f32⟩
  | 109 => ⟨S1600000x1, .i32⟩
  | 110 => ⟨S100000x64, .f32⟩
  | 111 => ⟨S_, .f32⟩
  | 112 => ⟨S1600000, .f32⟩
  | 113 => ⟨S_, .f32⟩
  | 114 => ⟨S100000, .f32⟩
  | 115 => ⟨S1600000x1, .i32⟩
  | 116 => ⟨S100000, .f32⟩
  | 117 => ⟨S_, .f32⟩
  | 118 => ⟨S100000, .f32⟩
  | 119 => ⟨S100000, .f32⟩
  | 120 => ⟨S100000x1, .f32⟩
  | 121 => ⟨S100000x64, .f32⟩
  | 122 => ⟨S100000x64, .f32⟩
  | 123 => ⟨S64x16, .f32⟩
  | 124 => ⟨S100000x16, .f32⟩
  | 125 => ⟨S1x16, .f32⟩
  | 126 => ⟨S100000x16, .f32⟩
  | 127 => ⟨S100000x16, .f32⟩
  | _ => ⟨S100000x128, .f32⟩

abbrev hbmTy0_1 (i : Nat) : BufTy := match i % 128 with
  | 0 => ⟨S64x16, .f32⟩
  | 1 => ⟨S100000x16, .f32⟩
  | 2 => ⟨S100000x16, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_4 : Ref sig .tc := ⟨.hbm, 47, rfl⟩
abbrev main_v31 : Ref sig .tc := ⟨.hbm, 48, rfl⟩
abbrev main_cst_5 : Ref sig .tc := ⟨.hbm, 49, rfl⟩
abbrev main_v32 : Ref sig .tc := ⟨.hbm, 50, rfl⟩
abbrev main_v33 : Ref sig .tc := ⟨.hbm, 51, rfl⟩
abbrev main_c_6 : Ref sig .tc := ⟨.hbm, 52, rfl⟩
abbrev main_call0_cst : Ref sig .tc := ⟨.hbm, 53, rfl⟩
abbrev main_call0_v0 : Ref sig .tc := ⟨.hbm, 54, rfl⟩
abbrev main_call0_v1 : Ref sig .tc := ⟨.hbm, 55, rfl⟩
abbrev main_call0_cst_0 : Ref sig .tc := ⟨.hbm, 56, rfl⟩
abbrev main_call0_v2 : Ref sig .tc := ⟨.hbm, 57, rfl⟩
abbrev main_call0_v3 : Ref sig .tc := ⟨.hbm, 58, rfl⟩
abbrev main_call0_v4 : Ref sig .tc := ⟨.hbm, 59, rfl⟩
abbrev main_call0_v5 : Ref sig .tc := ⟨.hbm, 60, rfl⟩
abbrev main_call0_v6 : Ref sig .tc := ⟨.hbm, 61, rfl⟩
abbrev main_call0_v7 : Ref sig .tc := ⟨.hbm, 62, rfl⟩
abbrev main_call0_cst_1 : Ref sig .tc := ⟨.hbm, 63, rfl⟩
abbrev main_call0_v8 : Ref sig .tc := ⟨.hbm, 64, rfl⟩
abbrev main_call0_cst_2 : Ref sig .tc := ⟨.hbm, 65, rfl⟩
abbrev main_call0_v9 : Ref sig .tc := ⟨.hbm, 66, rfl⟩
abbrev main_call0_v10 : Ref sig .tc := ⟨.hbm, 67, rfl⟩
abbrev main_call0_v11 : Ref sig .tc := ⟨.hbm, 68, rfl⟩
abbrev main_call0_cst_3 : Ref sig .tc := ⟨.hbm, 69, rfl⟩
abbrev main_call0_v12 : Ref sig .tc := ⟨.hbm, 70, rfl⟩
abbrev main_call0_cst_4 : Ref sig .tc := ⟨.hbm, 71, rfl⟩
abbrev main_call0_call0_v0 : Ref sig .tc := ⟨.hbm, 72, rfl⟩
abbrev main_call0_call0_v1 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_cst_7 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_call1_cst : Ref sig .tc := ⟨.hbm, 91, rfl⟩
abbrev main_call1_v0 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_c_8 : Ref sig .tc := ⟨.hbm, 98, rfl⟩
abbrev main_v55 : Ref sig .tc := ⟨.hbm, 99, rfl⟩
abbrev main_v56 : Ref sig .tc := ⟨.hbm, 100, rfl⟩
abbrev main_c_9 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_cst_10 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_cst_11 : Ref sig .tc := ⟨.hbm, 111, rfl⟩
abbrev main_v65 : Ref sig .tc := ⟨.hbm, 112, rfl⟩
abbrev main_cst_12 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_cst_13 : Ref sig .tc := ⟨.hbm, 117, rfl⟩
abbrev main_v69 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩
abbrev main_v80 : Ref sig .tc := ⟨.hbm, 129, rfl⟩
abbrev main_v81 : Ref sig .tc := ⟨.hbm, 130, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S64x128_S128x64_1_0 : S64x128.Transposes [1, 0] S128x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S64_d0 : S100000x64.ReducesTo [0] S64
  h_S_ : 0 < S_.numel
  bcast_S_S64 : S_.BroadcastsInDim S64 (![] : Fin 0 → Fin S64.rank)
  bcast_S_S1x64 : S_.BroadcastsInDim S1x64 (![] : Fin 0 → Fin S1x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  transposes_S16x64_S64x16_1_0 : S16x64.Transposes [1, 0] S64x16
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x16_S100000x16_1_0_0_1_n_n_wf : DotDims.WF S100000x64 S64x16 S100000x16 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x16_S100000x16_1_0_0_1_n_n : DotDims S100000x64 S64x16 S100000x16 where
  lhsContracting := [1]
  rhsContracting := [0]
  lhsNonContracting := [0]
  rhsNonContracting := [1]
  lhsBatch := []
  rhsBatch := []
  wf := dot_S100000x64_S64x16_S100000x16_1_0_0_1_n_n_wf

class Facts : Prop extends Facts₀ where

variable [Facts]
-- ==== Proof.Fns.lean ====
import proofs.«149678_j3092376453139_1_alg».proof.KernelIdeal

/-!
# The whole-array host functions of the kernel's program

Around its three kernels the program computes with host operations: the mean of each node's in-neighbours' features
(`agg128`, `agg64`: the edge list's source row gathers rows, its destination row scatters them into sums and into counts,
the sum is divided by `max count 1`), and per column of the first layer's output its mean over the nodes (`colMean`), its
variance (`colVar`) and the reciprocal standard deviation `1 / √(var + ε)` (`invStd`), folded with the affine parameters
into a scale row and a shift row (`scaleRow`, `shiftRow`). Every definition is the printed operations' composition, at any
float instance.
-/

noncomputable section

namespace Cert.KernelIdeal.Fns

open Idealize.ShloMosaic Cert.KernelIdeal

variable {F : FTy → Type} [FloatOps F] [Facts]
open Facts₀ Facts

/-! ## The edge list -/

/-- The edge list's row 0 (sources) as a vector. -/
def srcRow (ei : IVec S2x1600000 32) : IVec S1600000 32 :=
  shapeCast S1600000 (extractStridedSlice S1x1600000 ![0, 0] ei slices_S2x1600000_S1x1600000_0_0) shapeCasts_S1x1600000_S1600000

/-- The edge list's row 1 (destinations) as a vector. -/
def dstRow (ei : IVec S2x1600000 32) : IVec S1600000 32 :=
  shapeCast S1600000 (extractStridedSlice S1x1600000 ![1, 0] ei slices_S2x1600000_S1x1600000_1_0) shapeCasts_S1x1600000_S1600000

/-- The sources as a column of start indices, a negative one counted from the end (`s + 100000`). -/
def srcCol (ei : IVec S2x1600000 32) : IVec S1600000x1 32 :=
  broadcastInDim S1600000x1 ![0] bcast_S1600000_S1600000x1_0
    (select (cmpi .slt (srcRow ei) (broadcastInDim S1600000 ![] bcast_S_S1600000 (constantI S_ 32 0#32)))
      (addi (srcRow ei) (broadcastInDim S1600000 ![] bcast_S_S1600000 (constantI S_ 32 100000#32)))
      (srcRow ei))

/-- The destinations as a column of scatter indices. -/
def dstCol (ei : IVec S2x1600000 32) : IVec S1600000x1 32 :=
  broadcastInDim S1600000x1 ![0] bcast_S1600000_S1600000x1_0 (dstRow ei)

/-- How many edges end at each node, at least one: `max (∑ over the edges into the node of 1) 1`. -/
def degree (ei : IVec S2x1600000 32) : FVec F S100000 .f32 :=
  maximumf
    (Host.scatterAdd scatter_S100000_S1600000x1_S1600000_n_0_0_1
      (broadcastInDim S100000 ![] bcast_S_S100000 (constant S_ .f32 0x00000000#32)) (dstCol ei)
      (broadcastInDim S1600000 ![] bcast_S_S1600000 (constant S_ .f32 0x3F800000#32)))
    (broadcastInDim S100000 ![] bcast_S_S100000 (constant S_ .f32 0x3F800000#32))

/-! ## The neighbourhood mean -/

/-- The mean over each node's in-edges of the source's 128 features (zero for a node no edge ends at). -/
def agg128 (x : FVec F S100000x128 .f32) (ei : IVec S2x1600000 32) : FVec F S100000x128 .f32 :=
  Host.divf
    (Host.scatterAdd scatter_S100000x128_S1600000x1_S1600000x128_1_0_0_1
      (broadcastInDim S100000x128 ![] bcast_S_S100000x128 (constant S_ .f32 0x00000000#32)) (dstCol ei)
      (Host.gather gather_S100000x128_S1600000x1_S1600000x128_1_0_n_n_0_1_1128 x (srcCol ei)))
    (broadcastInDim S100000x128 ![0, 1] bcast_S100000x1_S100000x128_0_1
      (broadcastInDim S100000x1 ![0] bcast_S100000_S100000x1_0 (degree ei)))

/-- The same mean of 64 features. -/
def agg64 (h : FVec F S100000x64 .f32) (ei : IVec S2x1600000 32) : FVec F S100000x64 .f32 :=
  Host.divf
    (Host.scatterAdd scatter_S100000x64_S1600000x1_S1600000x64_1_0_0_1
      (broadcastInDim S100000x64 ![] bcast_S_S100000x64 (constant S_ .f32 0x00000000#32)) (dstCol ei)
      (Host.gather gather_S100000x64_S1600000x1_S1600000x64_1_0_n_n_0_1_164 h (srcCol ei)))
    (broadcastInDim S100000x64 ![0, 1] bcast_S100000x1_S100000x64_0_1
      (broadcastInDim S100000x1 ![0] bcast_S100000_S100000x1_0 (degree ei)))

/-! ## The column statistics -/

/-- The sum of each column over the 100000 nodes. -/
def colSum (h : FVec F S100000x64 .f32) : FVec F S64 .f32 :=
  Host.reduceAdd h (constant S_ .f32 0x00000000#32) reducesTo_S100000x64_S64_d0 h_S_

/-- The mean of each column: its sum over 100000. -/
def colMean (h : FVec F S100000x64 .f32) : FVec F S64 .f32 :=
  Host.divf (colSum h) (broadcastInDim S64 ![] bcast_S_S64 (constant S_ .f32 0x47C35000#32))

/-- The divisor of the variance, `100000 - 0` (no degree of freedom taken off), as a scalar. -/
def varCount : FVec F S_ .f32 :=
  subf (constant S_ .f32 0x47C35000#32) (sitofp .f32 (constantI S_ 32 0#32))

/-- Each entry less its column's mean, the mean taken as a `1 × 64` row. -/
def centred (h : FVec F S100000x64 .f32) : FVec F S100000x64 .f32 :=
  subf h (broadcastInDim S100000x64 ![0, 1] bcast_S1x64_S100000x64_0_1
    (Host.divf (broadcastInDim S1x64 ![1] bcast_S64_S1x64_1 (colSum h))
      (broadcastInDim S1x64 ![] bcast_S_S1x64 (constant S_ .f32 0x47C35000#32))))

/-- The variance of each column: the centred entries squared, summed and divided by the count; where the count
    were not positive the answer would be the not-a-number pattern. -/
def colVar (h : FVec F S100000x64 .f32) : FVec F S64 .f32 :=
  select (broadcastInDim S64 ![] bcast_S_S64 (cmpf .ogt (varCount (F := F)) (constant S_ .f32 0x00000000#32)))
    (Host.divf (colSum (mulf (centred h) (centred h))) (broadcastInDim S64 ![] bcast_S_S64 (varCount (F := F))))
    (broadcastInDim S64 ![] bcast_S_S64 (id (constant S_ .f32 0x7FC00000#32)))

/-- `1 / √(var + ε)` per column, `ε` the float nearest `1e-5`. -/
def invStd (h : FVec F S100000x64 .f32) : FVec F S64 .f32 :=
  Host.rsqrt (addf (colVar h) (broadcastInDim S64 ![] bcast_S_S64 (constant S_ .f32 0x3727C5AC#32)))

/-! ## The normalisation folded: a scale row and a shift row -/

/-- `γ · invStd` as a `1 × 64` row. -/
def scaleRow (g : FVec F S64 .f32) (h : FVec F S100000x64 .f32) : FVec F S1x64 .f32 :=
  shapeCast S1x64 (mulf g (invStd h)) shapeCasts_S64_S1x64

/-- `β - (mean · γ) · invStd` as a `1 × 64` row. -/
def shiftRow (g b : FVec F S64 .f32) (h : FVec F S100000x64 .f32) : FVec F S1x64 .f32 :=
  shapeCast S1x64 (subf b (mulf (mulf (colMean h) g) (invStd h))) shapeCasts_S64_S1x64

end Cert.KernelIdeal.Fns

end
-- ==== Proof.HostReads.lean ====
import proofs.«149678_j3092376453139_1_alg».proof.Proof.Gen.KernelIdeal.Frame
import proofs.«149678_j3092376453139_1_alg».proof.Proof.Fns
import Idealize.ShloMosaic.Lib.StableHlo.Run
import Idealize.ShloMosaic.PureOps.Ideal

/-!
# What the host stretches hand to the three regions

Between the launch and the first region, between one region and the next, the program computes with whole-array host
operations. A stretch is a straight line: each operation writes one buffer from the contents of earlier ones, so what a
buffer holds after the stretch is the composition of the operations on the path that leads to it, applied to what the
stretch found on entry. This module reads off, at the extended reals, every buffer a region takes in:

* before region 0 (from the launch memory): the neighbourhood mean of the node features, the two weight matrices
  transposed, the bias as a row, and the node features themselves, untouched;
* before region 1 (from region 0's exit): the column statistics of region 0's output folded with the affine
  parameters into a scale row and a shift row, and that output itself, untouched;
* before region 2 (from region 1's exit): the neighbourhood mean of region 1's output, the second layer's two weight
  matrices transposed, its bias as a row, and region 1's output itself, untouched.

An argument array is written by no host operation and is no region's output, so wherever a stretch reads one it reads
the launch memory.
-/

set_option maxRecDepth 16384

noncomputable section

namespace Cert.KernelIdeal.HostReads

open Idealize.ShloMosaic Idealize.ShloMosaic.TcCoe Idealize.ShloMosaic.StableHlo
open Cert.KernelIdeal Cert.KernelIdeal.Gen

variable (m : (ℓ : Loc nD τ sig) → Buf (Elt Ideal) ℓ) (ρ : Dev nD → PrngReg)

/-! ## The argument arrays along the run

No operation of a stretch has an argument array as its result, and a region changes only its own windows' arrays, of
which (past the first region) no argument is one. So an argument's buffer holds the launch contents at every boundary
up to the one where it is read. -/

/-- The node features are as launched when region 0 is entered. -/
theorem W1_arg0 (c : Dev nD) : W1 m ρ c (Proc.devRef .tc main_arg0) = m ((c.tc : Thread nD τ).loc main_arg0) := by
  show StableHlo.after hostOps0 (W0 m ρ c) (Proc.devRef .tc main_arg0) = _
  after_results_simp

/-! The normalisation's scale `γ` (argument 5) and shift `β` (argument 6): as launched at region 0's exit. -/

theorem W1_arg5 (c : Dev nD) : W1 m ρ c (Proc.devRef .tc main_arg5) = m ((c.tc : Thread nD τ).loc main_arg5) := by
  show StableHlo.after hostOps0 (W0 m ρ c) (Proc.devRef .tc main_arg5) = _
  after_results_simp
theorem W2_arg5 (c : Dev nD) : W2 m ρ c (Proc.devRef .tc main_arg5) = m ((c.tc : Thread nD τ).loc main_arg5) :=
  (W2_of_ne m ρ c main_arg5 (by decide)).trans (W1_arg5 m ρ c)

theorem W1_arg6 (c : Dev nD) : W1 m ρ c (Proc.devRef .tc main_arg6) = m ((c.tc : Thread nD τ).loc main_arg6) := by
  show StableHlo.after hostOps0 (W0 m ρ c) (Proc.devRef .tc main_arg6) = _
  after_results_simp
theorem W2_arg6 (c : Dev nD) : W2 m ρ c (Proc.devRef .tc main_arg6) = m ((c.tc : Thread nD τ).loc main_arg6) :=
  (W2_of_ne m ρ c main_arg6 (by decide)).trans (W1_arg6 m ρ c)

/-! The edge list (argument 1) and the second layer's weights and bias (arguments 7, 9 and 8): as launched at
    region 1's exit. -/

theorem W1_arg1 (c : Dev nD) : W1 m ρ c (Proc.devRef .tc main_arg1) = m ((c.tc : Thread nD τ).loc main_arg1) := by
  show StableHlo.after hostOps0 (W0 m ρ c) (Proc.devRef .tc main_arg1) = _
  after_results_simp
theorem W2_arg1 (c : Dev nD) : W2 m ρ c (Proc.devRef .tc main_arg1) = m ((c.tc : Thread nD τ).loc main_arg1) :=
  (W2_of_ne m ρ c main_arg1 (by decide)).trans (W1_arg1 m ρ c)
theorem W5_arg1 (c : Dev nD) : W5 m ρ c (Proc.devRef .tc main_arg1) = m ((c.tc : Thread nD τ).loc main_arg1) := by
  show StableHlo.after hostOps1_2 (StableHlo.after hostOps1_1 (StableHlo.after hostOps1 (W2 m ρ c))) (Proc.devRef .tc main_arg1) = _
  after_results_simp
  exact W2_arg1 m ρ c
theorem W6_arg1 (c : Dev nD) : W6 m ρ c (Proc.devRef .tc main_arg1) = m ((c.tc : Thread nD τ).loc main_arg1) :=
  (W6_of_ne m ρ c main_arg1 (by decide)).trans (W5_arg1 m ρ c)

theorem W1_arg7 (c : Dev nD) : W1 m ρ c (Proc.devRef .tc main_arg7) = m ((c.tc : Thread nD τ).loc main_arg7) := by
  show StableHlo.after hostOps0 (W0 m ρ c) (Proc.devRef .tc main_arg7) = _
  after_results_simp
theorem W2_arg7 (c : Dev nD) : W2 m ρ c (Proc.devRef .tc main_arg7) = m ((c.tc : Thread nD τ).loc main_arg7) :=
  (W2_of_ne m ρ c main_arg7 (by decide)).trans (W1_arg7 m ρ c)
theorem W5_arg7 (c : Dev nD) : W5 m ρ c (Proc.devRef .tc main_arg7) = m ((c.tc : Thread nD τ).loc main_arg7) := by
  show StableHlo.after hostOps1_2 (StableHlo.after hostOps1_1 (StableHlo.after hostOps1 (W2 m ρ c))) (Proc.devRef .tc main_arg7) = _
  after_results_simp
  exact W2_arg7 m ρ c
theorem W6_arg7 (c : Dev nD) : W6 m ρ c (Proc.devRef .tc main_arg7) = m ((c.tc : Thread nD τ).loc main_arg7) :=
  (W6_of_ne m ρ c main_arg7 (by decide)).trans (W5_arg7 m ρ c)

theorem W1_arg8 (c : Dev nD) : W1 m ρ c (Proc.devRef .tc main_arg8) = m ((c.tc : Thread nD τ).loc main_arg8) := by
  show StableHlo.after hostOps0 (W0 m ρ c) (Proc.devRef .tc main_arg8) = _
  after_results_simp
theorem W2_arg8 (c : Dev nD) : W2 m ρ c (Proc.devRef .tc main_arg8) = m ((c.tc : Thread nD τ).loc main_arg8) :=
  (W2_of_ne m ρ c main_arg8 (by decide)).trans (W1_arg8 m ρ c)
theorem W5_arg8 (c : Dev nD) : W5 m ρ c (Proc.devRef .tc main_arg8) = m ((c.tc : Thread nD τ).loc main_arg8) := by
  show StableHlo.after hostOps1_2 (StableHlo.after hostOps1_1 (StableHlo.after hostOps1 (W2 m ρ c))) (Proc.devRef .tc main_arg8) = _
  after_results_simp
  exact W2_arg8 m ρ c
theorem W6_arg8 (c : Dev nD) : W6 m ρ c (Proc.devRef .tc main_arg8) = m ((c.tc : Thread nD τ).loc main_arg8) :=
  (W6_of_ne m ρ c main_arg8 (by decide)).trans (W5_arg8 m ρ c)

theorem W1_arg9 (c : Dev nD) : W1 m ρ c (Proc.devRef .tc main_arg9) = m ((c.tc : Thread nD τ).loc main_arg9) := by
  show StableHlo.after hostOps0 (W0 m ρ c) (Proc.devRef .tc main_arg9) = _
  after_results_simp
theorem W2_arg9 (c : Dev nD) : W2 m ρ c (Proc.devRef .tc main_arg9) = m ((c.tc : Thread nD τ).loc main_arg9) :=
  (W2_of_ne m ρ c main_arg9 (by decide)).trans (W1_arg9 m ρ c)
theorem W5_arg9 (c : Dev nD) : W5 m ρ c (Proc.devRef .tc main_arg9) = m ((c.tc : Thread nD τ).loc main_arg9) := by
  show StableHlo.after hostOps1_2 (StableHlo.after hostOps1_1 (StableHlo.after hostOps1 (W2 m ρ c))) (Proc.devRef .tc main_arg9) = _
  after_results_simp
  exact W2_arg9 m ρ c
theorem W6_arg9 (c : Dev nD) : W6 m ρ c (Proc.devRef .tc main_arg9) = m ((c.tc : Thread nD τ).loc main_arg9) :=
  (W6_of_ne m ρ c main_arg9 (by decide)).trans (W5_arg9 m ρ c)

/-! ## Region 0's inputs: the first stretch, from the launch memory -/

set_option maxHeartbeats 4000000 in
/-- The first input: for each node the mean over its in-edges of the source node's 128 features. -/
theorem V1_v22 (c : Dev nD) : (V1 m ρ c main_v22 : S100000x128.Idx → EReal)
    = Fns.agg128 (F := Ideal) (m ((c.tc : Thread nD τ).loc main_arg0)) (m ((c.tc : Thread nD τ).loc main_arg1)) := by
  show StableHlo.after hostOps0 (W0 m ρ c) (Proc.devRef .tc main_v22) = _
  after_results_simp
  rfl

/-- The node features themselves reach region 0 untouched. -/
theorem V1_arg0 (c : Dev nD) : V1 m ρ c main_arg0 = m ((c.tc : Thread nD τ).loc main_arg0) := W1_arg0 m ρ c

/-- The weight matrix applied to the neighbourhood mean, transposed to `128 × 64`. -/
theorem V1_v23 (c : Dev nD) : (V1 m ρ c main_v23 : S128x64.Idx → EReal)
    = transpose S128x64 [1, 0] (m ((c.tc : Thread nD τ).loc main_arg2)) Facts₀.transposes_S64x128_S128x64_1_0 := by
  show StableHlo.after hostOps0 (W0 m ρ c) (Proc.devRef .tc main_v23) = _
  after_results_simp

/-- The weight matrix applied to the node's own features, transposed to `128 × 64`. -/
theorem V1_v24 (c : Dev nD) : (V1 m ρ c main_v24 : S128x64.Idx → EReal)
    = transpose S128x64 [1, 0] (m ((c.tc : Thread nD τ).loc main_arg4)) Facts₀.transposes_S64x128_S128x64_1_0 := by
  show StableHlo.after hostOps0 (W0 m ρ c) (Proc.devRef .tc main_v24) = _
  after_results_simp

/-- The first layer's bias as a `1 × 64` row. -/
theorem V1_v25 (c : Dev nD) : (V1 m ρ c main_v25 : S1x64.Idx → EReal)
    = shapeCast S1x64 (m ((c.tc : Thread nD τ).loc main_arg3)) Facts₀.shapeCasts_S64_S1x64 := by
  show StableHlo.after hostOps0 (W0 m ρ c) (Proc.devRef .tc main_v25) = _
  after_results_simp
  rfl

/-! ## Region 1's inputs: the three stretches after region 0, from its exit

The middle stretch is the variance computation (mean, centring, squares, their sum over the count); the stretch before
it computes the column mean, the one after it the reciprocal standard deviation and the two rows. -/

/-- Region 0's output reaches region 1 untouched. -/
theorem V5_v26 (c : Dev nD) : V5 m ρ c main_v26 = W2 m ρ c (Proc.devRef .tc main_v26) := by
  show StableHlo.after hostOps1_2 (StableHlo.after hostOps1_1 (StableHlo.after hostOps1 (W2 m ρ c))) (Proc.devRef .tc main_v26) = _
  after_results_simp

set_option maxHeartbeats 4000000 in
/-- The scale row: `γ / √(var + ε)` per column of region 0's output. -/
theorem V5_v35 (c : Dev nD) : (V5 m ρ c main_v35 : S1x64.Idx → EReal)
    = Fns.scaleRow (F := Ideal) (m ((c.tc : Thread nD τ).loc main_arg5)) (W2 m ρ c (Proc.devRef .tc main_v26)) := by
  show StableHlo.after hostOps1_2 (StableHlo.after hostOps1_1 (StableHlo.after hostOps1 (W2 m ρ c))) (Proc.devRef .tc main_v35) = _
  after_results_simp
  rw [W2_arg5 m ρ c]
  rfl

set_option maxHeartbeats 4000000 in
/-- The shift row: `β - mean · γ / √(var + ε)` per column of region 0's output. -/
theorem V5_v39 (c : Dev nD) : (V5 m ρ c main_v39 : S1x64.Idx → EReal)
    = Fns.shiftRow (F := Ideal) (m ((c.tc : Thread nD τ).loc main_arg5)) (m ((c.tc : Thread nD τ).loc main_arg6)) (W2 m ρ c (Proc.devRef .tc main_v26)) := by
  show StableHlo.after hostOps1_2 (StableHlo.after hostOps1_1 (StableHlo.after hostOps1 (W2 m ρ c))) (Proc.devRef .tc main_v39) = _
  after_results_simp
  rw [W2_arg5 m ρ c, W2_arg6 m ρ c]
  rfl

/-! ## Region 2's inputs: the last stretch, from region 1's exit -/

set_option maxHeartbeats 4000000 in
/-- The first input: for each node the mean over its in-edges of the source node's 64 features in region 1's
    output. -/
theorem V7_v63 (c : Dev nD) : (V7 m ρ c main_v63 : S100000x64.Idx → EReal)
    = Fns.agg64 (F := Ideal) (W6 m ρ c (Proc.devRef .tc main_v40)) (m ((c.tc : Thread nD τ).loc main_arg1)) := by
  show StableHlo.after hostOps2 (W6 m ρ c) (Proc.devRef .tc main_v63) = _
  after_results_simp
  rw [W6_arg1 m ρ c]
  rfl

/-- Region 1's output reaches region 2 untouched. -/
theorem V7_v40 (c : Dev nD) : V7 m ρ c main_v40 = W6 m ρ c (Proc.devRef .tc main_v40) := by
  show StableHlo.after hostOps2 (W6 m ρ c) (Proc.devRef .tc main_v40) = _
  after_results_simp

/-- The second layer's weight matrix applied to the neighbourhood mean, transposed to `64 × 16`. -/
theorem V7_v64 (c : Dev nD) : (V7 m ρ c main_v64 : S64x16.Idx → EReal)
    = transpose S64x16 [1, 0] (m ((c.tc : Thread nD τ).loc main_arg7)) Facts₀.transposes_S16x64_S64x16_1_0 := by
  show StableHlo.after hostOps2 (W6 m ρ c) (Proc.devRef .tc main_v64) = _
  after_results_simp
  rw [W6_arg7 m ρ c]

/-- The second layer's weight matrix applied to the node's own features, transposed to `64 × 16`. -/
theorem V7_v65 (c : Dev nD) : (V7 m ρ c main_v65 : S64x16.Idx → EReal)
    = transpose S64x16 [1, 0] (m ((c.tc : Thread nD τ).loc main_arg9)) Facts₀.transposes_S16x64_S64x16_1_0 := by
  show StableHlo.after hostOps2 (W6 m ρ c) (Proc.devRef .tc main_v65) = _
  after_results_simp
  rw [W6_arg9 m ρ c]

/-- The second layer's bias as a `1 × 16` row. -/
theorem V7_v66 (c : Dev nD) : (V7 m ρ c main_v66 : S1x16.Idx → EReal)
    = shapeCast S1x16 (m ((c.tc : Thread nD τ).loc main_arg8)) Facts₀.shapeCasts_S16_S1x16 := by
  show StableHlo.after hostOps2 (W6 m ρ c) (Proc.devRef .tc main_v66) = _
  after_results_simp
  rw [W6_arg8 m ρ c]
  rfl

end Cert.KernelIdeal.HostReads

end
-- ==== Proof.Spec.lean ====
import Idealize.ShloMosaic.PureOps.Ideal
import Idealize.ShloMosaic.Lib.ValueIdx

/-!
# The dense parts of a two-layer mean-aggregating graph network, entry by entry

A layer sends node features `x` and their neighbourhood means `a` to `a · wl + x · wr + b`: entry `(r, q)` is
`(∑ k, a[r, k] · wl[k, q] + ∑ k, x[r, k] · wr[k, q]) + b[0, q]` (`sage`). Between the layers every column is
normalised over the nodes and clipped at zero; with the normalisation folded into a scale and a shift per column this is
`max (h[r, q] · sc[0, q] + sh[0, q]) 0` (`affRelu`). `IsReal v` says that no entry of `v` is an infinity: the laws that
join the two spellings of the normalisation (distributivity, cancelling) hold on the reals and fail at `±∞`.
-/

noncomputable section

namespace Cert.Spec

open Idealize.ShloMosaic Idealize.ShloMosaic.ValueIdx

/-- An `m × n` array of extended reals. -/
abbrev Mat (m n : Nat) := (⟨2, ![m, n]⟩ : Shape).Idx → EReal
/-- A vector of `n` extended reals. -/
abbrev Vec1 (n : Nat) := (⟨1, ![n]⟩ : Shape).Idx → EReal

/-- Every entry is a real number (none is `+∞` or `-∞`). -/
def IsReal {ι : Type} (v : ι → EReal) : Prop := ∀ i, ∃ r : ℝ, v i = (r : EReal)

/-- One layer: `a · wl + x · wr + b`, the bias a `1 × N` row. -/
def sage {M K N : Nat} (a x : Mat M K) (wl wr : Mat K N) (b : Mat 1 N) : Mat M N :=
  fun i => ((∑ k : Fin K, a (ix2 (i 0) k) * wl (ix2 k (i 1))) + ∑ k : Fin K, x (ix2 (i 0) k) * wr (ix2 k (i 1)))
    + b (ix2 (0 : Fin 1) (i 1))

theorem sage_apply {M K N : Nat} (a x : Mat M K) (wl wr : Mat K N) (b : Mat 1 N) (r : Fin M) (q : Fin N) :
    sage a x wl wr b (ix2 r q)
      = ((∑ k : Fin K, a (ix2 r k) * wl (ix2 k q)) + ∑ k : Fin K, x (ix2 r k) * wr (ix2 k q)) + b (ix2 (0 : Fin 1) q) := rfl

/-- A scale and a shift per column, then the clip at zero. -/
def affRelu {M N : Nat} (h : Mat M N) (sc sh : Mat 1 N) : Mat M N :=
  fun i => max (h i * sc (ix2 (0 : Fin 1) (i 1)) + sh (ix2 (0 : Fin 1) (i 1))) 0

theorem affRelu_apply {M N : Nat} (h : Mat M N) (sc sh : Mat 1 N) (r : Fin M) (q : Fin N) :
    affRelu h sc sh (ix2 r q) = max (h (ix2 r q) * sc (ix2 (0 : Fin 1) q) + sh (ix2 (0 : Fin 1) q)) 0 := rfl

end Cert.Spec

end
-- ==== Proof.LibContract.lean ====
import Idealize.ShloMosaic.PureOps.Ideal.Laws
import Idealize.ShloMosaic.Lib.ValueIdx

/-!
# The plain contraction `[M, K] × [K, N]` read at an entry, on the extended reals

`DotDims.plain M K N` has the fields of every printed `…_1_0_0_1_n_n` record of rank-2 operands (contract the left
operand's axis 1 with the right operand's axis 0, no batch axes). Over it the host's `dot_general` and a kernel's
`tpu.matmul` into the zero splat are both, at entry `(p, q)`, the sum over `k` of `a[p, k] · b[k, q]`.
-/

noncomputable section

namespace Cert.LibDense

open Idealize.ShloMosaic Idealize.ShloMosaic.ValueIdx

/-! ## The operand indices of the plain contraction, axis by axis

At result index `j` and contraction index `c` the left operand is read at `(j 0, c)` and the right one at `(c, j 1)`:
a kept axis reads the result index at its place, the contracted axis reads the one coordinate of `c`. -/

/-- The left operand's row is the result's row. -/
theorem plain_lhs_0 (M K N : Nat) (j : (⟨2, ![M, N]⟩ : Shape).Idx) (c : (DotDims.plain M K N).contr.Idx) :
    ((DotDims.plain M K N).lhsIdx j c 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column is the contraction index's coordinate. -/
theorem plain_lhs_1 (M K N : Nat) (j : (⟨2, ![M, N]⟩ : Shape).Idx) (c : (DotDims.plain M K N).contr.Idx) :
    ((DotDims.plain M K N).lhsIdx j c 1).val = (c ⟨0, Nat.one_pos⟩).val :=
  (DotDims.plain M K N).lhsIdx_val_of_single rfl j c

/-- The right operand's row is the contraction index's coordinate. -/
theorem plain_rhs_0 (M K N : Nat) (j : (⟨2, ![M, N]⟩ : Shape).Idx) (c : (DotDims.plain M K N).contr.Idx) :
    ((DotDims.plain M K N).rhsIdx j c 0).val = (c ⟨0, Nat.one_pos⟩).val :=
  (DotDims.plain M K N).rhsIdx_val_of_single rfl j c

/-- The right operand's column is the result's column. -/
theorem plain_rhs_1 (M K N : Nat) (j : (⟨2, ![M, N]⟩ : Shape).Idx) (c : (DotDims.plain M K N).contr.Idx) :
    ((DotDims.plain M K N).rhsIdx j c 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the one-axis contraction index, re-indexed by its coordinate `k : Fin K` and with both operand
    indices read off: `∑ k, a[p, k] · b[k, q]`. -/
theorem plain_sum (M K N : Nat) {φ₁ φ₂ : FTy} (a : FVec Ideal (⟨2, ![M, K]⟩ : Shape) φ₁)
    (b : FVec Ideal (⟨2, ![K, N]⟩ : Shape) φ₂) (p : Fin M) (q : Fin N) :
    (∑ c : (DotDims.plain M K N).contr.Idx,
        a ((DotDims.plain M K N).lhsIdx (ix2 p q) c) * b ((DotDims.plain M K N).rhsIdx (ix2 p q) c))
      = ∑ k : Fin K, a (ix2 p k) * b (ix2 k q) := by
  rw [← Equiv.sum_comp (ValueIdx.contrEquiv1 (DotDims.plain M K N) K rfl rfl).symm]
  refine Finset.sum_congr rfl fun k _ => ?_
  have hk := ValueIdx.contrEquiv1_symm_val (DotDims.plain M K N) K rfl rfl k
  have el : (DotDims.plain M K N).lhsIdx (ix2 p q) ((ValueIdx.contrEquiv1 (DotDims.plain M K N) K rfl rfl).symm k)
      = ix2 p k := funext fun x => Fin.ext (by
    match x with
    | ⟨0, _⟩ => exact plain_lhs_0 M K N _ _
    | ⟨1, _⟩ => exact (plain_lhs_1 M K N _ _).trans hk)
  have er : (DotDims.plain M K N).rhsIdx (ix2 p q) ((ValueIdx.contrEquiv1 (DotDims.plain M K N) K rfl rfl).symm k)
      = ix2 k q := funext fun x => Fin.ext (by
    match x with
    | ⟨0, _⟩ => exact (plain_rhs_0 M K N _ _).trans hk
    | ⟨1, _⟩ => exact plain_rhs_1 M K N _ _)
  rw [el, er]

/-! ## The contraction read at an entry -/

/-- The host's `dot_general` over the plain contraction, at entry `(p, q)`: `∑ k, a[p, k] · b[k, q]`. -/
theorem dotGeneral_plain_apply (M K N : Nat) {φ₁ φ₂ : FTy} (prec : Option ContractPrecision)
    (a : FVec Ideal (⟨2, ![M, K]⟩ : Shape) φ₁) (b : FVec Ideal (⟨2, ![K, N]⟩ : Shape) φ₂) (p : Fin M) (q : Fin N) :
    Host.dotGeneral (DotDims.plain M K N) prec a b (ix2 p q) = ∑ k : Fin K, a (ix2 p k) * b (ix2 k q) := by
  simp only [Host.dotGeneral]
  rw [Ideal.dotGeneral_apply]
  exact plain_sum M K N a b p q

/-- A kernel's `tpu.matmul` over the plain contraction into the zero splat, at entry `(p, q)`: the same sum. -/
theorem matmul_plain_zero_apply (M K N : Nat) {φ₁ φ₂ : FTy} (prec : Option ContractPrecision)
    (a : FVec Ideal (⟨2, ![M, K]⟩ : Shape) φ₁) (b : FVec Ideal (⟨2, ![K, N]⟩ : Shape) φ₂) (p : Fin M) (q : Fin N) :
    matmul (DotDims.plain M K N) prec a b (constant (F := Ideal) (⟨2, ![M, N]⟩ : Shape) .f32 0x00000000#32) (ix2 p q)
      = ∑ k : Fin K, a (ix2 p k) * b (ix2 k q) := by
  simp only [matmul]
  rw [Ideal.matmul_constant_zero_apply]
  exact plain_sum M K N a b p q

end Cert.LibDense

end
-- ==== Proof.Region0Value.lean ====
import proofs.«149678_j3092376453139_1_alg».proof.Proof.Gen.KernelIdeal.Frame
import proofs.«149678_j3092376453139_1_alg».proof.Proof.Spec
import proofs.«149678_j3092376453139_1_alg».proof.Proof.LibContract
import Idealize.ShloMosaic.Lib.Pipeline.Value
import Idealize.ShloMosaic.Lib.ValueIdx

/-!
# The first dense layer, as the first kernel leaves it

The first kernel walks the 100000 rows of the node features in 20 tiles of 5000 rows. On a tile it multiplies the
5000 × 128 rows of neighbourhood means by one 128 × 64 weight matrix, the same rows of the features by another, adds the
two products and adds the 1 × 64 bias row to every row. Rounding to the half-width float type before the products changes
nothing over the extended reals.  Tile `t` is written to rows `5000 t … 5000 t + 4999` of the result, and the 20 tiles
fill it, so the whole result is the layer `a · wl + x · wr + b` of the whole arrays, entry by entry.
-/

set_option maxRecDepth 16384

noncomputable section

namespace Cert.KernelIdeal.RegionValue

open Idealize.ShloMosaic Idealize.ShloMosaic.TcCoe Idealize.ShloMosaic.ValueIdx Cert.KernelIdeal Cert.KernelIdeal.Gen
open Idealize.ShloMosaic.Pipeline (Dat)

/-! ## One tile at an entry -/

/-- The tile's contraction pairs axis 1 of the left operand with axis 0 of the right one and has no batch axes. -/
theorem contraction0_plain : dot_S5000x128_S128x64_S5000x64_1_0_0_1_n_n = DotDims.plain 5000 128 64 := rfl

/-- The bias row spread over the tile's 5000 rows reads, at `(p, q)`, the row's entry `q`. -/
theorem biasRow0_apply (b : FVec Ideal S1x64 .f32) (p : Fin 5000) (q : Fin 64) :
    broadcastTo S5000x64 b broadcasts_S1x64_S5000x64 (ix2 p q) = b (ix2 (0 : Fin 1) q) := by
  refine broadcastTo_apply b broadcasts_S1x64_S5000x64 (ix2 p q) (ix2 (0 : Fin 1) q) ?_
  intro a
  match a with
  | ⟨0, _⟩ => exact (if_pos rfl).symm
  | ⟨1, _⟩ => exact (if_neg (show ¬((64 : Nat) = 1) by decide)).symm

/-- Entry `(p, q)` of what the body computes from its five tiles: the two sums of 128 products and the bias entry. -/
theorem tile0_apply (a x : Vec Ideal S5000x128 .f32) (wl wr : Vec Ideal S128x64 .f32) (b : Vec Ideal S1x64 .f32)
    (p : Fin 5000) (q : Fin 64) :
    (k0_pay1 (F := Ideal) a x wl wr b) (ix2 p q)
      = ((∑ k : Fin 128, a (ix2 p k) * wl (ix2 k q)) + ∑ k : Fin 128, x (ix2 p k) * wr (ix2 k q))
        + b (ix2 (0 : Fin 1) q) := by
  unfold k0_pay1
  simp only [shapeCast_self]
  rw [addf_apply, addf_apply, contraction0_plain]
  rw [Cert.LibDense.matmul_plain_zero_apply, Cert.LibDense.matmul_plain_zero_apply, biasRow0_apply]
  rfl

/-- A tile whose row operands are rows `5000 n …` of two whole arrays, and whose other operands are the whole weight
    matrices and bias row, holds at `(p, q)` the layer's entry `(5000 n + p, q)`. -/
theorem tile0_eq_layer (A X : Spec.Mat 100000 128) (WL WR : Spec.Mat 128 64) (B : Spec.Mat 1 64)
    (a x : Vec Ideal S5000x128 .f32) (wl wr : Vec Ideal S128x64 .f32) (b : Vec Ideal S1x64 .f32) (n : Nat)
    (ha : ∀ (y : S5000x128.Idx) (i : S100000x128.Idx), (i 0).val = n * 5000 + (y 0).val → (i 1).val = (y 1).val → a y = A i)
    (hx : ∀ (y : S5000x128.Idx) (i : S100000x128.Idx), (i 0).val = n * 5000 + (y 0).val → (i 1).val = (y 1).val → x y = X i)
    (hwl : wl = WL) (hwr : wr = WR) (hb : b = B)
    (j : S5000x64.Idx) (i : S100000x64.Idx) (hi0 : (i 0).val = n * 5000 + (j 0).val) (hi1 : (i 1).val = (j 1).val) :
    k0_pay1 (F := Ideal) a x wl wr b j = Spec.sage A X WL WR B i := by
  subst hwl hwr hb
  obtain ⟨p, q, rfl⟩ : ∃ (p : Fin 5000) (q : Fin 64), j = ix2 p q := ⟨j 0, j 1, eq_ix2 j⟩
  obtain ⟨r, q', rfl⟩ : ∃ (r : Fin 100000) (q' : Fin 64), i = ix2 r q' := ⟨i 0, i 1, eq_ix2 i⟩
  obtain rfl : q' = q := Fin.ext hi1
  have ea : ∀ k : Fin 128, a (ix2 p k) = A (ix2 r k) := fun k => ha (ix2 p k) (ix2 r k) hi0 rfl
  have ex : ∀ k : Fin 128, x (ix2 p k) = X (ix2 r k) := fun k => hx (ix2 p k) (ix2 r k) hi0 rfl
  rw [tile0_apply, Spec.sage_apply]
  simp only [ea, ex]

/-! ## The tiles' places in the arrays -/

theorem origin2 : (![0, 0] : Fin 2 → Nat) = fun _ => 0 := funext fun a => by fin_cases a <;> rfl

/-- The block indices over the 20 points: the two row operands and the result move down one block per point, the
    weights and the bias stay at block `(0, 0)`. -/
theorem blockIndex0 : ∀ t : Fin cfg0.N,
      win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

variable (V : (c : Dev nD) → (b : Ref sig .tc) → Buf (Elt Ideal) ((c : Thread nD τ).loc b))

/-- The block of neighbourhood means at point `t` is rows `5000 t …` of the array. -/
theorem meansBlock0 (c : Dev nD) (t : Fin cfg0.N) (y : S5000x128.Idx) (i : S100000x128.Idx)
    (h0 : (i 0).val = t.val * 5000 + (y 0).val) (h1 : (i 1).val = (y 1).val) :
    (iblk0 V c 0 t : Vec Ideal S5000x128 .f32) y = (V c main_v22 : S100000x128.Idx → EReal) i := by
  obtain ⟨e0, e1, -⟩ := blockIndex0 t
  unfold iblk0
  rw [View.read_apply]
  show V c main_v22 _ = V c main_v22 _
  congr 1
  funext a
  apply Fin.ext
  match a with
  | ⟨0, _⟩ => show win0_0.index t (0 : Fin 2) * 5000 + 1 * (y 0).val = (i 0).val; rw [e0, h0]; omega
  | ⟨1, _⟩ => show win0_0.index t (1 : Fin 2) * 128 + 1 * (y 1).val = (i 1).val; rw [e1, h1]; omega

/-- The block of features at point `t` is the same rows of the feature array. -/
theorem featuresBlock0 (c : Dev nD) (t : Fin cfg0.N) (y : S5000x128.Idx) (i : S100000x128.Idx)
    (h0 : (i 0).val = t.val * 5000 + (y 0).val) (h1 : (i 1).val = (y 1).val) :
    (iblk0 V c 1 t : Vec Ideal S5000x128 .f32) y = (V c main_arg0 : S100000x128.Idx → EReal) i := by
  obtain ⟨-, -, e0, e1, -⟩ := blockIndex0 t
  unfold iblk0
  rw [View.read_apply]
  show V c main_arg0 _ = V c main_arg0 _
  congr 1
  funext a
  apply Fin.ext
  match a with
  | ⟨0, _⟩ => show win0_1.index t (0 : Fin 2) * 5000 + 1 * (y 0).val = (i 0).val; rw [e0, h0]; omega
  | ⟨1, _⟩ => show win0_1.index t (1 : Fin 2) * 128 + 1 * (y 1).val = (i 1).val; rw [e1, h1]; omega

/-- The left weight matrix is staged whole at every point. -/
theorem leftWeights0 (c : Dev nD) (t : Fin cfg0.N) :
    (iblk0 V c 2 t : Vec Ideal S128x64 .f32) = (V c main_v23 : S128x64.Idx → EReal) := by
  obtain ⟨-, -, -, -, e0, e1, -⟩ := blockIndex0 t
  funext y
  unfold iblk0
  rw [View.read_apply]
  show V c main_v23 _ = V c main_v23 y
  congr 1
  funext a
  apply Fin.ext
  match a with
  | ⟨0, _⟩ => show win0_2.index t (0 : Fin 2) * 128 + 1 * (y 0).val = (y 0).val; rw [e0]; omega
  | ⟨1, _⟩ => show win0_2.index t (1 : Fin 2) * 64 + 1 * (y 1).val = (y 1).val; rw [e1]; omega

/-- So is the bias row. -/
theorem biasRow0 (c : Dev nD) (t : Fin cfg0.N) :
    (iblk0 V c 3 t : Vec Ideal S1x64 .f32) = (V c main_v25 : S1x64.Idx → EReal) := by
  obtain ⟨-, -, -, -, -, -, e0, e1, -⟩ := blockIndex0 t
  funext y
  unfold iblk0
  rw [View.read_apply]
  show V c main_v25 _ = V c main_v25 y
  congr 1
  funext a
  apply Fin.ext
  match a with
  | ⟨0, _⟩ => show win0_3.index t (0 : Fin 2) * 1 + 1 * (y 0).val = (y 0).val; rw [e0]; omega
  | ⟨1, _⟩ => show win0_3.index t (1 : Fin 2) * 64 + 1 * (y 1).val = (y 1).val; rw [e1]; omega

/-- And the right weight matrix. -/
theorem rightWeights0 (c : Dev nD) (t : Fin cfg0.N) :
    (iblk0 V c 4 t : Vec Ideal S128x64 .f32) = (V c main_v24 : S128x64.Idx → EReal) := by
  obtain ⟨-, -, -, -, -, -, -, -, e0, e1, -⟩ := blockIndex0 t
  funext y
  unfold iblk0
  rw [View.read_apply]
  show V c main_v24 _ = V c main_v24 y
  congr 1
  funext a
  apply Fin.ext
  match a with
  | ⟨0, _⟩ => show win0_4.index t (0 : Fin 2) * 128 + 1 * (y 0).val = (y 0).val; rw [e0]; omega
  | ⟨1, _⟩ => show win0_4.index t (1 : Fin 2) * 64 + 1 * (y 1).val = (y 1).val; rw [e1]; omega

/-! ## From the tiles to the whole result -/

/-- The layer of the whole arrays as the kernel finds them. -/
abbrev layer0 (c : Dev nD) : S100000x64.Idx → EReal :=
  Cert.Spec.sage (M := 100000) (K := 128) (N := 64) (V c main_v22) (V c main_arg0) (V c main_v23) (V c main_v24) (V c main_v25)

/-- What point `t` writes back is block `t` of the layer. -/
theorem flushed0_eq (c : Dev nD) (t : Fin cfg0.N) :
    (dat0 V c).flushed 5 t = ((cfg0.win 5).blk t).view.read (Elt Ideal) (layer0 V c) := by
  show (cfg0.win 5).cut (grid0.coords t) ((dat0 V c).after 5 t) = _
  rw [after0_5]
  unfold out0_5
  rw [View.canon_unit_zero origin2]
  simp only [View.ld_unit_zero (S := S5000x128) origin2, View.ld_unit_zero (S := S128x64) origin2,
    View.ld_unit_zero (S := S1x64) origin2]
  obtain ⟨-, -, -, -, -, -, -, -, -, -, e0, e1⟩ := blockIndex0 t
  funext j
  show k0_pay1 (F := Ideal) (iblk0 V c 0 t) (iblk0 V c 1 t) (iblk0 V c 2 t) (iblk0 V c 4 t) (iblk0 V c 3 t) j
    = layer0 V c (((cfg0.win 5).blk t).view.emb j)
  refine tile0_eq_layer _ _ _ _ _ _ _ _ _ _ t.val (fun y i h0 h1 => meansBlock0 V c t y i h0 h1)
    (fun y i h0 h1 => featuresBlock0 V c t y i h0 h1) (leftWeights0 V c t) (rightWeights0 V c t) (biasRow0 V c t) j _ ?_ ?_
  · show win0_5.index t (0 : Fin 2) * 5000 + 1 * (j 0).val = t.val * 5000 + (j 0).val
    rw [e0]; omega
  · show win0_5.index t (1 : Fin 2) * 64 + 1 * (j 1).val = (j 1).val
    rw [e1]; omega

/-- An index of the result lies in point `t`'s block iff each coordinate lies in the block's range on its axis. -/
theorem mem_block0 (t : Fin cfg0.N) (i : S100000x64.Idx) :
    i ∈ ((cfg0.win 5).blk t).view.set ↔ ∀ a : Fin 2, win0_5.index t a * S5000x64.size a ≤ (i a).val
      ∧ (i a).val < win0_5.index t a * S5000x64.size a + S5000x64.size a := by
  show i ∈ ((View.whole main_v26).slice (win0_5.rect t)).set ↔ _
  rw [View.set_slice_whole, Rect.mem_set_unit]
  exact Iff.rfl

/-- Row `r` of the result lies in the block of point `r / 5000`. -/
theorem covered0 (i : S100000x64.Idx) :
    ∃ t : Fin cfg0.N, (cfg0.win 5).flush t = true ∧ i ∈ ((cfg0.win 5).blk t).view.set := by
  have hi0 : (i 0).val < 100000 := (i 0).isLt
  have hi1 : (i 1).val < 64 := (i 1).isLt
  obtain ⟨t, ht⟩ : ∃ t : Fin cfg0.N, t.val = (i 0).val / 5000 :=
    ⟨⟨(i 0).val / 5000, by show (i 0).val / 5000 < grid0.N; rw [N_0]; omega⟩, rfl⟩
  obtain ⟨-, -, -, -, -, -, -, -, -, -, e0, e1⟩ := blockIndex0 t
  refine ⟨t, flush0_5 t, ?_⟩
  rw [mem_block0]
  intro a
  match a with
  | ⟨0, _⟩ =>
    show win0_5.index t (0 : Fin 2) * 5000 ≤ (i 0).val ∧ (i 0).val < win0_5.index t (0 : Fin 2) * 5000 + 5000
    rw [e0, ht]; omega
  | ⟨1, _⟩ =>
    show win0_5.index t (1 : Fin 2) * 64 ≤ (i 1).val ∧ (i 1).val < win0_5.index t (1 : Fin 2) * 64 + 64
    rw [e1]; omega

/-- THE RESULT of the first kernel: the layer of the arrays as the kernel finds them. -/
theorem arrAt0 (c : Dev nD) :
    ((dat0 V c).arrAt 5 cfg0.N : S100000x64.Idx → EReal)
      = Cert.Spec.sage (M := 100000) (K := 128) (N := 64) (V c main_v22) (V c main_arg0) (V c main_v23) (V c main_v24)
          (V c main_v25) :=
  (dat0 V c).arrAt_eq_of_cover 5 (layer0 V c) (fun t _ => flushed0_eq V c t) covered0

end Cert.KernelIdeal.RegionValue

end
-- ==== Proof.Region1Value.lean ====
import proofs.«149678_j3092376453139_1_alg».proof.Proof.Gen.KernelIdeal.Frame
import proofs.«149678_j3092376453139_1_alg».proof.Proof.Spec
import Idealize.ShloMosaic.Lib.Pipeline.Value
import Idealize.ShloMosaic.Lib.ValueIdx
import Idealize.ShloMosaic.Lib.ValueLayout
import Idealize.ShloMosaic.PureOps.Ideal.Laws

/-!
# The second call: scale, shift and clip, over the whole 100000 × 64 array

The call walks five grid points. Point `t` takes rows `20000 t … 20000 t + 19999` of the first layer's output `h`,
together with the whole scale row `sc` and the whole shift row `sh` (both `1 × 64`, the same at every point), and writes
the same rows of the result. On a tile the body computes `max (h · sc + sh) 0`, the two rows repeated down the tile's
20000 rows. So entry `(r, q)` of the result is `max (h[r, q] · sc[0, q] + sh[0, q]) 0`, whichever tile row `r` falls in:
the five tiles are restrictions of one function of the three arrays, and they cover every row, since row `r` lies in
tile `r / 20000`.

The steps: one entry of the tile's arithmetic; the block indices of the four windows at a grid point; each staged block
read back as entries of its array; hence what a point writes is the matching block of the whole-array function; the tiles
cover the array; the array after the call.
-/

set_option maxRecDepth 16384

noncomputable section

namespace Cert.KernelIdeal.RegionValue

open Idealize.ShloMosaic Idealize.ShloMosaic.TcCoe Idealize.ShloMosaic.ValueIdx Cert.KernelIdeal Cert.KernelIdeal.Gen
open Idealize.ShloMosaic.Pipeline (Dat)

variable (V : (c : Dev nD) → (b : Ref sig .tc) → Buf (Elt Ideal) ((c : Thread nD τ).loc b))

namespace ScaleShiftClip

/-- The offsets `(0, 0)`, as the constant function `0`. -/
theorem zeroOffsets : (![0, 0] : Fin 2 → Nat) = fun _ => 0 := funext fun a => by fin_cases a <;> rfl

/-! ## The tile's arithmetic at one entry -/

/-- Entry `(p, q)` of the tile the body stores: the tile's own entry times the scale row's entry of column `q`, plus the
    shift row's, clipped below at zero. A `1 × 64` row repeated down the rows reads its column `q` at `(p, q)`; the
    zero word is the number `0`. -/
theorem tile_entry (h : Vec Ideal S20000x64 .f32) (sc sh : Vec Ideal S1x64 .f32) (p : Fin 20000) (q : Fin 64) :
    k1_pay1 (F := Ideal) h sc sh (ix2 p q)
      = max (h (ix2 p q) * sc (ix2 (0 : Fin 1) q) + sh (ix2 (0 : Fin 1) q)) 0 := by
  unfold k1_pay1
  show max (shapeCast S20000x64 h _ (ix2 p q) * broadcastTo S20000x64 (shapeCast S1x64 sc _) _ (ix2 p q)
      + broadcastTo S20000x64 (shapeCast S1x64 sh _) _ (ix2 p q)) (Ideal.ofBits .f32 0x00000000#32) = _
  rw [broadcastTo_1b_ab_apply, broadcastTo_1b_ab_apply, shapeCast_self, shapeCast_self, shapeCast_self,
    Ideal.ofBits_zero_f32]

/-! ## Where each window's block sits -/

/-- The block indices at the five grid points: the tile of `h` and the tile of the result both sit at block row `t`,
    block column `0`; the scale row and the shift row are block `(0, 0)` at every point. -/
theorem index_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-! ## The staged blocks as entries of their arrays

A block's coordinate on an axis is the block index times the block's extent plus the coordinate inside the block. -/

/-- Entry `(p, q)` of point `t`'s tile of `h` is `h[20000 t + p, q]`. -/
theorem hidden_block_entry (c : Dev nD) (t : Fin cfg1.N) (p : Fin 20000) (q : Fin 64) (r : Fin 100000)
    (hr : r.val = t.val * 20000 + p.val) :
    (iblk1 V c 0 t : Vec Ideal S20000x64 .f32) (ix2 p q) = (V c main_v26 : S100000x64.Idx → EReal) (ix2 r q) := by
  obtain ⟨e0, e1, -⟩ := index_facts t
  show V c main_v26 (((cfg1.win 0).blk t).view.emb (ix2 p q)) = V c main_v26 (ix2 r q)
  refine congrArg _ (funext fun a => Fin.ext ?_)
  match a with
  | ⟨0, _⟩ => show win1_0.index t (0 : Fin 2) * 20000 + 1 * p.val = r.val; omega
  | ⟨1, _⟩ => show win1_0.index t (1 : Fin 2) * 64 + 1 * q.val = q.val; omega

/-- The staged scale row is the scale row, at every point. -/
theorem scale_block_entry (c : Dev nD) (t : Fin cfg1.N) (q : Fin 64) :
    (iblk1 V c 1 t : Vec Ideal S1x64 .f32) (ix2 (0 : Fin 1) q)
      = (V c main_v35 : S1x64.Idx → EReal) (ix2 (0 : Fin 1) q) := by
  obtain ⟨-, -, e0, e1, -⟩ := index_facts t
  show V c main_v35 (((cfg1.win 1).blk t).view.emb (ix2 (0 : Fin 1) q)) = V c main_v35 (ix2 (0 : Fin 1) q)
  refine congrArg _ (funext fun a => Fin.ext ?_)
  match a with
  | ⟨0, _⟩ => show win1_1.index t (0 : Fin 2) * 1 + 1 * 0 = 0; omega
  | ⟨1, _⟩ => show win1_1.index t (1 : Fin 2) * 64 + 1 * q.val = q.val; omega

/-- The staged shift row is the shift row, at every point. -/
theorem shift_block_entry (c : Dev nD) (t : Fin cfg1.N) (q : Fin 64) :
    (iblk1 V c 2 t : Vec Ideal S1x64 .f32) (ix2 (0 : Fin 1) q)
      = (V c main_v39 : S1x64.Idx → EReal) (ix2 (0 : Fin 1) q) := by
  obtain ⟨-, -, -, -, e0, e1, -⟩ := index_facts t
  show V c main_v39 (((cfg1.win 2).blk t).view.emb (ix2 (0 : Fin 1) q)) = V c main_v39 (ix2 (0 : Fin 1) q)
  refine congrArg _ (funext fun a => Fin.ext ?_)
  match a with
  | ⟨0, _⟩ => show win1_2.index t (0 : Fin 2) * 1 + 1 * 0 = 0; omega
  | ⟨1, _⟩ => show win1_2.index t (1 : Fin 2) * 64 + 1 * q.val = q.val; omega

/-! ## What a point writes back -/

/-- Point `t` writes rows `20000 t … 20000 t + 19999` of `max (h · sc + sh) 0`: the body's one store fills the whole
    staging tile, its entry `(p, q)` is the arithmetic above on the three staged blocks, and those are `h[20000 t + p, q]`,
    `sc[0, q]`, `sh[0, q]`. -/
theorem flushed_eq (c : Dev nD) (t : Fin cfg1.N) :
    (dat1 V c).flushed 3 t = ((cfg1.win 3).blk t).view.read (Elt Ideal)
      (Cert.Spec.affRelu (M := 100000) (N := 64) (V c main_v26) (V c main_v35) (V c main_v39)) := by
  show (cfg1.win 3).cut (grid1.coords t) ((dat1 V c).after 3 t) = _
  rw [after1_3]
  unfold out1_3
  rw [View.canon_unit_zero zeroOffsets]
  simp only [View.ld_unit_zero (S := S20000x64) zeroOffsets, View.ld_unit_zero (S := S1x64) zeroOffsets]
  obtain ⟨-, -, -, -, -, -, e0, e1⟩ := index_facts t
  have ht : t.val < 5 := lt_of_lt_of_eq t.isLt N_1
  funext j
  obtain ⟨p, q, rfl⟩ : ∃ (p : Fin 20000) (q : Fin 64), j = ix2 p q := ⟨j 0, j 1, eq_ix2 j⟩
  have hp := p.isLt
  -- entry (p, q) of the result's tile at point t is entry (20000 t + p, q) of the array
  have hemb : ((cfg1.win 3).blk t).view.emb (ix2 p q)
      = ix2 (⟨t.val * 20000 + p.val, by omega⟩ : Fin 100000) q := by
    funext a; apply Fin.ext
    match a with
    | ⟨0, _⟩ => show win1_3.index t (0 : Fin 2) * 20000 + 1 * p.val = t.val * 20000 + p.val; omega
    | ⟨1, _⟩ => show win1_3.index t (1 : Fin 2) * 64 + 1 * q.val = q.val; omega
  show k1_pay1 (F := Ideal) (iblk1 V c 0 t) (iblk1 V c 1 t) (iblk1 V c 2 t) (ix2 p q)
    = Cert.Spec.affRelu (M := 100000) (N := 64) (V c main_v26) (V c main_v35) (V c main_v39)
        (((cfg1.win 3).blk t).view.emb (ix2 p q))
  rw [hemb, Cert.Spec.affRelu_apply]
  refine (tile_entry (iblk1 V c 0 t) (iblk1 V c 1 t) (iblk1 V c 2 t) p q).trans ?_
  rw [hidden_block_entry V c t p q ⟨t.val * 20000 + p.val, by omega⟩ rfl, scale_block_entry V c t q,
    shift_block_entry V c t q]

/-! ## The five tiles cover the array -/

/-- An entry of the array lies in point `t`'s tile iff each coordinate lies in the tile's range on its axis. -/
theorem mem_block (t : Fin cfg1.N) (i : S100000x64.Idx) :
    i ∈ ((cfg1.win 3).blk t).view.set
      ↔ ∀ a : Fin 2, win1_3.index t a * S20000x64.size a ≤ (i a).val
          ∧ (i a).val < win1_3.index t a * S20000x64.size a + S20000x64.size a := by
  show i ∈ ((View.whole main_v40).slice (win1_3.rect t)).set ↔ _
  rw [View.set_slice_whole, Rect.mem_set_unit]
  exact Iff.rfl

/-- Row `r` lies in tile `r / 20000`, and every point writes its tile back: every entry is written. -/
theorem cover (i : S100000x64.Idx) :
    ∃ t : Fin cfg1.N, (cfg1.win 3).flush t = true ∧ i ∈ ((cfg1.win 3).blk t).view.set := by
  have hi0 : (i 0).val < 100000 := (i 0).isLt
  have hi1 : (i 1).val < 64 := (i 1).isLt
  obtain ⟨t, ht⟩ : ∃ t : Fin cfg1.N, t.val = (i 0).val / 20000 :=
    ⟨⟨(i 0).val / 20000, by rw [show cfg1.N = 5 from N_1]; omega⟩, rfl⟩
  obtain ⟨-, -, -, -, -, -, e0, e1⟩ := index_facts t
  refine ⟨t, flush1_3 t, ?_⟩
  rw [mem_block]
  intro a
  match a with
  | ⟨0, _⟩ =>
    show win1_3.index t (0 : Fin 2) * 20000 ≤ (i 0).val ∧ (i 0).val < win1_3.index t (0 : Fin 2) * 20000 + 20000
    omega
  | ⟨1, _⟩ =>
    show win1_3.index t (1 : Fin 2) * 64 ≤ (i 1).val ∧ (i 1).val < win1_3.index t (1 : Fin 2) * 64 + 64
    omega

end ScaleShiftClip

/-! ## The array after the call -/

/-- After the five points the result array holds `max (h[r, q] · sc[0, q] + sh[0, q]) 0` at every entry `(r, q)`: each
    point wrote its tile of that function, and the tiles cover the array. -/
theorem arrAt1 (c : Dev nD) :
    ((dat1 V c).arrAt 3 cfg1.N : S100000x64.Idx → EReal)
      = Cert.Spec.affRelu (M := 100000) (N := 64) (V c main_v26) (V c main_v35) (V c main_v39) :=
  (dat1 V c).arrAt_eq_of_cover 3 _ (fun t _ => ScaleShiftClip.flushed_eq V c t) ScaleShiftClip.cover

end Cert.KernelIdeal.RegionValue

end
-- ==== Proof.Region2Value.lean ====
import proofs.«149678_j3092376453139_1_alg».proof.Proof.Gen.KernelIdeal.Frame
import proofs.«149678_j3092376453139_1_alg».proof.Proof.Spec
import proofs.«149678_j3092376453139_1_alg».proof.Proof.LibContract
import Idealize.ShloMosaic.Lib.Pipeline.Value
import Idealize.ShloMosaic.Lib.ValueIdx
import Idealize.ShloMosaic.Lib.ValueLayout

/-!
# What the second layer leaves in its output array

The last of the three kernels applies one layer, a · wl + x · wr + b, to the 100000 nodes in ten tiles of 10000 rows.
On a tile the two products are contractions over the 64 hidden features into a zero accumulator, the narrowing of the
operands is the identity on the extended reals, and the bias is one row read on every row. Tile t is rows
10000·t … 10000·t + 9999 of both node arrays and of the output, while the two weight arrays and the bias row are
staged whole at every tile. So every tile writes back its rows of ONE function of the arrays as the kernel finds them,
the ten tiles cover all rows, and the output array ends holding that function: the layer, entry by entry.
-/

set_option maxRecDepth 16384

noncomputable section

namespace Cert.KernelIdeal.RegionValue.Layer2

open Idealize.ShloMosaic Idealize.ShloMosaic.TcCoe Idealize.ShloMosaic.ValueIdx Cert.KernelIdeal Cert.KernelIdeal.Gen
open Idealize.ShloMosaic.Pipeline (Dat)

/-! ## The tile's arithmetic at an entry -/

/-- Entry (p, q) of what the body stores: row p of the two node tiles contracted with column q of the two weight
    arrays, plus entry q of the bias row. -/
theorem tile_entry (a x : Vec Ideal S10000x64 .f32) (wl wr : Vec Ideal S64x16 .f32) (b : Vec Ideal S1x16 .f32)
    (p : Fin 10000) (q : Fin 16) :
    (k2_pay1 (F := Ideal) a x wl wr b) (ix2 p q)
      = ((∑ k : Fin 64, a (ix2 p k) * wl (ix2 k q)) + ∑ k : Fin 64, x (ix2 p k) * wr (ix2 k q))
        + b (ix2 (0 : Fin 1) q) := by
  unfold k2_pay1
  refine congrArg₂ (· + ·) (congrArg₂ (· + ·) ?_ ?_) ?_
  · refine (Cert.LibDense.matmul_plain_zero_apply 10000 64 16 none _ _ p q).trans ?_
    simp only [truncf_apply, shapeCast_self]
  · refine (Cert.LibDense.matmul_plain_zero_apply 10000 64 16 none _ _ p q).trans ?_
    simp only [truncf_apply, shapeCast_self]
  · refine (broadcastTo_1b_ab_apply _ _ p q).trans ?_
    rw [shapeCast_self]

/-- The same entry when every operand the tile reads is the matching entry of a whole array: entry y of the tile is
    entry i of the layer of the whole arrays, provided row y 0 of the node tiles is row i 0 of the node arrays and
    column y 1 of the weights and the bias is column i 1. -/
theorem tile_entry_of_rows (A X : Cert.Spec.Mat 100000 64) (WL WR : Cert.Spec.Mat 64 16) (B : Cert.Spec.Mat 1 16)
    (a x : Vec Ideal S10000x64 .f32) (wl wr : Vec Ideal S64x16 .f32) (b : Vec Ideal S1x16 .f32)
    (y : S10000x16.Idx) (i : S100000x16.Idx)
    (ha : ∀ k : Fin 64, a (ix2 (y 0) k) = A (ix2 (i 0) k))
    (hx : ∀ k : Fin 64, x (ix2 (y 0) k) = X (ix2 (i 0) k))
    (hwl : ∀ k : Fin 64, wl (ix2 k (y 1)) = WL (ix2 k (i 1)))
    (hwr : ∀ k : Fin 64, wr (ix2 k (y 1)) = WR (ix2 k (i 1)))
    (hb : b (ix2 (0 : Fin 1) (y 1)) = B (ix2 (0 : Fin 1) (i 1))) :
    k2_pay1 (F := Ideal) a x wl wr b y = Cert.Spec.sage A X WL WR B i := by
  refine (congrArg (k2_pay1 (F := Ideal) a x wl wr b) (eq_ix2 y)).trans ((tile_entry a x wl wr b (y 0) (y 1)).trans ?_)
  show _ = ((∑ k : Fin 64, A (ix2 (i 0) k) * WL (ix2 k (i 1))) + ∑ k : Fin 64, X (ix2 (i 0) k) * WR (ix2 k (i 1)))
    + B (ix2 (0 : Fin 1) (i 1))
  exact congrArg₂ (· + ·)
    (congrArg₂ (· + ·) (Finset.sum_congr rfl fun k _ => congrArg₂ (· * ·) (ha k) (hwl k))
      (Finset.sum_congr rfl fun k _ => congrArg₂ (· * ·) (hx k) (hwr k))) hb

/-! ## The tiles' places in the arrays -/

variable (V : (c : Dev nD) → (b : Ref sig .tc) → Buf (Elt Ideal) ((c : Thread nD τ).loc b))

theorem zero_offsets : (![0, 0] : Fin 2 → Nat) = fun _ => 0 := funext fun a => by fin_cases a <;> rfl

/-- The block indices over the ten tiles: the two node arrays and the output move down one block of rows per tile and
    stay in the one block of columns; the weights and the bias stay at their one block. -/
theorem block_indices : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Tile t of the neighbourhood means is rows 10000·t … of the array. -/
theorem meansTile_apply (c : Dev nD) (t : Fin cfg2.N) (y : S10000x64.Idx) (i : S100000x64.Idx)
    (h0 : (i 0).val = t.val * 10000 + (y 0).val) (h1 : (i 1).val = (y 1).val) :
    (iblk2 V c 0 t : Vec Ideal S10000x64 .f32) y = (V c main_v63 : S100000x64.Idx → EReal) i := by
  obtain ⟨e0, e1, -⟩ := block_indices t
  unfold iblk2
  rw [View.read_apply]
  show V c main_v63 _ = V c main_v63 _
  congr 1
  funext a
  apply Fin.ext
  match a with
  | ⟨0, _⟩ => show win2_0.index t (0 : Fin 2) * 10000 + 1 * (y 0).val = (i 0).val; omega
  | ⟨1, _⟩ => show win2_0.index t (1 : Fin 2) * 64 + 1 * (y 1).val = (i 1).val; omega

/-- Tile t of the hidden features is rows 10000·t … of the array. -/
theorem featsTile_apply (c : Dev nD) (t : Fin cfg2.N) (y : S10000x64.Idx) (i : S100000x64.Idx)
    (h0 : (i 0).val = t.val * 10000 + (y 0).val) (h1 : (i 1).val = (y 1).val) :
    (iblk2 V c 1 t : Vec Ideal S10000x64 .f32) y = (V c main_v40 : S100000x64.Idx → EReal) i := by
  obtain ⟨-, -, e0, e1, -⟩ := block_indices t
  unfold iblk2
  rw [View.read_apply]
  show V c main_v40 _ = V c main_v40 _
  congr 1
  funext a
  apply Fin.ext
  match a with
  | ⟨0, _⟩ => show win2_1.index t (0 : Fin 2) * 10000 + 1 * (y 0).val = (i 0).val; omega
  | ⟨1, _⟩ => show win2_1.index t (1 : Fin 2) * 64 + 1 * (y 1).val = (i 1).val; omega

/-- The weights of the means are staged whole at every tile. -/
theorem meansWeights_apply (c : Dev nD) (t : Fin cfg2.N) (y : S64x16.Idx) :
    (iblk2 V c 2 t : Vec Ideal S64x16 .f32) y = (V c main_v64 : S64x16.Idx → EReal) y := by
  obtain ⟨-, -, -, -, e0, e1, -⟩ := block_indices t
  unfold iblk2
  rw [View.read_apply]
  show V c main_v64 _ = V c main_v64 _
  congr 1
  funext a
  apply Fin.ext
  match a with
  | ⟨0, _⟩ => show win2_2.index t (0 : Fin 2) * 64 + 1 * (y 0).val = (y 0).val; omega
  | ⟨1, _⟩ => show win2_2.index t (1 : Fin 2) * 16 + 1 * (y 1).val = (y 1).val; omega

/-- The bias row is staged whole at every tile. -/
theorem bias_apply (c : Dev nD) (t : Fin cfg2.N) (y : S1x16.Idx) :
    (iblk2 V c 3 t : Vec Ideal S1x16 .f32) y = (V c main_v66 : S1x16.Idx → EReal) y := by
  obtain ⟨-, -, -, -, -, -, e0, e1, -⟩ := block_indices t
  unfold iblk2
  rw [View.read_apply]
  show V c main_v66 _ = V c main_v66 _
  congr 1
  funext a
  apply Fin.ext
  match a with
  | ⟨0, _⟩ => show win2_3.index t (0 : Fin 2) * 1 + 1 * (y 0).val = (y 0).val; omega
  | ⟨1, _⟩ => show win2_3.index t (1 : Fin 2) * 16 + 1 * (y 1).val = (y 1).val; omega

/-- The weights of the features are staged whole at every tile. -/
theorem featsWeights_apply (c : Dev nD) (t : Fin cfg2.N) (y : S64x16.Idx) :
    (iblk2 V c 4 t : Vec Ideal S64x16 .f32) y = (V c main_v65 : S64x16.Idx → EReal) y := by
  obtain ⟨-, -, -, -, -, -, -, -, e0, e1, -⟩ := block_indices t
  unfold iblk2
  rw [View.read_apply]
  show V c main_v65 _ = V c main_v65 _
  congr 1
  funext a
  apply Fin.ext
  match a with
  | ⟨0, _⟩ => show win2_4.index t (0 : Fin 2) * 64 + 1 * (y 0).val = (y 0).val; omega
  | ⟨1, _⟩ => show win2_4.index t (1 : Fin 2) * 16 + 1 * (y 1).val = (y 1).val; omega

/-! ## What a tile writes back, and the whole array -/

/-- Tile t writes back rows 10000·t … of the layer of the arrays as the kernel finds them. -/
theorem flushed_rows (c : Dev nD) (t : Fin cfg2.N) :
    (dat2 V c).flushed 5 t = ((cfg2.win 5).blk t).view.read (Elt Ideal)
      (Cert.Spec.sage (M := 100000) (K := 64) (N := 16) (V c main_v63) (V c main_v40) (V c main_v64) (V c main_v65)
        (V c main_v66)) := by
  show (cfg2.win 5).cut (grid2.coords t) ((dat2 V c).after 5 t) = _
  rw [after2_5]
  unfold out2_5
  rw [View.canon_unit_zero zero_offsets]
  simp only [View.ld_unit_zero (S := S10000x64) zero_offsets, View.ld_unit_zero (S := S64x16) zero_offsets,
    View.ld_unit_zero (S := S1x16) zero_offsets]
  obtain ⟨-, -, -, -, -, -, -, -, -, -, e0, e1⟩ := block_indices t
  funext j
  have hj0 : (j 0).val < 10000 := (j 0).isLt
  have hj1 : (j 1).val < 16 := (j 1).isLt
  have r0 : ((((cfg2.win 5).blk t).view.emb j) 0).val = t.val * 10000 + (j 0).val := by
    show win2_5.index t (0 : Fin 2) * 10000 + 1 * (j 0).val = _; omega
  have r1 : ((((cfg2.win 5).blk t).view.emb j) 1).val = (j 1).val := by
    show win2_5.index t (1 : Fin 2) * 16 + 1 * (j 1).val = _; omega
  refine tile_entry_of_rows (V c main_v63) (V c main_v40) (V c main_v64) (V c main_v65) (V c main_v66)
    (iblk2 V c 0 t) (iblk2 V c 1 t) (iblk2 V c 2 t) (iblk2 V c 4 t) (iblk2 V c 3 t)
    ((cfg2.win 5).xinj (grid2.coords t) j) (((cfg2.win 5).blk t).view.emb j) ?_ ?_ ?_ ?_ ?_
  · exact fun k => meansTile_apply V c t _ _ r0 rfl
  · exact fun k => featsTile_apply V c t _ _ r0 rfl
  · exact fun k => (meansWeights_apply V c t _).trans (congrArg (V c main_v64 : S64x16.Idx → EReal)
      (funext fun a => Fin.ext (by match a with | ⟨0, _⟩ => rfl | ⟨1, _⟩ => exact r1.symm)))
  · exact fun k => (featsWeights_apply V c t _).trans (congrArg (V c main_v65 : S64x16.Idx → EReal)
      (funext fun a => Fin.ext (by match a with | ⟨0, _⟩ => rfl | ⟨1, _⟩ => exact r1.symm)))
  · exact (bias_apply V c t _).trans (congrArg (V c main_v66 : S1x16.Idx → EReal)
      (funext fun a => Fin.ext (by match a with | ⟨0, _⟩ => rfl | ⟨1, _⟩ => exact r1.symm)))

/-- An index of the output array is among tile t's rows iff each coordinate is in the block's range on its axis. -/
theorem mem_rows (t : Fin cfg2.N) (i : S100000x16.Idx) :
    i ∈ ((cfg2.win 5).blk t).view.set ↔ ∀ a : Fin 2, win2_5.index t a * S10000x16.size a ≤ (i a).val
      ∧ (i a).val < win2_5.index t a * S10000x16.size a + S10000x16.size a := by
  show i ∈ ((View.whole main_v67).slice (win2_5.rect t)).set ↔ _
  rw [View.set_slice_whole, Rect.mem_set_unit]
  exact Iff.rfl

/-- Row r of the output is written by tile r / 10000: the ten tiles cover the array. -/
theorem rows_cover (i : S100000x16.Idx) :
    ∃ t : Fin cfg2.N, (cfg2.win 5).flush t = true ∧ i ∈ ((cfg2.win 5).blk t).view.set := by
  have hi0 : (i 0).val < 100000 := (i 0).isLt
  have hi1 : (i 1).val < 16 := (i 1).isLt
  have hN : grid2.N = 10 := N_2
  obtain ⟨t, ht⟩ : ∃ t : Fin cfg2.N, t.val = (i 0).val / 10000 :=
    ⟨⟨(i 0).val / 10000, by show (i 0).val / 10000 < grid2.N; rw [hN]; omega⟩, rfl⟩
  obtain ⟨-, -, -, -, -, -, -, -, -, -, e0, e1⟩ := block_indices t
  refine ⟨t, flush2_5 t, ?_⟩
  rw [mem_rows]
  intro a
  match a with
  | ⟨0, _⟩ =>
    show win2_5.index t (0 : Fin 2) * 10000 ≤ (i 0).val ∧ (i 0).val < win2_5.index t (0 : Fin 2) * 10000 + 10000
    omega
  | ⟨1, _⟩ =>
    show win2_5.index t (1 : Fin 2) * 16 ≤ (i 1).val ∧ (i 1).val < win2_5.index t (1 : Fin 2) * 16 + 16
    omega

end Cert.KernelIdeal.RegionValue.Layer2

namespace Cert.KernelIdeal.RegionValue

open Idealize.ShloMosaic Idealize.ShloMosaic.TcCoe Idealize.ShloMosaic.ValueIdx Cert.KernelIdeal Cert.KernelIdeal.Gen
open Idealize.ShloMosaic.Pipeline (Dat)

variable (V : (c : Dev nD) → (b : Ref sig .tc) → Buf (Elt Ideal) ((c : Thread nD τ).loc b))

/-- The output array after the ten tiles is the layer of the arrays as the kernel finds them: the neighbourhood means
    and the hidden features against their two weight arrays, plus the bias row. -/
theorem arrAt2 (c : Dev nD) :
    ((Gen.dat2 V c).arrAt 5 cfg2.N : S100000x16.Idx → EReal)
      = Cert.Spec.sage (M := 100000) (K := 64) (N := 16) (V c main_v63) (V c main_v40) (V c main_v64) (V c main_v65)
        (V c main_v66) :=
  (dat2 V c).arrAt_eq_of_cover 5 _ (fun t _ => Layer2.flushed_rows V c t) Layer2.rows_cover

end Cert.KernelIdeal.RegionValue

end
-- ==== Proof.KernelOut.lean ====
import proofs.«149678_j3092376453139_1_alg».proof.Proof.Fns
import proofs.«149678_j3092376453139_1_alg».proof.Proof.Spec
import Idealize.ShloMosaic.PureOps.Ideal

/-!
# What the kernel's program computes, as one function of its arguments: the definitions

The first kernel leaves `pre1 = agg · W1lᵀ + x · W1rᵀ + b1`, the layer applied to the features and their neighbourhood
means; the host folds the column statistics of `pre1` into a scale row and a shift row and the second kernel leaves
`hid = max (pre1 · scale + shift) 0`; the third kernel applies the second layer to `hid` and its neighbourhood means
(`kout`).
-/

noncomputable section

namespace Cert.KernelIdeal.KernelValue

open Idealize.ShloMosaic Cert.KernelIdeal Cert.Spec

variable [Facts]
open Facts₀ Facts

/-- The first layer's output. -/
def pre1 (x : FVec Ideal S100000x128 .f32) (ei : IVec S2x1600000 32) (w1l : FVec Ideal S64x128 .f32) (b1 : FVec Ideal S64 .f32)
    (w1r : FVec Ideal S64x128 .f32) : Mat 100000 64 :=
  sage (M := 100000) (K := 128) (N := 64) (Fns.agg128 (F := Ideal) x ei) x
    (transpose S128x64 [1, 0] w1l transposes_S64x128_S128x64_1_0) (transpose S128x64 [1, 0] w1r transposes_S64x128_S128x64_1_0)
    (shapeCast S1x64 b1 shapeCasts_S64_S1x64)

/-- The hidden features: the first layer's output scaled, shifted and clipped, column by column. -/
def hid (x : FVec Ideal S100000x128 .f32) (ei : IVec S2x1600000 32) (w1l : FVec Ideal S64x128 .f32) (b1 : FVec Ideal S64 .f32)
    (w1r : FVec Ideal S64x128 .f32) (g bt : FVec Ideal S64 .f32) : Mat 100000 64 :=
  affRelu (M := 100000) (N := 64) (pre1 x ei w1l b1 w1r) (Fns.scaleRow (F := Ideal) g (pre1 x ei w1l b1 w1r))
    (Fns.shiftRow (F := Ideal) g bt (pre1 x ei w1l b1 w1r))

/-- The program's result: the second layer on the hidden features and their neighbourhood means. -/
def kout (x : FVec Ideal S100000x128 .f32) (ei : IVec S2x1600000 32) (w1l : FVec Ideal S64x128 .f32) (b1 : FVec Ideal S64 .f32)
    (w1r : FVec Ideal S64x128 .f32) (g bt : FVec Ideal S64 .f32) (w2l : FVec Ideal S16x64 .f32) (b2 : FVec Ideal S16 .f32)
    (w2r : FVec Ideal S16x64 .f32) : Mat 100000 16 :=
  sage (M := 100000) (K := 64) (N := 16) (Fns.agg64 (F := Ideal) (hid x ei w1l b1 w1r g bt) ei) (hid x ei w1l b1 w1r g bt)
    (transpose S64x16 [1, 0] w2l transposes_S16x64_S64x16_1_0) (transpose S64x16 [1, 0] w2r transposes_S16x64_S64x16_1_0)
    (shapeCast S1x16 b2 shapeCasts_S16_S1x16)

end Cert.KernelIdeal.KernelValue

end
-- ==== Proof.KernelValue.lean ====
import proofs.«149678_j3092376453139_1_alg».proof.Proof.KernelRun
import proofs.«149678_j3092376453139_1_alg».proof.Proof.HostReads
import proofs.«149678_j3092376453139_1_alg».proof.Proof.Region0Value
import proofs.«149678_j3092376453139_1_alg».proof.Proof.Region1Value
import proofs.«149678_j3092376453139_1_alg».proof.Proof.Region2Value
import proofs.«149678_j3092376453139_1_alg».proof.Proof.KernelOut

/-!
# What the kernel's program computes, as one function of its arguments: the run's arrays

The first kernel leaves `pre1 = agg · W1lᵀ + x · W1rᵀ + b1`, the layer applied to the features and their neighbourhood
means; the host folds the column statistics of `pre1` into a scale row and a shift row and the second kernel leaves
`hid = max (pre1 · scale + shift) 0`; the third kernel applies the second layer to `hid` and its neighbourhood means
(`kout`). Each region's array is read at its entry contents, and each entry content is the host stretch before it read
back to the launch memory, so the chain composes by rewriting.
-/

set_option maxRecDepth 16384

noncomputable section

namespace Cert.KernelIdeal.KernelValue

open Idealize.ShloMosaic Idealize.ShloMosaic.TcCoe Cert.KernelIdeal Cert.KernelIdeal.Gen Cert.Spec

variable (m : (ℓ : Loc nD τ sig) → Buf (Elt Ideal) ℓ) (ρ : Dev nD → PrngReg)

/-- Region 0's output array after the region: the first layer of the launch memory's arguments. -/
theorem W2_v26 (c : Dev nD) :
    (W2 m ρ c (Proc.devRef .tc main_v26) : S100000x64.Idx → EReal)
      = pre1 (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) := by
  rw [RunValue.W2_out, RegionValue.arrAt0, HostReads.V1_v22, HostReads.V1_arg0, HostReads.V1_v23, HostReads.V1_v24, HostReads.V1_v25]
  rfl

/-- Region 1's output array after the region: the hidden features. -/
theorem W6_v40 (c : Dev nD) :
    (W6 m ρ c (Proc.devRef .tc main_v40) : S100000x64.Idx → EReal)
      = hid (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) := by
  rw [RunValue.W6_out, RegionValue.arrAt1, HostReads.V5_v26, HostReads.V5_v35, HostReads.V5_v39, W2_v26]
  rfl

/-- Region 2's output array after the region: the program's result. -/
theorem W8_v67 (c : Dev nD) :
    (W8 m ρ c (Proc.devRef .tc main_v67) : S100000x16.Idx → EReal)
      = kout (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) := by
  rw [RunValue.W8_out, RegionValue.arrAt2, HostReads.V7_v63, HostReads.V7_v40, HostReads.V7_v64, HostReads.V7_v65, HostReads.V7_v66,
    W6_v40]
  rfl

end Cert.KernelIdeal.KernelValue

end
-- ==== Proof.RefRun.lean ====
import proofs.«149678_j3092376453139_1_alg».proof.Proof.Gen.ReferenceIdeal
import Idealize.ShloMosaic.Lib.StableHlo.Run

/-!
# The reference, run as one straight line

The reference computes a two-layer graph network on the host. Each layer gathers the rows of its input at the
source end of every edge, adds them up at the target end, divides by the number of incoming edges (at least one),
and sends the mean and the node's own row through two linear maps and a bias. Between the layers every column is
centred by its mean over the nodes, divided by the root of its variance plus a small constant, scaled, shifted and
clipped at zero. The variance and the clip are functions of their own: the variance's body (a mean, the squared
deviations, their sum over the count less the correction, and a choice between that quotient and a not-a-number
constant according to whether the denominator is positive) is spliced in here where it is called, over the buffers
that call owns, and so is the clip's (a zero, its broadcast, a maximum).

Spliced, the program is a list of operations each writing one buffer of its own. Its run is then the fold of the
operations' results over what the buffers held at launch: the result buffer ends at that fold, and the ten
argument buffers, which no operation writes, end as they began.
-/

noncomputable section

namespace Cert.ReferenceIdeal.RefRun

open Cert.ReferenceIdeal Cert.ReferenceIdeal.Gen Idealize.ShloMosaic Idealize.ShloMosaic.TcCoe Idealize.SL.Sem
  Idealize.ShloMosaic.StableHlo

variable {F : FTy → Type} [FloatOps F]

/-- Every operation of the program in the order it runs, 121 in all. The first 43 are the first layer (the two rows
    of the edge table, a negative source index moved up by the node count, the gather, the scatter-sum of the rows
    and of a column of ones, the division, the two products and the bias) and the column means. The next 22 are the
    variance of the first layer's output, the last three of them its choice between the quotient and the
    not-a-number constant. Then 16 centre, scale and shift every column, three clip at zero, and 37 are the
    second layer, over the clipped array. -/
abbrev ops : List (HloOp τ sig (Elt F)) :=
  [ -- the first layer
    StableHlo.unary main_arg1 main_v0 (extractStridedSlice S1x1600000 ![0, 0] · slices_S2x1600000_S1x1600000_0_0),
    StableHlo.reshape main_v0 main_v1 rfl shapeCasts_S1x1600000_S1600000,
    StableHlo.unary main_arg1 main_v2 (extractStridedSlice S1x1600000 ![1, 0] · slices_S2x1600000_S1x1600000_1_0),
    StableHlo.reshape main_v2 main_v3 rfl shapeCasts_S1x1600000_S1600000,
    StableHlo.nullary main_c (constantI S_ 32 0#32),
    StableHlo.unary main_c main_v4 (broadcastInDim S1600000 ![] bcast_S_S1600000),
    StableHlo.binary main_v1 main_v4 main_v5 (cmpi .slt),
    StableHlo.nullary main_c_0 (constantI S_ 32 100000#32),
    StableHlo.unary main_c_0 main_v6 (broadcastInDim S1600000 ![] bcast_S_S1600000),
    StableHlo.binary main_v1 main_v6 main_v7 addi,
    StableHlo.ternary main_v5 main_v7 main_v1 main_v8 select,
    StableHlo.unary main_v8 main_v9 (broadcastInDim S1600000x1 ![0] bcast_S1600000_S1600000x1_0),
    StableHlo.binary main_arg0 main_v9 main_v10 (fun x i => Host.gather gather_S100000x128_S1600000x1_S1600000x128_1_0_n_n_0_1_1128 x i),
    StableHlo.nullary main_cst (constant S_ .f32 0x00000000#32),
    StableHlo.unary main_cst main_v11 (broadcastInDim S100000x128 ![] bcast_S_S100000x128),
    StableHlo.unary main_v3 main_v12 (broadcastInDim S1600000x1 ![0] bcast_S1600000_S1600000x1_0),
    StableHlo.ternary main_v11 main_v12 main_v10 main_v13 (fun x i u => Host.scatterAdd scatter_S100000x128_S1600000x1_S1600000x128_1_0_0_1 x i u),
    StableHlo.nullary main_cst_1 (constant S_ .f32 0x3F800000#32),
    StableHlo.unary main_cst_1 main_v14 (broadcastInDim S1600000 ![] bcast_S_S1600000),
    StableHlo.nullary main_cst_2 (constant S_ .f32 0x00000000#32),
    StableHlo.unary main_cst_2 main_v15 (broadcastInDim S100000 ![] bcast_S_S100000),
    StableHlo.unary main_v3 main_v16 (broadcastInDim S1600000x1 ![0] bcast_S1600000_S1600000x1_0),
    StableHlo.ternary main_v15 main_v16 main_v14 main_v17 (fun x i u => Host.scatterAdd scatter_S100000_S1600000x1_S1600000_n_0_0_1 x i u),
    StableHlo.nullary main_cst_3 (constant S_ .f32 0x3F800000#32),
    StableHlo.unary main_cst_3 main_v18 (broadcastInDim S100000 ![] bcast_S_S100000),
    StableHlo.binary main_v17 main_v18 main_v19 maximumf,
    StableHlo.unary main_v19 main_v20 (broadcastInDim S100000x1 ![0] bcast_S100000_S100000x1_0),
    StableHlo.unary main_v20 main_v21 (broadcastInDim S100000x128 ![0, 1] bcast_S100000x1_S100000x128_0_1),
    StableHlo.binary main_v13 main_v21 main_v22 Host.divf,
    StableHlo.unary main_arg2 main_v23 (transpose S128x64 [1, 0] · transposes_S64x128_S128x64_1_0),
    StableHlo.binary main_v22 main_v23 main_v24 (fun l r => Host.dotGeneral dot_S100000x128_S128x64_S100000x64_1_0_0_1_n_n none l r),
    StableHlo.unary main_arg3 main_v25 (broadcastInDim S1x64 ![1] bcast_S64_S1x64_1),
    StableHlo.unary main_v25 main_v26 (broadcastInDim S100000x64 ![0, 1] bcast_S1x64_S100000x64_0_1),
    StableHlo.binary main_v24 main_v26 main_v27 addf,
    StableHlo.unary main_arg4 main_v28 (transpose S128x64 [1, 0] · transposes_S64x128_S128x64_1_0),
    StableHlo.binary main_arg0 main_v28 main_v29 (fun l r => Host.dotGeneral dot_S100000x128_S128x64_S100000x64_1_0_0_1_n_n none l r),
    StableHlo.binary main_v27 main_v29 main_v30 addf,
    -- the column means
    StableHlo.nullary main_cst_4 (constant S_ .f32 0x00000000#32),
    StableHlo.binary main_v30 main_cst_4 main_v31 (fun x v => Host.reduceAdd x v reducesTo_S100000x64_S64_d0 h_S_),
    StableHlo.nullary main_cst_5 (constant S_ .f32 0x47C35000#32),
    StableHlo.unary main_cst_5 main_v32 (broadcastInDim S64 ![] bcast_S_S64),
    StableHlo.binary main_v31 main_v32 main_v33 Host.divf,
    StableHlo.nullary main_c_6 (constantI S_ 32 0#32),
    -- the column variances: the variance function's body at its one call
    StableHlo.TRef.nullary (.of main_call0_cst : StableHlo.TRef sig ⟨S_, .f32⟩) (constant S_ .f32 0x00000000#32),
    StableHlo.TRef.binary (.of main_v30 : StableHlo.TRef sig ⟨S100000x64, .f32⟩) (.of main_call0_cst : StableHlo.TRef sig ⟨S_, .f32⟩) (.of main_call0_v0 : StableHlo.TRef sig ⟨S64, .f32⟩) (fun x v => Host.reduceAdd x v reducesTo_S100000x64_S64_d0 h_S_),
    StableHlo.TRef.unary (.of main_call0_v0 : StableHlo.TRef sig ⟨S64, .f32⟩) (.of main_call0_v1 : StableHlo.TRef sig ⟨S1x64, .f32⟩) (broadcastInDim S1x64 ![1] bcast_S64_S1x64_1),
    StableHlo.TRef.nullary (.of main_call0_cst_0 : StableHlo.TRef sig ⟨S_, .f32⟩) (constant S_ .f32 0x47C35000#32),
    StableHlo.TRef.unary (.of main_call0_cst_0 : StableHlo.TRef sig ⟨S_, .f32⟩) (.of main_call0_v2 : StableHlo.TRef sig ⟨S1x64, .f32⟩) (broadcastInDim S1x64 ![] bcast_S_S1x64),
    StableHlo.TRef.binary (.of main_call0_v1 : StableHlo.TRef sig ⟨S1x64, .f32⟩) (.of main_call0_v2 : StableHlo.TRef sig ⟨S1x64, .f32⟩) (.of main_call0_v3 : StableHlo.TRef sig ⟨S1x64, .f32⟩) Host.divf,
    StableHlo.TRef.unary (.of main_call0_v3 : StableHlo.TRef sig ⟨S1x64, .f32⟩) (.of main_call0_v4 : StableHlo.TRef sig ⟨S100000x64, .f32⟩) (broadcastInDim S100000x64 ![0, 1] bcast_S1x64_S100000x64_0_1),
    StableHlo.TRef.binary (.of main_v30 : StableHlo.TRef sig ⟨S100000x64, .f32⟩) (.of main_call0_v4 : StableHlo.TRef sig ⟨S100000x64, .f32⟩) (.of main_call0_v5 : StableHlo.TRef sig ⟨S100000x64, .f32⟩) subf,
    StableHlo.TRef.binary (.of main_call0_v5 : StableHlo.TRef sig ⟨S100000x64, .f32⟩) (.of main_call0_v5 : StableHlo.TRef sig ⟨S100000x64, .f32⟩) (.of main_call0_v6 : StableHlo.TRef sig ⟨S100000x64, .f32⟩) mulf,
    StableHlo.TRef.unary (.of main_c_6 : StableHlo.TRef sig ⟨S_, .i32⟩) (.of main_call0_v7 : StableHlo.TRef sig ⟨S_, .f32⟩) (sitofp .f32),
    StableHlo.TRef.nullary (.of main_call0_cst_1 : StableHlo.TRef sig ⟨S_, .f32⟩) (constant S_ .f32 0x47C35000#32),
    StableHlo.TRef.binary (.of main_call0_cst_1 : StableHlo.TRef sig ⟨S_, .f32⟩) (.of main_call0_v7 : StableHlo.TRef sig ⟨S_, .f32⟩) (.of main_call0_v8 : StableHlo.TRef sig ⟨S_, .f32⟩) subf,
    StableHlo.TRef.nullary (.of main_call0_cst_2 : StableHlo.TRef sig ⟨S_, .f32⟩) (constant S_ .f32 0x00000000#32),
    StableHlo.TRef.binary (.of main_call0_v6 : StableHlo.TRef sig ⟨S100000x64, .f32⟩) (.of main_call0_cst_2 : StableHlo.TRef sig ⟨S_, .f32⟩) (.of main_call0_v9 : StableHlo.TRef sig ⟨S64, .f32⟩) (fun x v => Host.reduceAdd x v reducesTo_S100000x64_S64_d0 h_S_),
    StableHlo.TRef.unary (.of main_call0_v8 : StableHlo.TRef sig ⟨S_, .f32⟩) (.of main_call0_v10 : StableHlo.TRef sig ⟨S64, .f32⟩) (broadcastInDim S64 ![] bcast_S_S64),
    StableHlo.TRef.binary (.of main_call0_v9 : StableHlo.TRef sig ⟨S64, .f32⟩) (.of main_call0_v10 : StableHlo.TRef sig ⟨S64, .f32⟩) (.of main_call0_v11 : StableHlo.TRef sig ⟨S64, .f32⟩) Host.divf,
    StableHlo.TRef.nullary (.of main_call0_cst_3 : StableHlo.TRef sig ⟨S_, .f32⟩) (constant S_ .f32 0x00000000#32),
    StableHlo.TRef.binary (.of main_call0_v8 : StableHlo.TRef sig ⟨S_, .f32⟩) (.of main_call0_cst_3 : StableHlo.TRef sig ⟨S_, .f32⟩) (.of main_call0_v12 : StableHlo.TRef sig ⟨S_, .i1⟩) (cmpf .ogt),
    StableHlo.TRef.nullary (.of main_call0_cst_4 : StableHlo.TRef sig ⟨S_, .f32⟩) (constant S_ .f32 0x7FC00000#32),
    -- the choice the variance function calls for: the quotient where the denominator is positive
    StableHlo.TRef.unary (.of main_call0_cst_4 : StableHlo.TRef sig ⟨S_, .f32⟩) (.of main_call0_call0_v0 : StableHlo.TRef sig ⟨S_, .f32⟩) id,
    StableHlo.TRef.unary (.of main_call0_call0_v0 : StableHlo.TRef sig ⟨S_, .f32⟩) (.of main_call0_call0_v1 : StableHlo.TRef sig ⟨S64, .f32⟩) (broadcastInDim S64 ![] bcast_S_S64),
    StableHlo.TRef.ternary (.of main_call0_v12 : StableHlo.TRef sig ⟨S_, .i1⟩) (.of main_call0_v11 : StableHlo.TRef sig ⟨S64, .f32⟩) (.of main_call0_call0_v1 : StableHlo.TRef sig ⟨S64, .f32⟩) (.of main_v34 : StableHlo.TRef sig ⟨S64, .f32⟩) (fun p a b => select (broadcastInDim S64 ![] bcast_S_S64 p) a b),
    -- centre, scale, shift
    StableHlo.unary main_v33 main_v35 (broadcastInDim S1x64 ![1] bcast_S64_S1x64_1),
    StableHlo.unary main_v35 main_v36 (broadcastInDim S100000x64 ![0, 1] bcast_S1x64_S100000x64_0_1),
    StableHlo.binary main_v30 main_v36 main_v37 subf,
    StableHlo.nullary main_cst_7 (constant S_ .f32 0x3727C5AC#32),
    StableHlo.unary main_cst_7 main_v38 (broadcastInDim S64 ![] bcast_S_S64),
    StableHlo.binary main_v34 main_v38 main_v39 addf,
    StableHlo.unary main_v39 main_v40 Host.rsqrt,
    StableHlo.unary main_v40 main_v41 (broadcastInDim S1x64 ![1] bcast_S64_S1x64_1),
    StableHlo.unary main_v41 main_v42 (broadcastInDim S100000x64 ![0, 1] bcast_S1x64_S100000x64_0_1),
    StableHlo.binary main_v37 main_v42 main_v43 mulf,
    StableHlo.unary main_arg5 main_v44 (broadcastInDim S1x64 ![1] bcast_S64_S1x64_1),
    StableHlo.unary main_v44 main_v45 (broadcastInDim S100000x64 ![0, 1] bcast_S1x64_S100000x64_0_1),
    StableHlo.binary main_v43 main_v45 main_v46 mulf,
    StableHlo.unary main_arg6 main_v47 (broadcastInDim S1x64 ![1] bcast_S64_S1x64_1),
    StableHlo.unary main_v47 main_v48 (broadcastInDim S100000x64 ![0, 1] bcast_S1x64_S100000x64_0_1),
    StableHlo.binary main_v46 main_v48 main_v49 addf,
    -- the clip at zero: the clipping function's body at its one call
    StableHlo.TRef.nullary (.of main_call1_cst : StableHlo.TRef sig ⟨S_, .f32⟩) (constant S_ .f32 0x00000000#32),
    StableHlo.TRef.unary (.of main_call1_cst : StableHlo.TRef sig ⟨S_, .f32⟩) (.of main_call1_v0 : StableHlo.TRef sig ⟨S100000x64, .f32⟩) (broadcastInDim S100000x64 ![] bcast_S_S100000x64),
    StableHlo.TRef.binary (.of main_v49 : StableHlo.TRef sig ⟨S100000x64, .f32⟩) (.of main_call1_v0 : StableHlo.TRef sig ⟨S100000x64, .f32⟩) (.of main_v50 : StableHlo.TRef sig ⟨S100000x64, .f32⟩) maximumf,
    -- the second layer
    StableHlo.unary main_arg1 main_v51 (extractStridedSlice S1x1600000 ![0, 0] · slices_S2x1600000_S1x1600000_0_0),
    StableHlo.reshape main_v51 main_v52 rfl shapeCasts_S1x1600000_S1600000,
    StableHlo.unary main_arg1 main_v53 (extractStridedSlice S1x1600000 ![1, 0] · slices_S2x1600000_S1x1600000_1_0),
    StableHlo.reshape main_v53 main_v54 rfl shapeCasts_S1x1600000_S1600000,
    StableHlo.nullary main_c_8 (constantI S_ 32 0#32),
    StableHlo.unary main_c_8 main_v55 (broadcastInDim S1600000 ![] bcast_S_S1600000),
    StableHlo.binary main_v52 main_v55 main_v56 (cmpi .slt),
    StableHlo.nullary main_c_9 (constantI S_ 32 100000#32),
    StableHlo.unary main_c_9 main_v57 (broadcastInDim S1600000 ![] bcast_S_S1600000),
    StableHlo.binary main_v52 main_v57 main_v58 addi,
    StableHlo.ternary main_v56 main_v58 main_v52 main_v59 select,
    StableHlo.unary main_v59 main_v60 (broadcastInDim S1600000x1 ![0] bcast_S1600000_S1600000x1_0),
    StableHlo.binary main_v50 main_v60 main_v61 (fun x i => Host.gather gather_S100000x64_S1600000x1_S1600000x64_1_0_n_n_0_1_164 x i),
    StableHlo.nullary main_cst_10 (constant S_ .f32 0x00000000#32),
    StableHlo.unary main_cst_10 main_v62 (broadcastInDim S100000x64 ![] bcast_S_S100000x64),
    StableHlo.unary main_v54 main_v63 (broadcastInDim S1600000x1 ![0] bcast_S1600000_S1600000x1_0),
    StableHlo.ternary main_v62 main_v63 main_v61 main_v64 (fun x i u => Host.scatterAdd scatter_S100000x64_S1600000x1_S1600000x64_1_0_0_1 x i u),
    StableHlo.nullary main_cst_11 (constant S_ .f32 0x3F800000#32),
    StableHlo.unary main_cst_11 main_v65 (broadcastInDim S1600000 ![] bcast_S_S1600000),
    StableHlo.nullary main_cst_12 (constant S_ .f32 0x00000000#32),
    StableHlo.unary main_cst_12 main_v66 (broadcastInDim S100000 ![] bcast_S_S100000),
    StableHlo.unary main_v54 main_v67 (broadcastInDim S1600000x1 ![0] bcast_S1600000_S1600000x1_0),
    StableHlo.ternary main_v66 main_v67 main_v65 main_v68 (fun x i u => Host.scatterAdd scatter_S100000_S1600000x1_S1600000_n_0_0_1 x i u),
    StableHlo.nullary main_cst_13 (constant S_ .f32 0x3F800000#32),
    StableHlo.unary main_cst_13 main_v69 (broadcastInDim S100000 ![] bcast_S_S100000),
    StableHlo.binary main_v68 main_v69 main_v70 maximumf,
    StableHlo.unary main_v70 main_v71 (broadcastInDim S100000x1 ![0] bcast_S100000_S100000x1_0),
    StableHlo.unary main_v71 main_v72 (broadcastInDim S100000x64 ![0, 1] bcast_S100000x1_S100000x64_0_1),
    StableHlo.binary main_v64 main_v72 main_v73 Host.divf,
    StableHlo.unary main_arg7 main_v74 (transpose S64x16 [1, 0] · transposes_S16x64_S64x16_1_0),
    StableHlo.binary main_v73 main_v74 main_v75 (fun l r => Host.dotGeneral dot_S100000x64_S64x16_S100000x16_1_0_0_1_n_n none l r),
    StableHlo.unary main_arg8 main_v76 (broadcastInDim S1x16 ![1] bcast_S16_S1x16_1),
    StableHlo.unary main_v76 main_v77 (broadcastInDim S100000x16 ![0, 1] bcast_S1x16_S100000x16_0_1),
    StableHlo.binary main_v75 main_v77 main_v78 addf,
    StableHlo.unary main_arg9 main_v79 (transpose S64x16 [1, 0] · transposes_S16x64_S64x16_1_0),
    StableHlo.binary main_v50 main_v79 main_v80 (fun l r => Host.dotGeneral dot_S100000x64_S64x16_S100000x16_1_0_0_1_n_n none l r),
    StableHlo.binary main_v78 main_v80 main_v81 addf ]

-- the chain has 121 steps, and associativity is applied once at each
set_option maxRecDepth 8192 in
set_option maxHeartbeats 4000000 in
/-- The program is that straight line. Its text runs the first sixty statements and then the rest; the two called
    functions' bodies stand where they are called, over the buffers the call owns; sequencing is associative and a
    function's closing return is a unit for it, so both sides are one chain of steps. -/
theorem main_eq (c : Dev nD) : main (F := F) c = StableHlo.seq ops := by
  simp only [main, main_part0, main_part1, fn_var.body, fn_where.body, fn_relu.body, StableHlo.seq, bind_assoc, pure_bind]
  rfl

/-- No buffer of the program lives only inside a region: all are tensor values. -/
theorem scopedRefs_eq : (Finset.univ.filter fun b : Ref sig .tc => b.isScoped) = ∅ := by decide
/-- The program has no semaphore at all. -/
theorem scopedSems_eq : (Finset.univ.filter fun sm : SemLoc sig => sm.isScoped .tc) = ∅ := by decide

set_option maxRecDepth 8192 in
/-- Every operation reads and writes buffers of the one core only: each is built from references of that core,
    whatever its arity. -/
theorem ops_sub : (ops : List (HloOp τ sig (Elt F))).Forall fun op => op.bufs ⊆ tcRefs τ sig := by
  simp only [List.forall_cons, List.Forall, nullary_bufs_sub, unary_bufs_sub, binary_bufs_sub, ternary_bufs_sub,
    reshape_bufs_sub, and_self]

/-- What the result buffer holds after the run: the fold of the 121 operations' results over what device `c`'s
    buffers held at launch, read at the last operation's buffer. -/
def resOut (m : (ℓ : Loc nD τ sig) → Buf (Elt F) ℓ) (c : Dev nD) : Buf (Elt F) ((c.tc : Thread nD τ).loc main_v81) :=
  StableHlo.after (ops (F := F)) (StableHlo.launchContents m c) (Proc.devRef .tc main_v81)

set_option maxRecDepth 8192 in
set_option maxHeartbeats 4000000 in
/-- An argument buffer is the result buffer of no operation, so the fold leaves it as it was. -/
theorem arg_kept (V : Valuation τ sig (Elt F)) :
    StableHlo.after (ops (F := F)) V (Proc.devRef .tc main_arg0) = V (Proc.devRef .tc main_arg0)
    ∧ StableHlo.after (ops (F := F)) V (Proc.devRef .tc main_arg1) = V (Proc.devRef .tc main_arg1)
    ∧ StableHlo.after (ops (F := F)) V (Proc.devRef .tc main_arg2) = V (Proc.devRef .tc main_arg2)
    ∧ StableHlo.after (ops (F := F)) V (Proc.devRef .tc main_arg3) = V (Proc.devRef .tc main_arg3)
    ∧ StableHlo.after (ops (F := F)) V (Proc.devRef .tc main_arg4) = V (Proc.devRef .tc main_arg4)
    ∧ StableHlo.after (ops (F := F)) V (Proc.devRef .tc main_arg5) = V (Proc.devRef .tc main_arg5)
    ∧ StableHlo.after (ops (F := F)) V (Proc.devRef .tc main_arg6) = V (Proc.devRef .tc main_arg6)
    ∧ StableHlo.after (ops (F := F)) V (Proc.devRef .tc main_arg7) = V (Proc.devRef .tc main_arg7)
    ∧ StableHlo.after (ops (F := F)) V (Proc.devRef .tc main_arg8) = V (Proc.devRef .tc main_arg8)
    ∧ StableHlo.after (ops (F := F)) V (Proc.devRef .tc main_arg9) = V (Proc.devRef .tc main_arg9) := by
  refine ⟨?_, ?_, ?_, ?_, ?_, ?_, ?_, ?_, ?_, ?_⟩ <;> after_results_simp

/-- On every device, for any float values, from any memory with zero counters: every weakly fair execution of the
    reference terminates; the result buffer then holds `resOut`, and each of the ten arguments what it held at
    launch. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v81) = resOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono
    (fun _ h c =>
      have k := arg_kept (F := F) (StableHlo.launchContents m c)
      ⟨h c main_v81,
        (h c main_arg0).trans k.1, (h c main_arg1).trans k.2.1, (h c main_arg2).trans k.2.2.1,
        (h c main_arg3).trans k.2.2.2.1, (h c main_arg4).trans k.2.2.2.2.1, (h c main_arg5).trans k.2.2.2.2.2.1,
        (h c main_arg6).trans k.2.2.2.2.2.2.1, (h c main_arg7).trans k.2.2.2.2.2.2.2.1,
        (h c main_arg8).trans k.2.2.2.2.2.2.2.2.1, (h c main_arg9).trans k.2.2.2.2.2.2.2.2.2⟩)
    (run_seq scopedRefs_eq scopedSems_eq defs main (fun _ => ops) main_eq (fun _ => ops_sub) m ρ)

end Cert.ReferenceIdeal.RefRun

end
-- ==== Proof.RefFns.lean ====
import proofs.«149678_j3092376453139_1_alg».proof.ReferenceIdeal

/-!
# The whole-array functions of the reference

The reference computes the mean of each node's in-neighbours' features (`agg128`, `agg64`), a layer as
`(a · wlᵀ + b) + x · wrᵀ` (`layer1`, `layer2`), and between the layers normalises every column over the nodes array by
array — `((h - mean) · invStd) · γ + β` — and clips at zero (`norm`). Every definition is the printed operations'
composition, at any float instance.
-/

noncomputable section

namespace Cert.ReferenceIdeal.Fns

open Idealize.ShloMosaic Cert.ReferenceIdeal

variable {F : FTy → Type} [FloatOps F] [Facts]
open Facts₀ Facts

/-! ## The edge list -/

/-- The edge list's row 0 (sources) as a vector. -/
def srcRow (ei : IVec S2x1600000 32) : IVec S1600000 32 :=
  shapeCast S1600000 (extractStridedSlice S1x1600000 ![0, 0] ei slices_S2x1600000_S1x1600000_0_0) shapeCasts_S1x1600000_S1600000

/-- The edge list's row 1 (destinations) as a vector. -/
def dstRow (ei : IVec S2x1600000 32) : IVec S1600000 32 :=
  shapeCast S1600000 (extractStridedSlice S1x1600000 ![1, 0] ei slices_S2x1600000_S1x1600000_1_0) shapeCasts_S1x1600000_S1600000

/-- The sources as a column of start indices, a negative one counted from the end (`s + 100000`). -/
def srcCol (ei : IVec S2x1600000 32) : IVec S1600000x1 32 :=
  broadcastInDim S1600000x1 ![0] bcast_S1600000_S1600000x1_0
    (select (cmpi .slt (srcRow ei) (broadcastInDim S1600000 ![] bcast_S_S1600000 (constantI S_ 32 0#32)))
      (addi (srcRow ei) (broadcastInDim S1600000 ![] bcast_S_S1600000 (constantI S_ 32 100000#32)))
      (srcRow ei))

/-- The destinations as a column of scatter indices. -/
def dstCol (ei : IVec S2x1600000 32) : IVec S1600000x1 32 :=
  broadcastInDim S1600000x1 ![0] bcast_S1600000_S1600000x1_0 (dstRow ei)

/-- How many edges end at each node, at least one: `max (∑ over the edges into the node of 1) 1`. -/
def degree (ei : IVec S2x1600000 32) : FVec F S100000 .f32 :=
  maximumf
    (Host.scatterAdd scatter_S100000_S1600000x1_S1600000_n_0_0_1
      (broadcastInDim S100000 ![] bcast_S_S100000 (constant S_ .f32 0x00000000#32)) (dstCol ei)
      (broadcastInDim S1600000 ![] bcast_S_S1600000 (constant S_ .f32 0x3F800000#32)))
    (broadcastInDim S100000 ![] bcast_S_S100000 (constant S_ .f32 0x3F800000#32))

/-! ## The neighbourhood mean -/

/-- The mean over each node's in-edges of the source's 128 features (zero for a node no edge ends at). -/
def agg128 (x : FVec F S100000x128 .f32) (ei : IVec S2x1600000 32) : FVec F S100000x128 .f32 :=
  Host.divf
    (Host.scatterAdd scatter_S100000x128_S1600000x1_S1600000x128_1_0_0_1
      (broadcastInDim S100000x128 ![] bcast_S_S100000x128 (constant S_ .f32 0x00000000#32)) (dstCol ei)
      (Host.gather gather_S100000x128_S1600000x1_S1600000x128_1_0_n_n_0_1_1128 x (srcCol ei)))
    (broadcastInDim S100000x128 ![0, 1] bcast_S100000x1_S100000x128_0_1
      (broadcastInDim S100000x1 ![0] bcast_S100000_S100000x1_0 (degree ei)))

/-- The same mean of 64 features. -/
def agg64 (h : FVec F S100000x64 .f32) (ei : IVec S2x1600000 32) : FVec F S100000x64 .f32 :=
  Host.divf
    (Host.scatterAdd scatter_S100000x64_S1600000x1_S1600000x64_1_0_0_1
      (broadcastInDim S100000x64 ![] bcast_S_S100000x64 (constant S_ .f32 0x00000000#32)) (dstCol ei)
      (Host.gather gather_S100000x64_S1600000x1_S1600000x64_1_0_n_n_0_1_164 h (srcCol ei)))
    (broadcastInDim S100000x64 ![0, 1] bcast_S100000x1_S100000x64_0_1
      (broadcastInDim S100000x1 ![0] bcast_S100000_S100000x1_0 (degree ei)))

/-! ## The column statistics -/

/-- The sum of each column over the 100000 nodes. -/
def colSum (h : FVec F S100000x64 .f32) : FVec F S64 .f32 :=
  Host.reduceAdd h (constant S_ .f32 0x00000000#32) reducesTo_S100000x64_S64_d0 h_S_

/-- The mean of each column: its sum over 100000. -/
def colMean (h : FVec F S100000x64 .f32) : FVec F S64 .f32 :=
  Host.divf (colSum h) (broadcastInDim S64 ![] bcast_S_S64 (constant S_ .f32 0x47C35000#32))

/-- The divisor of the variance, `100000 - 0` (no degree of freedom taken off), as a scalar. -/
def varCount : FVec F S_ .f32 :=
  subf (constant S_ .f32 0x47C35000#32) (sitofp .f32 (constantI S_ 32 0#32))

/-- Each entry less its column's mean, the mean taken as a `1 × 64` row. -/
def centred (h : FVec F S100000x64 .f32) : FVec F S100000x64 .f32 :=
  subf h (broadcastInDim S100000x64 ![0, 1] bcast_S1x64_S100000x64_0_1
    (Host.divf (broadcastInDim S1x64 ![1] bcast_S64_S1x64_1 (colSum h))
      (broadcastInDim S1x64 ![] bcast_S_S1x64 (constant S_ .f32 0x47C35000#32))))

/-- The variance of each column: the centred entries squared, summed and divided by the count; where the count
    were not positive the answer would be the not-a-number pattern. -/
def colVar (h : FVec F S100000x64 .f32) : FVec F S64 .f32 :=
  select (broadcastInDim S64 ![] bcast_S_S64 (cmpf .ogt (varCount (F := F)) (constant S_ .f32 0x00000000#32)))
    (Host.divf (colSum (mulf (centred h) (centred h))) (broadcastInDim S64 ![] bcast_S_S64 (varCount (F := F))))
    (broadcastInDim S64 ![] bcast_S_S64 (id (constant S_ .f32 0x7FC00000#32)))

/-- `1 / √(var + ε)` per column, `ε` the float nearest `1e-5`. -/
def invStd (h : FVec F S100000x64 .f32) : FVec F S64 .f32 :=
  Host.rsqrt (addf (colVar h) (broadcastInDim S64 ![] bcast_S_S64 (constant S_ .f32 0x3727C5AC#32)))

/-! ## The layers and the normalisation, array by array -/

/-- A vector of 64 as a `100000 × 64` array of equal rows. -/
def rows64 (v : FVec F S64 .f32) : FVec F S100000x64 .f32 :=
  broadcastInDim S100000x64 ![0, 1] bcast_S1x64_S100000x64_0_1 (broadcastInDim S1x64 ![1] bcast_S64_S1x64_1 v)

/-- A vector of 16 as a `100000 × 16` array of equal rows. -/
def rows16 (v : FVec F S16 .f32) : FVec F S100000x16 .f32 :=
  broadcastInDim S100000x16 ![0, 1] bcast_S1x16_S100000x16_0_1 (broadcastInDim S1x16 ![1] bcast_S16_S1x16_1 v)

/-- The first layer: `(a · wlᵀ + b) + x · wrᵀ`. -/
def layer1 (a x : FVec F S100000x128 .f32) (wl : FVec F S64x128 .f32) (b : FVec F S64 .f32) (wr : FVec F S64x128 .f32) :
    FVec F S100000x64 .f32 :=
  addf
    (addf (Host.dotGeneral dot_S100000x128_S128x64_S100000x64_1_0_0_1_n_n none a (transpose S128x64 [1, 0] wl transposes_S64x128_S128x64_1_0))
      (rows64 b))
    (Host.dotGeneral dot_S100000x128_S128x64_S100000x64_1_0_0_1_n_n none x (transpose S128x64 [1, 0] wr transposes_S64x128_S128x64_1_0))

/-- The normalisation: `((h - mean) · invStd) · γ + β`, then the clip at zero. -/
def norm (g b : FVec F S64 .f32) (h : FVec F S100000x64 .f32) : FVec F S100000x64 .f32 :=
  maximumf
    (addf (mulf (mulf (subf h (rows64 (colMean h))) (rows64 (invStd h))) (rows64 g)) (rows64 b))
    (broadcastInDim S100000x64 ![] bcast_S_S100000x64 (constant S_ .f32 0x00000000#32))

/-- The second layer. -/
def layer2 (a x : FVec F S100000x64 .f32) (wl : FVec F S16x64 .f32) (b : FVec F S16 .f32) (wr : FVec F S16x64 .f32) :
    FVec F S100000x16 .f32 :=
  addf
    (addf (Host.dotGeneral dot_S100000x64_S64x16_S100000x16_1_0_0_1_n_n none a (transpose S64x16 [1, 0] wl transposes_S16x64_S64x16_1_0))
      (rows16 b))
    (Host.dotGeneral dot_S100000x64_S64x16_S100000x16_1_0_0_1_n_n none x (transpose S64x16 [1, 0] wr transposes_S16x64_S64x16_1_0))

/-- The hidden features: the first layer normalised and clipped. -/
def hidden (x : FVec F S100000x128 .f32) (ei : IVec S2x1600000 32) (w1l : FVec F S64x128 .f32) (b1 : FVec F S64 .f32)
    (w1r : FVec F S64x128 .f32) (g bt : FVec F S64 .f32) : FVec F S100000x64 .f32 :=
  norm g bt (layer1 (agg128 x ei) x w1l b1 w1r)

/-- The reference's whole result. -/
def out (x : FVec F S100000x128 .f32) (ei : IVec S2x1600000 32) (w1l : FVec F S64x128 .f32) (b1 : FVec F S64 .f32)
    (w1r : FVec F S64x128 .f32) (g bt : FVec F S64 .f32) (w2l : FVec F S16x64 .f32) (b2 : FVec F S16 .f32) (w2r : FVec F S16x64 .f32) :
    FVec F S100000x16 .f32 :=
  layer2 (agg64 (hidden x ei w1l b1 w1r g bt) ei) (hidden x ei w1l b1 w1r g bt) w2l b2 w2r

end Cert.ReferenceIdeal.Fns

end
-- ==== Proof.RefValue.lean ====
import proofs.«149678_j3092376453139_1_alg».proof.Proof.RefRun
import proofs.«149678_j3092376453139_1_alg».proof.Proof.RefFns
import Idealize.ShloMosaic.PureOps.Ideal

/-!
# The reference's result as one composition

The run leaves the result buffer at the fold of 121 operations over the launch contents. Read operation by operation
the fold is a term in which the first layer's output occurs a dozen times, so it is read in three stretches instead,
each from an arbitrary state of the buffers:

* the first 37 operations leave the first layer's output, `layer1 (agg128 x e) x w₁ b₁ w₁'`;
* the next 47 (the column means, the variance, the centring and scaling, the clip) leave `norm γ β` of that buffer;
* the last 37 leave `layer2 (agg64 h e) h w₂ b₂ w₂'` of the clipped array `h`.

A stretch writes none of the arguments a later stretch reads, so these stay what they were. Chained, the three reads
are the composition `out`.
-/

noncomputable section

namespace Cert.ReferenceIdeal.RefValue

open Cert.ReferenceIdeal Cert.ReferenceIdeal.Gen Idealize.ShloMosaic Idealize.ShloMosaic.TcCoe Idealize.SL.Sem
  Idealize.ShloMosaic.StableHlo

variable {F : FTy → Type} [FloatOps F]

/-- Running one list and then another is running their concatenation. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- A list run is its first `i` operations run, then the rest. -/
theorem after_cut (l : List (HloOp τ sig (Elt F))) (i : Nat) (V : Valuation τ sig (Elt F)) :
    after l V = after (l.drop i) (after (l.take i) V) := by
  rw [← after_append, List.take_append_drop]

/-- The first layer: operations 1 to 37. -/
abbrev first : List (HloOp τ sig (Elt F)) := (RefRun.ops (F := F)).take 37
/-- The normalisation and the clip: operations 38 to 84. -/
abbrev middle : List (HloOp τ sig (Elt F)) := ((RefRun.ops (F := F)).drop 37).take 47
/-- The second layer: operations 85 to 121. -/
abbrev last : List (HloOp τ sig (Elt F)) := ((RefRun.ops (F := F)).drop 37).drop 47

/-- The program is the three stretches in a row. -/
theorem after_ops (V : Valuation τ sig (Elt F)) :
    after (RefRun.ops (F := F)) V = after last (after middle (after first V)) := by
  rw [after_cut RefRun.ops 37 V, after_cut (RefRun.ops.drop 37) 47]

set_option maxRecDepth 8192 in
set_option maxHeartbeats 4000000 in
/-- From any state, the first stretch leaves the first layer of the features and the edge list it finds in the
    argument buffers, and the arguments read later as they were. -/
theorem first_read (V : Valuation τ sig (Elt F)) :
    after (first (F := F)) V (Proc.devRef .tc main_v30)
        = Fns.layer1 (Fns.agg128 (V (Proc.devRef .tc main_arg0)) (V (Proc.devRef .tc main_arg1))) (V (Proc.devRef .tc main_arg0))
            (V (Proc.devRef .tc main_arg2)) (V (Proc.devRef .tc main_arg3)) (V (Proc.devRef .tc main_arg4))
    ∧ after (first (F := F)) V (Proc.devRef .tc main_arg1) = V (Proc.devRef .tc main_arg1)
    ∧ after (first (F := F)) V (Proc.devRef .tc main_arg5) = V (Proc.devRef .tc main_arg5)
    ∧ after (first (F := F)) V (Proc.devRef .tc main_arg6) = V (Proc.devRef .tc main_arg6)
    ∧ after (first (F := F)) V (Proc.devRef .tc main_arg7) = V (Proc.devRef .tc main_arg7)
    ∧ after (first (F := F)) V (Proc.devRef .tc main_arg8) = V (Proc.devRef .tc main_arg8)
    ∧ after (first (F := F)) V (Proc.devRef .tc main_arg9) = V (Proc.devRef .tc main_arg9) := by
  simp only [first, RefRun.ops, List.take_succ_cons, List.take_zero]
  refine ⟨?_, ?_, ?_, ?_, ?_, ?_, ?_⟩ <;> after_results_simp
  rfl

set_option maxRecDepth 8192 in
set_option maxHeartbeats 4000000 in
/-- From any state, the middle stretch leaves the normalised and clipped array of what it finds in the first layer's
    buffer, under the scale and the shift it finds in their argument buffers. -/
theorem middle_read (V : Valuation τ sig (Elt F)) :
    after (middle (F := F)) V (Proc.devRef .tc main_v50)
        = Fns.norm (V (Proc.devRef .tc main_arg5)) (V (Proc.devRef .tc main_arg6)) (V (Proc.devRef .tc main_v30))
    ∧ after (middle (F := F)) V (Proc.devRef .tc main_arg1) = V (Proc.devRef .tc main_arg1)
    ∧ after (middle (F := F)) V (Proc.devRef .tc main_arg7) = V (Proc.devRef .tc main_arg7)
    ∧ after (middle (F := F)) V (Proc.devRef .tc main_arg8) = V (Proc.devRef .tc main_arg8)
    ∧ after (middle (F := F)) V (Proc.devRef .tc main_arg9) = V (Proc.devRef .tc main_arg9) := by
  simp only [middle, RefRun.ops, List.drop_succ_cons, List.drop_zero, List.take_succ_cons, List.take_zero]
  refine ⟨?_, ?_, ?_, ?_, ?_⟩ <;> after_results_simp
  rfl

set_option maxRecDepth 8192 in
set_option maxHeartbeats 4000000 in
/-- From any state, the last stretch leaves the second layer of what it finds in the clipped array's buffer. -/
theorem last_read (V : Valuation τ sig (Elt F)) :
    after (last (F := F)) V (Proc.devRef .tc main_v81)
      = Fns.layer2 (Fns.agg64 (V (Proc.devRef .tc main_v50)) (V (Proc.devRef .tc main_arg1))) (V (Proc.devRef .tc main_v50))
          (V (Proc.devRef .tc main_arg7)) (V (Proc.devRef .tc main_arg8)) (V (Proc.devRef .tc main_arg9)) := by
  simp only [last, RefRun.ops, List.drop_succ_cons, List.drop_zero]
  after_results_simp
  rfl

/-- From any state, the whole program leaves at the result buffer the composition `out` of the ten arguments. -/
theorem after_ops_out (V : Valuation τ sig (Elt F)) :
    after (RefRun.ops (F := F)) V (Proc.devRef .tc main_v81)
      = Fns.out (V (Proc.devRef .tc main_arg0)) (V (Proc.devRef .tc main_arg1)) (V (Proc.devRef .tc main_arg2))
          (V (Proc.devRef .tc main_arg3)) (V (Proc.devRef .tc main_arg4)) (V (Proc.devRef .tc main_arg5))
          (V (Proc.devRef .tc main_arg6)) (V (Proc.devRef .tc main_arg7)) (V (Proc.devRef .tc main_arg8))
          (V (Proc.devRef .tc main_arg9)) := by
  obtain ⟨h30, h1, h5, h6, h7, h8, h9⟩ := first_read V
  obtain ⟨h50, k1, k7, k8, k9⟩ := middle_read (after (first (F := F)) V)
  rw [after_ops, last_read, h50, k1, k7, k8, k9, h30, h1, h5, h6, h7, h8, h9]
  rfl

/-- At the extended reals: the result buffer after the run holds `out` of the launch contents of the arguments. -/
theorem resOut_eq (m : (ℓ : Loc nD τ sig) → Buf (Elt Ideal) ℓ) (c : Dev nD) :
    (RefRun.resOut (F := Ideal) m c : S100000x16.Idx → EReal)
      = Fns.out (F := Ideal) (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) :=
  after_ops_out (F := Ideal) (StableHlo.launchContents m c)

end Cert.ReferenceIdeal.RefValue

end
-- ==== Proof.FinitePre.lean ====
import proofs.«149678_j3092376453139_1_alg».proof.Defs
import proofs.«149678_j3092376453139_1_alg».proof.Proof.Spec
import proofs.«149678_j3092376453139_1_alg».proof.Proof.Gen.Pre_finite_inputs
import Idealize.ShloMosaic.Lib.ReduceAll
import Idealize.ShloMosaic.Lib.ValueIdx
import Idealize.ShloMosaic.Lib.IdealHost

/-!
# From the precondition to "every float input is real"

The precondition is one bit: the conjunction, over the nine float arrays, of "every entry `x` has `|x| < +∞`".
Over the extended reals `|x| = max x (-x)`, and `max x (-x) < ⊤` rules out both `x = ⊤` and `x = ⊥` (whose negation
is `⊤`), so what is left of `x` is a real number. The bit being one, every conjunct is one; a conjunction over all
entries of an array that is one has a one at every entry; and a strict comparison that is one holds.
-/

noncomputable section

namespace Cert.FinitePre

open Idealize.ShloMosaic Idealize.SL.Sem Idealize.ShloMosaic.ValueIdx
open Cert.KernelIdeal

/-- A shape with no axes has exactly one index: two index functions on the empty set of axes agree. -/
instance : Subsingleton (⟨0, ![]⟩ : Shape).Idx := ⟨fun a b => funext fun d => d.elim0⟩

/-- The word with sign 0, all eight exponent bits set and a zero fraction denotes `+∞`. -/
theorem top_bits : Ideal.ofBits .f32 0x7F800000#32 = (⊤ : EReal) := by
  simp [Ideal.ofBits, Ideal.ieee]

/-- If `max x (-x) < +∞` then `x` is a real: at `x = ⊤` the maximum is `⊤`, at `x = ⊥` it is `-⊥ = ⊤`, and
    `⊤ < ⊤` is false. -/
theorem real_of_abs_lt_top (x : EReal)
    (h : Ideal.cmp .olt (max x (-x)) (Ideal.ofBits .f32 0x7F800000#32) = 1#1) : ∃ r : ℝ, x = (r : EReal) := by
  rw [top_bits] at h
  induction x using EReal.rec with
  | bot => simp [Ideal.cmp] at h
  | coe r => exact ⟨r, rfl⟩
  | top => simp [Ideal.cmp] at h

/-- One conjunct, at any shape: if the conjunction over all entries of `|v i| < +∞` is one, then every entry of `v`
    is a real. The conjunction gives the comparison at each index `i`; there the bound, a scalar spread over the
    shape, reads `+∞`, and the scalar lemma above finishes. -/
theorem isReal_of_all {s : Shape} {axes : List (Fin s.rank)} (v : FVec Ideal s .f32)
    (hb : (⟨0, ![]⟩ : Shape).BroadcastsInDim s ![]) (hr : s.ReducesTo axes ⟨0, ![]⟩)
    (h0 : 0 < (⟨0, ![]⟩ : Shape).numel) (init : IVec ⟨0, ![]⟩ 1)
    (h : Host.reduce IntOp.andi
        (cmpf .olt (Host.absf v) (broadcastInDim s ![] hb (constant ⟨0, ![]⟩ .f32 0x7F800000#32))) init hr h0 ix0
      = 1#1) :
    Cert.Spec.IsReal (v : s.Idx → EReal) := by
  intro i
  have e := Host.reduce_andi_all _ init hr h0 _ h i
  rw [cmpf_apply, broadcastInDim_scalar_apply] at e
  exact real_of_abs_lt_top (v i) e

/-- Under the precondition every entry of each of the nine float inputs is a real. The precondition's one bit is a
    left-nested conjunction of nine bits; peeling it from the right gives the nine conjuncts, last input first. -/
theorem real_inputs (m : (ℓ : Loc nD τ sig) → Buf (Elt Ideal) ℓ) (h : Cert.Pre_KernelIdeal m) (c : Dev nD) :
    Cert.Spec.IsReal (m ((c.tc : Thread nD τ).loc main_arg0) : S100000x128.Idx → EReal)
    ∧ Cert.Spec.IsReal (m ((c.tc : Thread nD τ).loc main_arg2) : S64x128.Idx → EReal)
    ∧ Cert.Spec.IsReal (m ((c.tc : Thread nD τ).loc main_arg3) : S64.Idx → EReal)
    ∧ Cert.Spec.IsReal (m ((c.tc : Thread nD τ).loc main_arg4) : S64x128.Idx → EReal)
    ∧ Cert.Spec.IsReal (m ((c.tc : Thread nD τ).loc main_arg5) : S64.Idx → EReal)
    ∧ Cert.Spec.IsReal (m ((c.tc : Thread nD τ).loc main_arg6) : S64.Idx → EReal)
    ∧ Cert.Spec.IsReal (m ((c.tc : Thread nD τ).loc main_arg7) : S16x64.Idx → EReal)
    ∧ Cert.Spec.IsReal (m ((c.tc : Thread nD τ).loc main_arg8) : S16.Idx → EReal)
    ∧ Cert.Spec.IsReal (m ((c.tc : Thread nD τ).loc main_arg9) : S16x64.Idx → EReal) := by
  have h1 := congrFun (h c) ix0
  dsimp only [Cert.Pre_finite_inputs.fn, Cert.Pre_finite_inputs.fn_part1, Cert.Pre_finite_inputs.fn_part2] at h1
  obtain ⟨h1, e9⟩ := IntOp.andi_eq_one.1 h1
  obtain ⟨h1, e8⟩ := IntOp.andi_eq_one.1 h1
  obtain ⟨h1, e7⟩ := IntOp.andi_eq_one.1 h1
  obtain ⟨h1, e6⟩ := IntOp.andi_eq_one.1 h1
  obtain ⟨h1, e5⟩ := IntOp.andi_eq_one.1 h1
  obtain ⟨h1, e4⟩ := IntOp.andi_eq_one.1 h1
  obtain ⟨h1, e3⟩ := IntOp.andi_eq_one.1 h1
  obtain ⟨e0, e2⟩ := IntOp.andi_eq_one.1 h1
  exact ⟨isReal_of_all _ _ _ _ _ e0, isReal_of_all _ _ _ _ _ e2, isReal_of_all _ _ _ _ _ e3,
    isReal_of_all _ _ _ _ _ e4, isReal_of_all _ _ _ _ _ e5, isReal_of_all _ _ _ _ _ e6,
    isReal_of_all _ _ _ _ _ e7, isReal_of_all _ _ _ _ _ e8, isReal_of_all _ _ _ _ _ e9⟩

end Cert.FinitePre

end
-- ==== Proof.LibDenseDefs.lean ====
import Idealize.ShloMosaic.PureOps.Ideal
import Idealize.ShloMosaic.Lib.ValueIdx

/-!
# Dense layers on rows of extended reals: the definitions

A dense layer sends the rows of an `M × K` array `x` to `x · w + b`: entry `(r, q)` is `∑ k, x[r, k] · w[k, q] + b[q]`
(`lin`). `relu x = max x 0`; `cat` joins two arrays along the columns. All at an arbitrary number of rows.
-/

noncomputable section

namespace Cert.LibDense

open Idealize.ShloMosaic Idealize.ShloMosaic.ValueIdx

/-- An `m × n` array of extended reals. -/
abbrev Mat (m n : Nat) := (⟨2, ![m, n]⟩ : Shape).Idx → EReal
/-- A vector of `n` extended reals. -/
abbrev Row (n : Nat) := (⟨1, ![n]⟩ : Shape).Idx → EReal

/-- `max x 0`. -/
def relu (x : EReal) : EReal := max x 0

/-- `relu` entry by entry, over any index type. -/
def reluM {ι : Type} (x : ι → EReal) : ι → EReal := fun i => relu (x i)

/-- The dense layer `x · w + b`: entry `(r, q)` is `∑ k, x[r, k] · w[k, q] + b[q]`. -/
def lin {M K N : Nat} (x : Mat M K) (w : Mat K N) (b : Row N) : Mat M N :=
  fun i => (∑ k : Fin K, x (ix2 (i 0) k) * w (ix2 k (i 1))) + b (ix1 (i 1))

/-- Two arrays side by side: columns `0 … A-1` are `s`'s, columns `A … A+B-1` are `d`'s. -/
def cat {M A B : Nat} (s : Mat M A) (d : Mat M B) : Mat M (A + B) :=
  fun i => if h : (i 1).val < A then s (ix2 (i 0) ⟨(i 1).val, h⟩)
    else d (ix2 (i 0) ⟨(i 1).val - A, by have := (i 1).isLt; change (i 1).val < A + B at this; omega⟩)

theorem lin_apply {M K N : Nat} (x : Mat M K) (w : Mat K N) (b : Row N) (r : Fin M) (q : Fin N) :
    lin x w b (ix2 r q) = (∑ k : Fin K, x (ix2 r k) * w (ix2 k q)) + b (ix1 q) := rfl

end Cert.LibDense

end
-- ==== Proof.LibLayout.lean ====
import proofs.«149678_j3092376453139_1_alg».proof.Proof.LibDenseDefs
import Idealize.ShloMosaic.PureOps.Ideal.Laws
import Idealize.ShloMosaic.Lib.ValueLayout
import Idealize.ShloMosaic.Lib.Pipeline.Value
import Idealize.ShloMosaic.Lib.StableHlo.Predicate

/-!
# Bias, `relu` and the column join, in the host's spelling and in a kernel's, read at an entry

* the bias of a row vector, as the host spells it (`broadcast_in_dim` twice: `[N] → [1, N] → [M, N]`) and as a kernel
  spells it (`shape_cast` to `[1, N]`, `broadcast` to `[M, N]`): both are `b[q]` at `(p, q)`;
* `max · 0` against the zero splat, in the host's and in a kernel's spelling: `relu` entry by entry;
* `concatenate` of two arrays along the columns: `cat`.
-/

noncomputable section

namespace Cert.LibDense

open Idealize.ShloMosaic Idealize.ShloMosaic.ValueIdx

/-! ## The bias read at an entry -/

/-- The host's bias: a row vector broadcast `[N] → [1, N] → [M, N]` reads `b[q]` at `(p, q)`. -/
theorem hostBias_apply {α : Type} (M N : Nat) (h₁ : (⟨1, ![N]⟩ : Shape).BroadcastsInDim ⟨2, ![1, N]⟩ ![1])
    (h₂ : (⟨2, ![1, N]⟩ : Shape).BroadcastsInDim ⟨2, ![M, N]⟩ ![0, 1]) (b : (⟨1, ![N]⟩ : Shape).Idx → α) (p : Fin M) (q : Fin N) :
    broadcastInDim ⟨2, ![M, N]⟩ ![0, 1] h₂ (broadcastInDim ⟨2, ![1, N]⟩ ![1] h₁ b) (ix2 p q) = b (ix1 q) := by
  -- the two spellings of the index (p, q), and of the index q, are the same function of the coordinate
  have e2 : (ix2 p q : (⟨2, ![M, N]⟩ : Shape).Idx) = StableHlo.Predicate.ij p q := by
    funext a; match a with | ⟨0, _⟩ => rfl | ⟨1, _⟩ => rfl
  have e1 : (ix1 q : (⟨1, ![N]⟩ : Shape).Idx) = Shape.Idx.ofFin q := by
    funext a; match a with | ⟨0, _⟩ => rfl
  rw [e2, e1]
  exact StableHlo.Predicate.bcast_cols h₁ h₂ b p q

/-- A kernel's bias: a row vector shape-cast to `[1, N]` and broadcast to `[M, N]` reads `b[q]` at `(p, q)`. -/
theorem kernBias_apply {α : Type} (M N : Nat) (hc : (⟨1, ![N]⟩ : Shape).ShapeCasts ⟨2, ![1, N]⟩)
    (hb : (⟨2, ![1, N]⟩ : Shape).Broadcasts ⟨2, ![M, N]⟩) (b : (⟨1, ![N]⟩ : Shape).Idx → α) (p : Fin M) (q : Fin N) :
    broadcastTo ⟨2, ![M, N]⟩ (shapeCast ⟨2, ![1, N]⟩ b hc) hb (ix2 p q) = b (ix1 q) := by
  have hq := q.isLt
  -- the broadcast reads the [1, N] row at (0, q): axis 0 of the row is a unit axis, axis 1 keeps the column
  refine (broadcastTo_apply (shapeCast ⟨2, ![1, N]⟩ b hc) hb (ix2 p q) (ix2 (0 : Fin 1) q) ?_).trans ?_
  · intro a
    match a with
    | ⟨0, _⟩ => exact (if_pos rfl).symm
    | ⟨1, _⟩ =>
      show q.val = if N = 1 then 0 else q.val
      split
      · omega
      · rfl
  -- the shape cast keeps the row-major position: 0 * N + q = q
  · refine shapeCast_apply b hc (ix2 (0 : Fin 1) q) (ix1 q) ?_
    rw [Shape.rowMajor_val_one, Shape.rowMajor_val_two]
    show q.val = 0 * N + q.val
    omega

/-! ## `relu` in the two spellings -/

/-- The host's `maximum(x, broadcast(0.0))` is `relu` entry by entry. -/
theorem hostRelu_eq {s : Shape} (h : (⟨0, ![]⟩ : Shape).BroadcastsInDim s ![]) (x : FVec Ideal s .f32) :
    maximumf x (broadcastInDim s ![] h (constant (F := Ideal) (⟨0, ![]⟩ : Shape) .f32 0x00000000#32)) = reluM x := by
  funext i
  show max (x i) (broadcastInDim s ![] h (constant (F := Ideal) (⟨0, ![]⟩ : Shape) .f32 0x00000000#32) i) = relu (x i)
  rw [StableHlo.Predicate.bcast_scalar h (by decide) _ i, constant_apply, Ideal.ofBits_zero_f32]
  rfl

/-- A kernel's `maximumf(x, broadcast 0.0)` is `relu` entry by entry. -/
theorem kernRelu_eq {s : Shape} (x : FVec Ideal s .f32) :
    maximumf x (broadcast s (Scalar.ofBits (F := Ideal) .f32 0x00000000#32)) = reluM x := by
  funext i
  show max (x i) (Ideal.ofBits .f32 0x00000000#32) = relu (x i)
  rw [Ideal.ofBits_zero_f32]
  rfl

/-! ## The column join -/

/-- `concatenate` of two arrays along the columns is `cat`. -/
theorem concat_eq (M A B : Nat) (h : Shape.Concatenates [(⟨2, ![M, A]⟩ : Shape), (⟨2, ![M, B]⟩ : Shape)] (⟨2, ![M, A + B]⟩ : Shape) 1)
    (s : Mat M A) (d : Mat M B) :
    concatenate (⟨2, ![M, A + B]⟩ : Shape) 1 [⟨(⟨2, ![M, A]⟩ : Shape), s⟩, ⟨(⟨2, ![M, B]⟩ : Shape), d⟩] h = cat s d := by
  funext i
  have hi1 : (i 1).val < A + B := (i 1).isLt
  unfold cat
  by_cases hlt : (i 1).val < A
  -- a column below A lies in the first piece, at the same coordinates
  · rw [dif_pos hlt]
    refine concatenate_pair_apply_left (1 : Fin 2) s d h i rfl (ix2 (i 0) ⟨(i 1).val, hlt⟩) ?_
    intro b
    match b with
    | ⟨0, _⟩ => rfl
    | ⟨1, _⟩ => rfl
  -- a column at or past A lies in the second piece, A columns to the left
  · rw [dif_neg hlt]
    refine concatenate_pair_apply_right (1 : Fin 2) s d h i rfl rfl (ix2 (i 0) ⟨(i 1).val - A, by omega⟩) ?_ ?_
    · intro b hb
      match b, hb with
      | ⟨0, _⟩, _ => rfl
      | ⟨1, _⟩, hb => exact absurd rfl hb
    · show (i 1).val - A + A = (i 1).val
      omega

end Cert.LibDense

end
-- ==== Proof.LayerEq.lean ====
import proofs.«149678_j3092376453139_1_alg».proof.Proof.RefFns
import proofs.«149678_j3092376453139_1_alg».proof.Proof.Spec
import proofs.«149678_j3092376453139_1_alg».proof.Proof.LibContract
import proofs.«149678_j3092376453139_1_alg».proof.Proof.LibLayout
import proofs.«149678_j3092376453139_1_alg».proof.Proof.Gen.ReferenceIdeal
import Idealize.ShloMosaic.PureOps.Ideal.Laws
import Idealize.ShloMosaic.Lib.ValueIdx
import Idealize.ShloMosaic.Lib.Pipeline.Value
import Idealize.ShloMosaic.Lib.ValueLayout

/-!
# The reference's dense layer is the entry-by-entry layer

The reference writes a layer as `(a · wl + rows b) + x · wr`, where `rows b` repeats the bias vector `b` on every row.
At entry `(r, q)` this is `(∑ k, a[r, k] · wl[k, q] + b[q]) + ∑ k, x[r, k] · wr[k, q]`. Addition of extended reals is
commutative and associative with no side condition, so the bias moves to the end:
`(∑ k, a[r, k] · wl[k, q] + ∑ k, x[r, k] · wr[k, q]) + b[q]`, which is `sage` with the bias read as a `1 × N` row
(entry `(0, q)` of the row is `b[q]`: both sit at row-major position `q`).

A transposed array and a re-shaped array only re-read entries of their source, so they have no infinite entry when the
source has none.
-/

noncomputable section

namespace Cert.LayerEq

open Idealize.ShloMosaic Idealize.ShloMosaic.ValueIdx Cert.ReferenceIdeal Cert.Spec
open Facts₀ Facts

/-! ## Re-reading keeps every entry real -/

/-- Every entry of a transposed array is an entry of its source. -/
theorem transpose_real {s t : Shape} {perm : List (Fin s.rank)} (h : s.Transposes perm t) {v : s.Idx → EReal}
    (hv : IsReal v) : IsReal (transpose t perm v h) :=
  fun j => hv (h.src j)

/-- Every entry of a re-shaped array is an entry of its source. -/
theorem shapeCast_real {s t : Shape} (h : s.ShapeCasts t) {v : s.Idx → EReal} (hv : IsReal v) :
    IsReal (shapeCast t v h) :=
  fun j => hv (Shape.reshapeEquiv h j)

/-! ## The layer, at any sizes -/

/-- A vector of `N` re-shaped to a `1 × N` row reads `b[q]` at `(0, q)`: the row-major positions are `0 · N + q = q`. -/
theorem rowCast_apply {α : Type} (N : Nat) (hc : (⟨1, ![N]⟩ : Shape).ShapeCasts ⟨2, ![1, N]⟩)
    (b : (⟨1, ![N]⟩ : Shape).Idx → α) (q : Fin N) :
    shapeCast ⟨2, ![1, N]⟩ b hc (ix2 (0 : Fin 1) q) = b (ix1 q) := by
  refine shapeCast_apply b hc (ix2 (0 : Fin 1) q) (ix1 q) ?_
  rw [Shape.rowMajor_val_one, Shape.rowMajor_val_two]
  show q.val = 0 * N + q.val
  omega

/-- `(a · wl + rows b) + x · wr` is `sage a x wl wr` with `b` as a `1 × N` row: entry by entry the two differ by moving
    the bias past the second sum. -/
theorem layer_eq (M K N : Nat) (prec : Option ContractPrecision)
    (h₁ : (⟨1, ![N]⟩ : Shape).BroadcastsInDim ⟨2, ![1, N]⟩ ![1])
    (h₂ : (⟨2, ![1, N]⟩ : Shape).BroadcastsInDim ⟨2, ![M, N]⟩ ![0, 1])
    (hc : (⟨1, ![N]⟩ : Shape).ShapeCasts ⟨2, ![1, N]⟩)
    (a x : FVec Ideal (⟨2, ![M, K]⟩ : Shape) .f32) (wl wr : FVec Ideal (⟨2, ![K, N]⟩ : Shape) .f32)
    (b : FVec Ideal (⟨1, ![N]⟩ : Shape) .f32) :
    addf
        (addf (Host.dotGeneral (DotDims.plain M K N) prec a wl)
          (broadcastInDim ⟨2, ![M, N]⟩ ![0, 1] h₂ (broadcastInDim ⟨2, ![1, N]⟩ ![1] h₁ b)))
        (Host.dotGeneral (DotDims.plain M K N) prec x wr)
      = sage (M := M) (K := K) (N := N) a x wl wr (shapeCast ⟨2, ![1, N]⟩ b hc) := by
  funext i
  obtain ⟨r, q, rfl⟩ : ∃ r q, i = ix2 r q := ⟨i 0, i 1, eq_ix2 i⟩
  rw [addf_apply, addf_apply, Cert.LibDense.dotGeneral_plain_apply, Cert.LibDense.dotGeneral_plain_apply,
    Cert.LibDense.hostBias_apply, sage_apply, rowCast_apply]
  exact add_right_comm _ _ _

/-! ## The two layers of the reference -/

/-- The first layer (`100000 × 128` features into `64` columns). -/
theorem layer1_eq (hc : S64.ShapeCasts S1x64) (a x : FVec Ideal S100000x128 .f32) (wl wr : FVec Ideal S64x128 .f32)
    (b : FVec Ideal S64 .f32) :
    Cert.ReferenceIdeal.Fns.layer1 (F := Ideal) a x wl b wr
      = sage (M := 100000) (K := 128) (N := 64) a x (transpose S128x64 [1, 0] wl transposes_S64x128_S128x64_1_0)
          (transpose S128x64 [1, 0] wr transposes_S64x128_S128x64_1_0) (shapeCast S1x64 b hc) :=
  layer_eq 100000 128 64 none bcast_S64_S1x64_1 bcast_S1x64_S100000x64_0_1 hc a x
    (transpose S128x64 [1, 0] wl transposes_S64x128_S128x64_1_0)
    (transpose S128x64 [1, 0] wr transposes_S64x128_S128x64_1_0) b

/-- The second layer (`100000 × 64` features into `16` columns). -/
theorem layer2_eq (hc : S16.ShapeCasts S1x16) (a x : FVec Ideal S100000x64 .f32) (wl wr : FVec Ideal S16x64 .f32)
    (b : FVec Ideal S16 .f32) :
    Cert.ReferenceIdeal.Fns.layer2 (F := Ideal) a x wl b wr
      = sage (M := 100000) (K := 64) (N := 16) a x (transpose S64x16 [1, 0] wl transposes_S16x64_S64x16_1_0)
          (transpose S64x16 [1, 0] wr transposes_S16x64_S64x16_1_0) (shapeCast S1x16 b hc) :=
  layer_eq 100000 64 16 none bcast_S16_S1x16_1 bcast_S1x16_S100000x16_0_1 hc a x
    (transpose S64x16 [1, 0] wl transposes_S16x64_S64x16_1_0)
    (transpose S64x16 [1, 0] wr transposes_S16x64_S64x16_1_0) b

end Cert.LayerEq

end
-- ==== Proof.Reals.lean ====
import proofs.«149678_j3092376453139_1_alg».proof.Proof.Spec
import Mathlib.Data.EReal.Operations

/-!
# Real entries stay real

The extended reals that are real numbers are closed under sums, differences, products, maxima and finite sums; so an
array of real entries stays one under every entrywise operation and under the layers' sums of products.
-/

noncomputable section

namespace Cert.Spec

open Idealize.ShloMosaic Idealize.ShloMosaic.ValueIdx

theorem real_add {x y : EReal} (hx : ∃ r : ℝ, x = (r : EReal)) (hy : ∃ r : ℝ, y = (r : EReal)) :
    ∃ r : ℝ, x + y = (r : EReal) := by
  obtain ⟨a, rfl⟩ := hx
  obtain ⟨b, rfl⟩ := hy
  exact ⟨a + b, (EReal.coe_add a b).symm⟩

theorem real_sub {x y : EReal} (hx : ∃ r : ℝ, x = (r : EReal)) (hy : ∃ r : ℝ, y = (r : EReal)) :
    ∃ r : ℝ, x - y = (r : EReal) := by
  obtain ⟨a, rfl⟩ := hx
  obtain ⟨b, rfl⟩ := hy
  exact ⟨a - b, (EReal.coe_sub a b).symm⟩

theorem real_mul {x y : EReal} (hx : ∃ r : ℝ, x = (r : EReal)) (hy : ∃ r : ℝ, y = (r : EReal)) :
    ∃ r : ℝ, x * y = (r : EReal) := by
  obtain ⟨a, rfl⟩ := hx
  obtain ⟨b, rfl⟩ := hy
  exact ⟨a * b, (EReal.coe_mul a b).symm⟩

theorem real_max {x y : EReal} (hx : ∃ r : ℝ, x = (r : EReal)) (hy : ∃ r : ℝ, y = (r : EReal)) :
    ∃ r : ℝ, max x y = (r : EReal) := by
  rcases le_total x y with h | h
  · rw [max_eq_right h]; exact hy
  · rw [max_eq_left h]; exact hx

theorem real_zero : ∃ r : ℝ, (0 : EReal) = (r : EReal) := ⟨0, rfl⟩

/-- A finite sum of reals is a real. -/
theorem real_sum {κ : Type} (s : Finset κ) (f : κ → EReal) (hf : ∀ k ∈ s, ∃ r : ℝ, f k = (r : EReal)) :
    ∃ r : ℝ, ∑ k ∈ s, f k = (r : EReal) := by
  classical
  induction s using Finset.induction_on with
  | empty => exact ⟨0, by simp⟩
  | insert a s ha ih =>
    rw [Finset.sum_insert ha]
    exact real_add (hf a (Finset.mem_insert_self a s)) (ih fun k hk => hf k (Finset.mem_insert_of_mem hk))

/-- A layer of real arrays is real. -/
theorem sage_real {M K N : Nat} {a x : Mat M K} {wl wr : Mat K N} {b : Mat 1 N} (ha : IsReal a) (hx : IsReal x)
    (hwl : IsReal wl) (hwr : IsReal wr) (hb : IsReal b) : IsReal (sage a x wl wr b) := fun i =>
  real_add
    (real_add (real_sum _ _ fun k _ => real_mul (ha _) (hwl _)) (real_sum _ _ fun k _ => real_mul (hx _) (hwr _)))
    (hb _)

/-- The scaled, shifted and clipped array of reals is real. -/
theorem affRelu_real {M N : Nat} {h : Mat M N} {sc sh : Mat 1 N} (hh : IsReal h) (hsc : IsReal sc) (hsh : IsReal sh) :
    IsReal (affRelu h sc sh) := fun i =>
  real_max (real_add (real_mul (hh i) (hsc _)) (hsh _)) real_zero

/-- Reading an array through any map of the indices keeps the entries real. -/
theorem isReal_comp {ι κ : Type} {v : ι → EReal} (hv : IsReal v) (f : κ → ι) : IsReal (fun j => v (f j)) := fun j => hv (f j)

end Cert.Spec

end
-- ==== Proof.NormEq.lean ====
import proofs.«149678_j3092376453139_1_alg».proof.Proof.Fns
import proofs.«149678_j3092376453139_1_alg».proof.Proof.RefFns
import proofs.«149678_j3092376453139_1_alg».proof.Proof.Spec
import proofs.«149678_j3092376453139_1_alg».proof.Proof.Reals
import proofs.«149678_j3092376453139_1_alg».proof.Proof.LibLayout
import proofs.«149678_j3092376453139_1_alg».proof.Proof.Gen.KernelIdeal
import proofs.«149678_j3092376453139_1_alg».proof.Proof.Gen.ReferenceIdeal
import Idealize.ShloMosaic.PureOps.Ideal
import Idealize.ShloMosaic.PureOps.Ideal.Laws
import Idealize.ShloMosaic.Lib.ValueIdx
import Idealize.ShloMosaic.Lib.Pipeline.Value
import Mathlib.Data.EReal.Operations
import Mathlib.Tactic.Ring

/-!
# The normalisation, array by array and folded into a scale and a shift

Between the two layers every column `q` of the `100000 × 64` array `h` is normalised over the nodes:
with `m[q]` the column's mean, `v[q]` its variance (the mean of the squared deviations, nothing taken off
the count) and `s[q] = 1 / √(v[q] + ε)`, the entry `h[r, q]` goes to `max ((((h[r, q] - m[q]) · s[q]) · γ[q]) + β[q]) 0`.
The other spelling first forms one scale `γ[q] · s[q]` and one shift `β[q] - (m[q] · γ[q]) · s[q]` per column and
then computes `max (h[r, q] · scale[q] + shift[q]) 0`.

On the real numbers the two are one function, by distributivity and commutativity. On the extended reals
distributivity fails at `±∞`, so the proof has two halves. First, for an array of real entries the column statistics
are real: a finite sum of reals is real; the count `100000` is a nonzero real, so a quotient by it is a product with
its reciprocal; a variance is a sum of squares of reals times a positive real, hence a real `≥ 0`; `ε` is a positive real,
so `v[q] + ε > 0` and its reciprocal square root is the real `(√(v[q] + ε))⁻¹`. Second, with every quantity a real the
extended-real expressions are images of real ones, and the identity is the ring identity
`((x - m) · s) · γ + β = x · (γ · s) + (β - (m · γ) · s)`.
-/

noncomputable section

namespace Cert.NormEq

open Idealize.ShloMosaic Idealize.ShloMosaic.ValueIdx Cert.Spec Cert.KernelIdeal

/-! ## The two constants -/

/-- The count: sign `0`, exponent `143`, fraction `4411392` is `(2²³ + 4411392) · 2⁻⁷ = 100000`. -/
theorem ofBits_count : Ideal.ofBits .f32 0x47C35000#32 = ((100000 : ℝ) : EReal) := by
  simp [Ideal.ofBits, Ideal.ieee, -EReal.coe_mul]; norm_num

/-- `ε`: a normal pattern with sign `0`, so a positive real (`(2²³ + 2606508) · 2⁻⁴⁰`, about `1e-5`; only its sign
    is used). -/
theorem ofBits_eps : ∃ e : ℝ, 0 < e ∧ Ideal.ofBits .f32 0x3727C5AC#32 = (e : EReal) := by
  simp [Ideal.ofBits, Ideal.ieee, -EReal.coe_mul]

/-! ## Sums and quotients of reals -/

/-- A real divided by the count is a real: the quotient is the product with `1 / 100000`. -/
theorem real_div_count {x : EReal} (hx : ∃ r : ℝ, x = (r : EReal)) :
    ∃ r : ℝ, Ideal.div x ((100000 : ℝ) : EReal) = (r : EReal) := by
  rw [Ideal.div_coe (by norm_num)]
  exact real_mul hx ⟨_, rfl⟩

/-- A finite sum of reals `≥ 0` is a real `≥ 0`. -/
theorem real_sum_nonneg {κ : Type} (s : Finset κ) (f : κ → EReal) (hf : ∀ k ∈ s, ∃ r : ℝ, 0 ≤ r ∧ f k = (r : EReal)) :
    ∃ r : ℝ, 0 ≤ r ∧ ∑ k ∈ s, f k = (r : EReal) := by
  classical
  induction s using Finset.induction_on with
  | empty => exact ⟨0, le_refl _, by simp⟩
  | insert a s ha ih =>
    rw [Finset.sum_insert ha]
    obtain ⟨x, hx0, hx⟩ := hf a (Finset.mem_insert_self a s)
    obtain ⟨y, hy0, hy⟩ := ih fun k hk => hf k (Finset.mem_insert_of_mem hk)
    exact ⟨x + y, add_nonneg hx0 hy0, by rw [hx, hy, EReal.coe_add]⟩

/-- A sum along axes from the initial value `0`: of real entries, every result is real. -/
theorem hostReduceAdd_real {s t : Shape} {axes : List (Fin s.rank)} (h' : s.ReducesTo axes t) (x : s.Idx → EReal)
    (hx : IsReal x) : IsReal (Ideal.hostReduceAdd h' x (Ideal.ofBits .f32 0x00000000#32)) := fun j => by
  unfold Ideal.hostReduceAdd
  rw [Ideal.ofBits_zero_f32]
  exact real_add real_zero (real_sum _ _ fun i _ => hx i)

/-- The same sum of entries that are reals `≥ 0`: every result is a real `≥ 0`. -/
theorem hostReduceAdd_nonneg {s t : Shape} {axes : List (Fin s.rank)} (h' : s.ReducesTo axes t) (x : s.Idx → EReal)
    (hx : ∀ i, ∃ r : ℝ, 0 ≤ r ∧ x i = (r : EReal)) (j : t.Idx) :
    ∃ r : ℝ, 0 ≤ r ∧ Ideal.hostReduceAdd h' x (Ideal.ofBits .f32 0x00000000#32) j = (r : EReal) := by
  unfold Ideal.hostReduceAdd
  rw [Ideal.ofBits_zero_f32, zero_add]
  exact real_sum_nonneg _ _ fun i _ => hx i

/-! ## The column statistics of a real array are real -/

/-- Each column's sum over the nodes is real. -/
theorem colSum_real (h : FVec Ideal S100000x64 .f32) (hh : IsReal h) : IsReal (Fns.colSum (F := Ideal) h) :=
  hostReduceAdd_real _ h hh

/-- The mean of column `q` is its sum over `100000`. -/
theorem colMean_apply (h : FVec Ideal S100000x64 .f32) (q : S64.Idx) :
    Fns.colMean (F := Ideal) h q = Ideal.div (Fns.colSum (F := Ideal) h q) ((100000 : ℝ) : EReal) := by
  show Ideal.div (Fns.colSum (F := Ideal) h q) (Ideal.ofBits .f32 0x47C35000#32) = _
  rw [ofBits_count]

/-- The column means of a real array are real. -/
theorem colMean_real (h : FVec Ideal S100000x64 .f32) (hh : IsReal h) : IsReal (Fns.colMean (F := Ideal) h) := fun q => by
  rw [colMean_apply]; exact real_div_count (colSum_real h hh q)

/-- Each entry less its column's mean is real. -/
theorem centred_real (h : FVec Ideal S100000x64 .f32) (hh : IsReal h) : IsReal (Fns.centred (F := Ideal) h) := fun i => by
  show ∃ r : ℝ, h i - Ideal.div (Fns.colSum (F := Ideal) h _) (Ideal.ofBits .f32 0x47C35000#32) = (r : EReal)
  rw [ofBits_count]
  exact real_sub (hh i) (real_div_count (colSum_real h hh _))

/-- The variance's divisor, `100000 - 0`, is `100000`. -/
theorem varCount_apply (i : S_.Idx) : Fns.varCount (F := Ideal) i = ((100000 : ℝ) : EReal) := by
  show Ideal.ofBits .f32 0x47C35000#32 - (((0#32 : BitVec 32).toInt : ℝ) : EReal) = _
  rw [ofBits_count]
  simp

/-- The divisor is positive, so the variance of column `q` is the sum of the squared deviations over `100000`: the
    other branch of the choice is never taken. -/
theorem colVar_apply (h : FVec Ideal S100000x64 .f32) (q : S64.Idx) :
    Fns.colVar (F := Ideal) h q
      = Ideal.div (Fns.colSum (F := Ideal) (mulf (Fns.centred (F := Ideal) h) (Fns.centred (F := Ideal) h)) q)
          ((100000 : ℝ) : EReal) := by
  unfold Fns.colVar
  rw [select_apply]
  -- the comparison `100000 > 0` answers 1 at every column
  have hc : broadcastInDim S64 ![] Facts₀.bcast_S_S64
      (cmpf .ogt (Fns.varCount (F := Ideal)) (constant S_ .f32 0x00000000#32)) q = 1#1 := by
    show Ideal.cmp .ogt (Fns.varCount (F := Ideal) _) (Ideal.ofBits .f32 0x00000000#32) = 1#1
    rw [varCount_apply, Ideal.ofBits_zero_f32]
    simp [Ideal.cmp]
  rw [hc, select_one]
  show Ideal.div _ (Fns.varCount (F := Ideal) _) = _
  rw [varCount_apply]

/-- The variance of a column of reals is a real `≥ 0`: a sum of squares `c · c` of reals, times `1 / 100000`. -/
theorem colVar_nonneg (h : FVec Ideal S100000x64 .f32) (hh : IsReal h) (q : S64.Idx) :
    ∃ v : ℝ, 0 ≤ v ∧ Fns.colVar (F := Ideal) h q = (v : EReal) := by
  rw [colVar_apply, Ideal.div_coe (by norm_num)]
  obtain ⟨s, hs0, hs⟩ : ∃ s : ℝ, 0 ≤ s
      ∧ Fns.colSum (F := Ideal) (mulf (Fns.centred (F := Ideal) h) (Fns.centred (F := Ideal) h)) q = (s : EReal) :=
    hostReduceAdd_nonneg _ _ (fun i => by
      obtain ⟨c, hc⟩ := centred_real h hh i
      exact ⟨c * c, mul_self_nonneg c, by rw [mulf_apply, hc, EReal.coe_mul]⟩) q
  rw [hs, ← EReal.coe_mul]
  exact ⟨_, mul_nonneg hs0 (by norm_num), rfl⟩

/-- `1 / √(v + ε)` is real: `v ≥ 0` and `ε > 0` are reals, so `v + ε` is a positive real and the reciprocal square root
    is neither the junk value below zero nor the infinity at zero. -/
theorem invStd_real (h : FVec Ideal S100000x64 .f32) (hh : IsReal h) : IsReal (Fns.invStd (F := Ideal) h) := fun q => by
  obtain ⟨v, hv0, hv⟩ := colVar_nonneg h hh q
  obtain ⟨e, he0, he⟩ := ofBits_eps
  show ∃ s : ℝ, Ideal.rsqrt (Fns.colVar (F := Ideal) h q + Ideal.ofBits .f32 0x3727C5AC#32) = (s : EReal)
  have hpos : (0 : ℝ) < v + e := add_pos_of_nonneg_of_pos hv0 he0
  rw [hv, he, ← EReal.coe_add, Ideal.rsqrt_coe, if_neg (not_lt.mpr hpos.le), if_neg hpos.ne']
  exact ⟨_, rfl⟩

/-- The scale row `γ · s` is real. -/
theorem scaleRow_real (g : FVec Ideal S64 .f32) (h : FVec Ideal S100000x64 .f32) (hg : IsReal g) (hh : IsReal h) :
    IsReal (Fns.scaleRow (F := Ideal) g h) := fun j => by
  show ∃ r : ℝ, g _ * Fns.invStd (F := Ideal) h _ = (r : EReal)
  exact real_mul (hg _) (invStd_real h hh _)

/-- The shift row `β - (m · γ) · s` is real. -/
theorem shiftRow_real (g b : FVec Ideal S64 .f32) (h : FVec Ideal S100000x64 .f32) (hg : IsReal g) (hb : IsReal b)
    (hh : IsReal h) : IsReal (Fns.shiftRow (F := Ideal) g b h) := fun j => by
  show ∃ r : ℝ, b _ - (Fns.colMean (F := Ideal) h _ * g _) * Fns.invStd (F := Ideal) h _ = (r : EReal)
  exact real_sub (hb _) (real_mul (real_mul (colMean_real h hh _) (hg _)) (invStd_real h hh _))

/-! ## The rows read at an entry -/

/-- A vector of 64 laid out as `100000` equal rows reads `v[q]` at `(r, q)`. -/
theorem rows64_apply (v : FVec Ideal S64 .f32) (r : Fin 100000) (q : Fin 64) :
    Cert.ReferenceIdeal.Fns.rows64 (F := Ideal) v (ix2 r q) = v (ix1 q) :=
  Cert.LibDense.hostBias_apply 100000 64 _ _ v r q

/-- A vector of 64 seen as a `1 × 64` row reads `v[q]` at `(0, q)`: the row-major position `0 · 64 + q` is `q`. -/
theorem row_cast_apply (v : FVec Ideal S64 .f32) (q : Fin 64) :
    shapeCast S1x64 v Facts₀.shapeCasts_S64_S1x64 (ix2 (0 : Fin 1) q) = v (ix1 q) := by
  refine shapeCast_apply v _ (ix2 (0 : Fin 1) q) (ix1 q) ?_
  rw [Shape.rowMajor_val_one, Shape.rowMajor_val_two]
  show q.val = 0 * 64 + q.val
  omega

/-- The scale at column `q` is `γ[q] · s[q]`. -/
theorem scaleRow_apply (g : FVec Ideal S64 .f32) (h : FVec Ideal S100000x64 .f32) (q : Fin 64) :
    Fns.scaleRow (F := Ideal) g h (ix2 (0 : Fin 1) q) = g (ix1 q) * Fns.invStd (F := Ideal) h (ix1 q) := by
  unfold Fns.scaleRow
  rw [row_cast_apply, mulf_apply]

/-- The shift at column `q` is `β[q] - (m[q] · γ[q]) · s[q]`. -/
theorem shiftRow_apply (g b : FVec Ideal S64 .f32) (h : FVec Ideal S100000x64 .f32) (q : Fin 64) :
    Fns.shiftRow (F := Ideal) g b h (ix2 (0 : Fin 1) q)
      = b (ix1 q) - (Fns.colMean (F := Ideal) h (ix1 q) * g (ix1 q)) * Fns.invStd (F := Ideal) h (ix1 q) := by
  unfold Fns.shiftRow
  rw [row_cast_apply, subf_apply, mulf_apply, mulf_apply]

/-! ## The two spellings agree on real data -/

/-- Array by array or folded into a scale and a shift, the normalised and clipped array is the same when `γ`, `β`
    and `h` are real. -/
theorem norm_eq (g b : FVec Ideal S64 .f32) (h : FVec Ideal S100000x64 .f32) (hg : IsReal g) (hb : IsReal b)
    (hh : IsReal h) :
    Cert.ReferenceIdeal.Fns.norm (F := Ideal) g b h
      = Cert.Spec.affRelu (M := 100000) (N := 64) h (Fns.scaleRow (F := Ideal) g h) (Fns.shiftRow (F := Ideal) g b h) := by
  funext i
  obtain ⟨r, q, rfl⟩ : ∃ (r : Fin 100000) (q : Fin 64), i = ix2 r q := ⟨i 0, i 1, eq_ix2 i⟩
  -- the statistics are the same functions of `h` on both sides
  have e1 : Cert.ReferenceIdeal.Fns.colMean (F := Ideal) h = Fns.colMean (F := Ideal) h := rfl
  have e2 : Cert.ReferenceIdeal.Fns.invStd (F := Ideal) h = Fns.invStd (F := Ideal) h := rfl
  -- both sides at the entry (r, q)
  rw [affRelu_apply, scaleRow_apply, shiftRow_apply]
  unfold Cert.ReferenceIdeal.Fns.norm
  rw [Cert.LibDense.hostRelu_eq]
  show max (((h (ix2 r q) - Cert.ReferenceIdeal.Fns.rows64 (F := Ideal) (Cert.ReferenceIdeal.Fns.colMean (F := Ideal) h) (ix2 r q))
        * Cert.ReferenceIdeal.Fns.rows64 (F := Ideal) (Cert.ReferenceIdeal.Fns.invStd (F := Ideal) h) (ix2 r q))
        * Cert.ReferenceIdeal.Fns.rows64 (F := Ideal) g (ix2 r q)
      + Cert.ReferenceIdeal.Fns.rows64 (F := Ideal) b (ix2 r q)) 0 = _
  rw [rows64_apply, rows64_apply, rows64_apply, rows64_apply, e1, e2]
  -- every quantity is a real; the identity is then one of the real field
  obtain ⟨x, hx⟩ := hh (ix2 r q)
  obtain ⟨m, hm⟩ := colMean_real h hh (ix1 q)
  obtain ⟨s, hs⟩ := invStd_real h hh (ix1 q)
  obtain ⟨γ, hγ⟩ := hg (ix1 q)
  obtain ⟨β, hβ⟩ := hb (ix1 q)
  have key : (((x - m) * s) * γ) + β = x * (γ * s) + (β - (m * γ) * s) := by ring
  rw [hx, hm, hs, hγ, hβ]
  simp only [← EReal.coe_sub, ← EReal.coe_mul, ← EReal.coe_add]
  exact congrArg (fun t : ℝ => max (t : EReal) 0) key

end Cert.NormEq

end
-- ==== Proof.AggReal.lean ====
import proofs.«149678_j3092376453139_1_alg».proof.Proof.Fns
import proofs.«149678_j3092376453139_1_alg».proof.Proof.Spec
import proofs.«149678_j3092376453139_1_alg».proof.Proof.Reals
import proofs.«149678_j3092376453139_1_alg».proof.Proof.Gen.KernelIdeal
import Idealize.ShloMosaic.PureOps.Ideal
import Idealize.ShloMosaic.PureOps.Ideal.Laws
import Idealize.ShloMosaic.Lib.ValueIdx
import Idealize.ShloMosaic.Lib.IdealHost

/-!
# The neighbourhood mean of real features is real

A node's mean is `(0 + ∑ over the edges into the node of the source's feature) / max (0 + ∑ over those edges of 1) 1`.
Each gathered feature is an entry of the feature array, so it is real; a finite sum of reals from zero is real; the
count is real, so its maximum with one is a real `≥ 1`, in particular not zero; and a real divided by a nonzero real
is their real quotient. Which edges land on which node never matters: every sum here is over some finite set.
-/

noncomputable section

namespace Cert.KernelIdeal.AggReal

open Idealize.ShloMosaic Idealize.ShloMosaic.ValueIdx
open Cert.KernelIdeal Cert.Spec

/-! ## Two scalar facts -/

/-- The maximum of a real and one is a real that is at least one. -/
theorem max_one_ge_one {a : EReal} (ha : ∃ r : ℝ, a = (r : EReal)) : ∃ r : ℝ, 1 ≤ r ∧ max a 1 = (r : EReal) := by
  obtain ⟨x, rfl⟩ := ha
  exact ⟨max x 1, le_max_right x 1, by rw [EReal.coe_strictMono.monotone.map_max, EReal.coe_one]⟩

/-- A real over a real `y ≥ 1` is the real `x · (1 / y)`: `y` is not zero, so the quotient is the product with the
    reciprocal. -/
theorem real_div_ge_one {a b : EReal} (ha : ∃ r : ℝ, a = (r : EReal)) (hb : ∃ r : ℝ, 1 ≤ r ∧ b = (r : EReal)) :
    ∃ r : ℝ, Ideal.div a b = (r : EReal) := by
  obtain ⟨x, rfl⟩ := ha; obtain ⟨y, hy, rfl⟩ := hb
  have hy0 : y ≠ 0 := by intro h0; rw [h0] at hy; exact absurd hy (by norm_num)
  exact ⟨x * (1 / y), by rw [Ideal.div_coe hy0, EReal.coe_mul]⟩

/-! ## The array operations keep the entries real -/

/-- Every entry of a broadcast array is an entry of its source: what holds of all source entries holds of all
    result entries. -/
theorem broadcastInDim_forall {α : Type} {s t : Shape} (P : α → Prop) (dims : Fin s.rank → Fin t.rank)
    (h : s.BroadcastsInDim t dims) (x : s.Idx → α) (hx : ∀ i, P (x i)) (j : t.Idx) : P (broadcastInDim t dims h x j) :=
  hx _

/-- In particular a broadcast of reals is real. -/
theorem isReal_broadcastInDim {s t : Shape} (dims : Fin s.rank → Fin t.rank) (h : s.BroadcastsInDim t dims)
    (x : s.Idx → EReal) (hx : IsReal x) : IsReal (broadcastInDim t dims h x) :=
  fun j => hx _

/-- The all-zero word denotes the real `0`. -/
theorem isReal_const_zero (s : Shape) : IsReal (constant (F := Ideal) s .f32 0x00000000#32) :=
  fun i => ⟨0, by rw [constant_apply, Ideal.ofBits_zero_f32, EReal.coe_zero]⟩

/-- The word `0x3F800000` denotes the real `1`. -/
theorem isReal_const_one (s : Shape) : IsReal (constant (F := Ideal) s .f32 0x3F800000#32) :=
  fun i => ⟨1, by rw [constant_apply, Ideal.ofBits_one_f32, EReal.coe_one]⟩

/-- Every gathered entry is an entry of the operand, whatever the start indices. -/
theorem isReal_gather {s si t : Shape} {w : Nat} (d : GatherDims s si t) (x : s.Idx → EReal) (idx : IVec si w)
    (hx : IsReal x) : IsReal (Host.gather d x idx) :=
  fun j => hx _

/-- Scattering real updates by addition into a real array leaves it real: each entry is the old entry plus the sum of
    the updates landing on it, a finite sum of reals. -/
theorem isReal_scatterAdd {s si su : Shape} {w : Nat} (d : ScatterDims s si su) (x : FVec Ideal s .f32)
    (idx : IVec si w) (upd : FVec Ideal su .f32) (hx : IsReal x) (hu : IsReal upd) :
    IsReal (Host.scatterAdd d x idx upd) := by
  intro i
  show ∃ r : ℝ, x i + ∑ j ∈ Finset.univ.filter (fun j => d.resultIdx? j idx = some i), upd j = (r : EReal)
  exact real_add (hx i) (real_sum _ _ fun j _ => hu j)

/-! ## The degree and the two means -/

/-- A node's degree, `max (number of edges into it) 1`, is a real `≥ 1`. -/
theorem degree_ge_one (ei : IVec S2x1600000 32) (i : S100000.Idx) :
    ∃ r : ℝ, 1 ≤ r ∧ Fns.degree (F := Ideal) ei i = (r : EReal) := by
  unfold Fns.degree
  rw [maximumf_apply, broadcastInDim_scalar_apply, constant_apply, Ideal.ofBits_one_f32]
  exact max_one_ge_one (isReal_scatterAdd _ _ _ _ (isReal_broadcastInDim _ _ _ (isReal_const_zero _))
    (isReal_broadcastInDim _ _ _ (isReal_const_one _)) i)

/-- The mean of real 128-wide features over each node's in-edges is real. -/
theorem agg128_real (x : FVec Ideal S100000x128 .f32) (ei : IVec S2x1600000 32) (hx : IsReal x) :
    IsReal (Fns.agg128 (F := Ideal) x ei) := by
  intro i
  unfold Fns.agg128
  rw [hostDivf_apply]
  refine real_div_ge_one ?_ ?_
  · exact isReal_scatterAdd _ _ _ _ (isReal_broadcastInDim _ _ _ (isReal_const_zero _)) (isReal_gather _ _ _ hx) i
  · exact broadcastInDim_forall (fun a => ∃ r : ℝ, 1 ≤ r ∧ a = (r : EReal)) _ _ _
      (broadcastInDim_forall (fun a => ∃ r : ℝ, 1 ≤ r ∧ a = (r : EReal)) _ _ _ (degree_ge_one ei)) i

/-- The same of 64-wide features. -/
theorem agg64_real (h : FVec Ideal S100000x64 .f32) (ei : IVec S2x1600000 32) (hh : IsReal h) :
    IsReal (Fns.agg64 (F := Ideal) h ei) := by
  intro i
  unfold Fns.agg64
  rw [hostDivf_apply]
  refine real_div_ge_one ?_ ?_
  · exact isReal_scatterAdd _ _ _ _ (isReal_broadcastInDim _ _ _ (isReal_const_zero _)) (isReal_gather _ _ _ hh) i
  · exact broadcastInDim_forall (fun a => ∃ r : ℝ, 1 ≤ r ∧ a = (r : EReal)) _ _ _
      (broadcastInDim_forall (fun a => ∃ r : ℝ, 1 ≤ r ∧ a = (r : EReal)) _ _ _ (degree_ge_one ei)) i

end Cert.KernelIdeal.AggReal

end
-- ==== Proof.Bridge.lean ====
import proofs.«149678_j3092376453139_1_alg».proof.Proof.KernelOut
import proofs.«149678_j3092376453139_1_alg».proof.Proof.RefFns
import proofs.«149678_j3092376453139_1_alg».proof.Proof.LayerEq
import proofs.«149678_j3092376453139_1_alg».proof.Proof.NormEq
import proofs.«149678_j3092376453139_1_alg».proof.Proof.AggReal
import proofs.«149678_j3092376453139_1_alg».proof.Proof.Reals
import proofs.«149678_j3092376453139_1_alg».proof.Proof.Gen.KernelIdeal
import proofs.«149678_j3092376453139_1_alg».proof.Proof.Gen.ReferenceIdeal

/-!
# The kernel's program and the reference compute one function of real arguments

Layer by layer. The first layer: the reference's `(a · wlᵀ + b) + x · wrᵀ` is the kernel's `(a · wlᵀ + x · wrᵀ) + b`, a
sum regrouped, at any extended reals. The normalisation: the reference's `((h - mean) · s) · γ + β` is the kernel's
`h · (γ · s) + (β - (mean · γ) · s)` where the first layer's output, its column means and reciprocal deviations are real —
they are, the arguments being real: a neighbourhood mean of real rows is real, a layer of real arrays is real, and the
statistics of a real array are real. The second layer as the first. The neighbourhood means are the same host operations
in both programs.
-/

noncomputable section

namespace Cert.Bridge

open Idealize.ShloMosaic Cert.Spec
open Cert.KernelIdeal (S100000x128 S2x1600000 S64x128 S64 S16x64 S16 S100000x64 S1x64 S1x16)
open Cert.KernelIdeal.Facts₀ Cert.KernelIdeal.Facts

/-- The neighbourhood mean of 128 features is the same composition of host operations in both programs. -/
theorem agg128_agree (x : FVec Ideal S100000x128 .f32) (ei : IVec S2x1600000 32) :
    Cert.ReferenceIdeal.Fns.agg128 (F := Ideal) x ei = Cert.KernelIdeal.Fns.agg128 (F := Ideal) x ei := rfl

/-- So is the mean of 64 features. -/
theorem agg64_agree (h : FVec Ideal S100000x64 .f32) (ei : IVec S2x1600000 32) :
    Cert.ReferenceIdeal.Fns.agg64 (F := Ideal) h ei = Cert.KernelIdeal.Fns.agg64 (F := Ideal) h ei := rfl

variable (x : FVec Ideal S100000x128 .f32) (ei : IVec S2x1600000 32) (w1l : FVec Ideal S64x128 .f32) (b1 : FVec Ideal S64 .f32)
  (w1r : FVec Ideal S64x128 .f32) (g bt : FVec Ideal S64 .f32) (w2l : FVec Ideal S16x64 .f32) (b2 : FVec Ideal S16 .f32)
  (w2r : FVec Ideal S16x64 .f32)

/-- The first layer: the reference's spelling is the kernel's. -/
theorem layer1_agree :
    Cert.ReferenceIdeal.Fns.layer1 (F := Ideal) (Cert.ReferenceIdeal.Fns.agg128 (F := Ideal) x ei) x w1l b1 w1r
      = Cert.KernelIdeal.KernelValue.pre1 x ei w1l b1 w1r := by
  rw [Cert.LayerEq.layer1_eq shapeCasts_S64_S1x64, agg128_agree]
  rfl

/-- The first layer's output is real when the arguments are. -/
theorem pre1_real (hx : IsReal x) (hw1l : IsReal w1l) (hb1 : IsReal b1) (hw1r : IsReal w1r) :
    IsReal (Cert.KernelIdeal.KernelValue.pre1 x ei w1l b1 w1r) :=
  sage_real (Cert.KernelIdeal.AggReal.agg128_real x ei hx) hx (Cert.LayerEq.transpose_real _ hw1l)
    (Cert.LayerEq.transpose_real _ hw1r) (Cert.LayerEq.shapeCast_real _ hb1)

/-- The hidden features: the reference's normalisation, array by array, is the kernel's scale and shift. -/
theorem hidden_agree (hx : IsReal x) (hw1l : IsReal w1l) (hb1 : IsReal b1) (hw1r : IsReal w1r) (hg : IsReal g) (hbt : IsReal bt) :
    Cert.ReferenceIdeal.Fns.hidden (F := Ideal) x ei w1l b1 w1r g bt = Cert.KernelIdeal.KernelValue.hid x ei w1l b1 w1r g bt := by
  unfold Cert.ReferenceIdeal.Fns.hidden
  rw [layer1_agree]
  exact Cert.NormEq.norm_eq g bt _ hg hbt (pre1_real x ei w1l b1 w1r hx hw1l hb1 hw1r)

/-- The two programs' results agree on real arguments. -/
theorem out_agree (hx : IsReal x) (hw1l : IsReal w1l) (hb1 : IsReal b1) (hw1r : IsReal w1r) (hg : IsReal g) (hbt : IsReal bt) :
    Cert.KernelIdeal.KernelValue.kout x ei w1l b1 w1r g bt w2l b2 w2r
      = Cert.ReferenceIdeal.Fns.out (F := Ideal) x ei w1l b1 w1r g bt w2l b2 w2r := by
  unfold Cert.ReferenceIdeal.Fns.out
  rw [hidden_agree x ei w1l b1 w1r g bt hx hw1l hb1 hw1r hg hbt, Cert.LayerEq.layer2_eq shapeCasts_S16_S1x16, agg64_agree]
  rfl

end Cert.Bridge

end
-- ==== Proof.lean ====
/-
  A two-layer graph network with mean aggregation, a pipelined kernel program against its array-language reference, over the
  extended reals.

  Both programs average each node's in-neighbours' features with the same host operations (a gather by the edges' sources, a
  scatter-add by their destinations into sums and into counts, a division by `max count 1`), apply a dense layer
  `agg · Wlᵀ + x · Wrᵀ + b`, normalise every column of the result over the 100000 nodes, clip at zero, and apply a second
  layer to the hidden features and their neighbourhood means. They differ in two places. The kernels add the bias last,
  `(agg · Wlᵀ + x · Wrᵀ) + b`, tile by tile of 5000 and 10000 rows, where the reference adds it in the middle,
  `(agg · Wlᵀ + b) + x · Wrᵀ`: a sum regrouped, equal at all extended reals. And the kernel's program folds the
  normalisation `((h - mean) · s) · γ + β`, `s = 1 / √(var + ε)`, into a scale and a shift per column,
  `h · (γ · s) + (β - (mean · γ) · s)`: equal by distributivity, which holds on the reals and fails at `±∞`. The precondition
  makes every float argument real; a neighbourhood mean of real rows is real whatever the edge list holds (an edge whose
  destination is out of range is dropped by the scatter, a source out of range is clamped by the gather, and the count is
  at least one), a layer of real arrays is real, the column means are real, the variance is a real `≥ 0` and `ε > 0`, so
  `s` is real: the two spellings agree.

  The frames of the two kernel programs are the generated ones; the kernel program's run is stated once more with its
  result array named, each region's array read as one whole-array function of the region's entry contents and each host
  stretch read back to the launch memory. The reference has no kernel: its run is the fold of its host operations, its two
  calls' bodies in line.
-/
import proofs.«149678_j3092376453139_1_alg».proof.Defs
import proofs.«149678_j3092376453139_1_alg».proof.Proof.Gen.Kernel
import proofs.«149678_j3092376453139_1_alg».proof.Proof.Gen.Kernel.Skeleton
import proofs.«149678_j3092376453139_1_alg».proof.Proof.Gen.Kernel.Launch
import proofs.«149678_j3092376453139_1_alg».proof.Proof.Gen.Kernel.Points
import proofs.«149678_j3092376453139_1_alg».proof.Proof.Gen.Kernel.Frame
import proofs.«149678_j3092376453139_1_alg».proof.Proof.Gen.KernelIdeal
import proofs.«149678_j3092376453139_1_alg».proof.Proof.Gen.KernelIdeal.Skeleton
import proofs.«149678_j3092376453139_1_alg».proof.Proof.Gen.KernelIdeal.Launch
import proofs.«149678_j3092376453139_1_alg».proof.Proof.Gen.KernelIdeal.Points
import proofs.«149678_j3092376453139_1_alg».proof.Proof.Gen.KernelIdeal.Frame
import proofs.«149678_j3092376453139_1_alg».proof.Proof.Gen.ReferenceIdeal
import proofs.«149678_j3092376453139_1_alg».proof.Proof.Gen.Pre_finite_inputs
import proofs.«149678_j3092376453139_1_alg».proof.Proof.KernelRun
import proofs.«149678_j3092376453139_1_alg».proof.Proof.KernelValue
import proofs.«149678_j3092376453139_1_alg».proof.Proof.RefRun
import proofs.«149678_j3092376453139_1_alg».proof.Proof.RefValue
import proofs.«149678_j3092376453139_1_alg».proof.Proof.FinitePre
import proofs.«149678_j3092376453139_1_alg».proof.Proof.Bridge
import Idealize.ShloMosaic.Adequacy
import Idealize.ShloMosaic.Init

noncomputable section

namespace Cert.Proof

open Idealize.ShloMosaic Idealize.SL.Sem

/-- The word-level kernel program's frame: generated. -/
theorem frame_kernel : Cert.frame_Kernel := fun m ρ _ => Cert.Kernel.Gen.frame m ρ

/-- The idealized kernel program's frame: generated. -/
theorem frame_kernelIdeal : Cert.frame_KernelIdeal := fun m ρ _ => Cert.KernelIdeal.Gen.frame m ρ

/-- The reference's frame: its run with the result dropped. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- The idealization rewrote nothing. -/
theorem preserves : Cert.preserves_Kernel_KernelIdeal := trivial

/-- From memories agreeing on the arguments both programs run, and the kernel program's result array — the second layer
    on the scaled, shifted and clipped first layer — is the reference's, the float arguments being real. -/
theorem algebraic : Cert.algebraic_KernelIdeal_ReferenceIdeal := by
  intro m ρ m' ρ' hpre hagree
  refine ⟨fun c => Cert.KernelIdeal.Gen.W8 m ρ c (Proc.devRef .tc Cert.KernelIdeal.main_v67),
    Cert.KernelIdeal.RunValue.run (F := Ideal) m ρ, ?_⟩
  refine (θ_run Cert.ReferenceIdeal.defs _ _).mono (fun _ h c => ⟨(h c).1.trans ?_, (h c).2⟩)
    (Cert.ReferenceIdeal.RefRun.run (F := Ideal) m' ρ')
  obtain ⟨r0, r2, r3, r4, r5, r6, -, -, -⟩ := Cert.FinitePre.real_inputs m hpre c
  obtain ⟨e0, e1, e2, e3, e4, e5, e6, e7, e8, e9⟩ := hagree c
  rw [Cert.ReferenceIdeal.RefValue.resOut_eq, e0, e1, e2, e3, e4, e5, e6, e7, e8, e9]
  refine Eq.trans ?_ (Cert.KernelIdeal.KernelValue.W8_v67 m ρ c).symm
  exact (Cert.Bridge.out_agree _ _ _ _ _ _ _ _ _ _ r0 r2 r3 r4 r5 r6).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
